-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32000 : Shape := ⟨2, ![4096, 32000]⟩
abbrev S4096 : Shape := ⟨1, ![4096]⟩
abbrev S_ : Shape := ⟨0, ![]⟩

class Facts : Prop where
  bcast_S_S4096x32000 : S_.BroadcastsInDim S4096x32000 (![] : Fin 0 → Fin S4096x32000.rank)
  reducesTo_S4096x32000_S_d0_1 : S4096x32000.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x32000 .f32) (main_arg1 : IVec S4096 32) (main_arg2 : IVec S4096 32) : IVec S_ 1 :=
  let main_v0 : FVec F S4096x32000 .f32 := Host.absf main_arg0
  let main_cst : FVec F S_ .f32 := constant S_ .f32 0x7F800000#32
  let main_v1 : FVec F S4096x32000 .f32 := broadcastInDim S4096x32000 ![] bcast_S_S4096x32000 main_cst
  let main_v2 : IVec S4096x32000 1 := cmpf .olt main_v0 main_v1
  let main_c : IVec S_ 1 := constantI S_ 1 1#1
  let main_v3 : IVec S_ 1 := (fun x v => Host.reduce IntOp.andi x v reducesTo_S4096x32000_S_d0_1 h_S_) main_v2 main_c
  let main_c_0 : IVec S_ 32 := constantI S_ 32 0#32
  let main_v4 : IVec S4096 32 := broadcastInDim S4096 ![] bcast_S_S4096 main_c_0
  let main_v5 : IVec S4096 1 := cmpi .sge main_arg1 main_v4
  let main_c_1 : IVec S_ 1 := constantI S_ 1 1#1
  let main_v6 : IVec S_ 1 := (fun x v => Host.reduce IntOp.andi x v reducesTo_S4096_S_d0 h_S_) main_v5 main_c_1
  let main_v7 : IVec S_ 1 := andi main_v3 main_v6
  let main_c_2 : IVec S_ 32 := constantI S_ 32 32000#32
  let main_v8 : IVec S4096 32 := broadcastInDim S4096 ![] bcast_S_S4096 main_c_2
  let main_v9 : IVec S4096 1 := cmpi .slt main_arg1 main_v8
  let main_c_3 : IVec S_ 1 := constantI S_ 1 1#1
  let main_v10 : IVec S_ 1 := (fun x v => Host.reduce IntOp.andi x v reducesTo_S4096_S_d0 h_S_) main_v9 main_c_3
  let main_v11 : IVec S_ 1 := andi main_v7 main_v10
  main_v11
-- ==== Kernel.lean ====
abbrev S4096x32000 : Shape := ⟨2, ![4096, 32000]⟩
abbrev S4096 : Shape := ⟨1, ![4096]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩
abbrev S512x6400 : Shape := ⟨2, ![512, 6400]⟩
abbrev S512x1 : Shape := ⟨2, ![512, 1]⟩
abbrev S512x1280 : Shape := ⟨2, ![512, 1280]⟩
abbrev S512 : Shape := ⟨1, ![512]⟩

abbrev nBuf : Space → Nat
  | .hbm => 77
  | .vmem => 8
  | .smem => 0
  | _ => 0

abbrev bufTy : (tb : Table) → Fin (tcTables nBuf tb) → BufTy
  | .hbm, ⟨0, _⟩ => ⟨S4096x32000, .f32⟩
  | .hbm, ⟨1, _⟩ => ⟨S4096, .i32⟩
  | .hbm, ⟨2, _⟩ => ⟨S4096, .i32⟩
  | .hbm, ⟨3, _⟩ => ⟨S4096, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S_, .i32⟩
  | .hbm, ⟨13, _⟩ => ⟨S4096, .i32⟩
  | .hbm, ⟨14, _⟩ => ⟨S4096, .i1⟩
  | .hbm, ⟨15, _⟩ => ⟨S_, .i32⟩
  | .hbm, ⟨16, _⟩ => ⟨S4096, .i32⟩
  | .hbm, ⟨17, _⟩ => ⟨S4096, .i1⟩
  | .hbm, ⟨18, _⟩ => ⟨S_, .i32⟩
  | .hbm, ⟨19, _⟩ => ⟨S_, .i1⟩
  | .hbm, ⟨20, _⟩ => ⟨S4096, .i1⟩
  | .hbm, ⟨21, _⟩ => ⟨S4096, .i1⟩
  | .hbm, ⟨22, _⟩ => ⟨S4096, .i1⟩
  | .hbm, ⟨23, _⟩ => ⟨S4096, .i32⟩
  | .hbm, ⟨24, _⟩ => ⟨S4096, .i32⟩
  | .hbm, ⟨25, _⟩ => ⟨S4096, .i32⟩
  | .hbm, ⟨26, _⟩ => ⟨S4096x1, .i32⟩
  | .hbm, ⟨27, _⟩ => ⟨S_, .i32⟩
  | .hbm, ⟨28, _⟩ => ⟨S4096x1, .i32⟩
  | .hbm, ⟨29, _⟩ => ⟨S4096x1, .i1⟩
  | .hbm, ⟨30, _⟩ => ⟨S_, .i32⟩
  | .hbm, ⟨31, _⟩ => ⟨S4096x1, .i32⟩
  | .hbm, ⟨32, _⟩ => ⟨S4096x1, .i32⟩
  | .hbm, ⟨33, _⟩ => ⟨S4096x1, .i32⟩
  | .hbm, ⟨34, _⟩ => ⟨S4096x1x1, .i32⟩
  | .hbm, ⟨35, _⟩ => ⟨S1, .i32⟩
  | .hbm, ⟨36, _⟩ => ⟨S_, .i32⟩
  | .hbm, ⟨37, _⟩ => ⟨S4096x1x1, .i32⟩
  | .hbm, ⟨38, _⟩ => ⟨S4096x1x1, .i1⟩
  | .hbm, ⟨39, _⟩ => ⟨S1x1x1, .i32⟩
  | .hbm, ⟨40, _⟩ => ⟨S4096x1x1, .i32⟩
  | .hbm, ⟨41, _⟩ => ⟨S4096x1x1, .i1⟩
  | .hbm, ⟨42, _⟩ => ⟨S4096x1x1, .i1⟩
  | .hbm, ⟨43, _⟩ => ⟨S_, .i1⟩
  | .hbm, ⟨44, _⟩ => ⟨S4096x1, .i1⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x1, .i32⟩
  | .hbm, ⟨50, _⟩ => ⟨S_, .i32⟩
  | .hbm, ⟨51, _⟩ => ⟨S4096x1, .i32⟩
  | .hbm, ⟨52, _⟩ => ⟨S4096x1, .i1⟩
  | .hbm, ⟨53, _⟩ => ⟨S_, .i32⟩
  | .hbm, ⟨54, _⟩ => ⟨S4096x1, .i32⟩
  | .hbm, ⟨55, _⟩ => ⟨S4096x1, .i32⟩
  | .hbm, ⟨56, _⟩ => ⟨S4096x1, .i32⟩
  | .hbm, ⟨57, _⟩ => ⟨S4096x1x1, .i32⟩
  | .hbm, ⟨58, _⟩ => ⟨S1, .i32⟩
  | .hbm, ⟨59, _⟩ => ⟨S_, .i32⟩
  | .hbm, ⟨60, _⟩ => ⟨S4096x1x1, .i32⟩
  | .hbm, ⟨61, _⟩ => ⟨S4096x1x1, .i1⟩
  | .hbm, ⟨62, _⟩ => ⟨S1x1x1, .i32⟩
  | .hbm, ⟨63, _⟩ => ⟨S4096x1x1, .i32⟩
  | .hbm, ⟨64, _⟩ => ⟨S4096x1x1, .i1⟩
  | .hbm, ⟨65, _⟩ => ⟨S4096x1x1, .i1⟩
  | .hbm, ⟨66, _⟩ => ⟨S_, .i1⟩
  | .hbm, ⟨67, _⟩ => ⟨S4096x1, .i1⟩
  | .hbm, ⟨68, _⟩ => ⟨S4096x1, .f32⟩
  | .hbm, ⟨69, _⟩ => ⟨S_, .f32⟩
  | .hbm, ⟨70, _⟩ => ⟨S4096x1, .f32⟩
  | .hbm, ⟨71, _⟩ => ⟨S4096x1, .f32⟩
  | .hbm, ⟨72, _⟩ => ⟨S4096x1, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .local _ .vmem, ⟨0, _⟩ => ⟨S512x6400, .f32⟩
  | .local _ .vmem, ⟨1, _⟩ => ⟨S512x6400, .f32⟩
  | .local _ .vmem, ⟨2, _⟩ => ⟨S512x1, .f32⟩
  | .local _ .vmem, ⟨3, _⟩ => ⟨S512x1, .f32⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | _, _ => ⟨S4096x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_v5 : Ref sig .tc := ⟨.hbm, 13, rfl⟩
abbrev main_call0_v6 : Ref sig .tc := ⟨.hbm, 14, rfl⟩
abbrev main_call0_c_2 : Ref sig .tc := ⟨.hbm, 15, rfl⟩
abbrev main_call0_v7 : Ref sig .tc := ⟨.hbm, 16, rfl⟩
abbrev main_call0_v8 : Ref sig .tc := ⟨.hbm, 17, rfl⟩
abbrev main_call0_c_3 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_v1 : Ref sig .tc := ⟨.hbm, 25, rfl⟩
abbrev main_v2 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_cst : Ref sig .tc := ⟨.hbm, 46, rfl⟩
abbrev main_call1_v14 : Ref sig .tc := ⟨.hbm, 47, rfl⟩
abbrev main_v3 : Ref sig .tc := ⟨.hbm, 48, rfl⟩
abbrev main_v4 : Ref sig .tc := ⟨.hbm, 49, rfl⟩
abbrev main_call2_c : Ref sig .tc := ⟨.hbm, 50, rfl⟩
abbrev main_call2_v0 : Ref sig .tc := ⟨.hbm, 51, rfl⟩
abbrev main_call2_v1 : Ref sig .tc := ⟨.hbm, 52, rfl⟩
abbrev main_call2_c_0 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_c_1 : Ref sig .tc := ⟨.hbm, 58, rfl⟩
abbrev main_call2_c_2 : Ref sig .tc := ⟨.hbm, 59, rfl⟩
abbrev main_call2_v6 : Ref sig .tc := ⟨.hbm, 60, rfl⟩
abbrev main_call2_v7 : Ref sig .tc := ⟨.hbm, 61, rfl⟩
abbrev main_call2_v8 : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_c_3 : Ref sig .tc := ⟨.hbm, 66, rfl⟩
abbrev main_call2_v12 : Ref sig .tc := ⟨.hbm, 67, rfl⟩
abbrev main_call2_v13 : Ref sig .tc := ⟨.hbm, 68, rfl⟩
abbrev main_call2_cst : Ref sig .tc := ⟨.hbm, 69, rfl⟩
abbrev main_call2_v14 : Ref sig .tc := ⟨.hbm, 70, rfl⟩
abbrev main_v5 : Ref sig .tc := ⟨.hbm, 71, rfl⟩
abbrev main_v6 : Ref sig .tc := ⟨.hbm, 72, rfl⟩
abbrev main_cst : Ref sig .tc := ⟨.hbm, 73, rfl⟩
abbrev main_v7 : Ref sig .tc := ⟨.hbm, 74, rfl⟩
abbrev main_cst_0 : Ref sig .tc := ⟨.hbm, 75, rfl⟩
abbrev main_v8 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 5], ![false, false]⟩

def k0_mult1 : BitVec 32 :=
  let c0_i32_4 : BitVec 32 := 0#32
  let c1280_i32 : BitVec 32 := 1280#32
  let v5 : BitVec 32 := Scalar.muli c0_i32_4 c1280_i32
  v5
def k0_off1 (c0_i32_4 : BitVec 32) : Fin 2 → Nat :=
  let c0_5 : Index := 0#32
  let c1280_i32 : BitVec 32 := 1280#32
  let v5 : BitVec 32 := Scalar.muli c0_i32_4 c1280_i32
  let v6 : BitVec 32 := v5
  let v7 : Index := Scalar.indexCast v6
  ![0, v7.toNat]
def k0_mult2 : BitVec 32 :=
  let c1_i32 : BitVec 32 := 1#32
  let c1280_i32_7 : BitVec 32 := 1280#32
  let v21 : BitVec 32 := Scalar.muli c1_i32 c1280_i32_7
  v21
def k0_mult3 : BitVec 32 :=
  let c2_i32 : BitVec 32 := 2#32
  let c1280_i32_11 : BitVec 32 := 1280#32
  let v37 : BitVec 32 := Scalar.muli c2_i32 c1280_i32_11
  v37
def k0_mult4 : BitVec 32 :=
  let c3_i32 : BitVec 32 := 3#32
  let c1280_i32_15 : BitVec 32 := 1280#32
  let v53 : BitVec 32 := Scalar.muli c3_i32 c1280_i32_15
  v53
def k0_mult5 : BitVec 32 :=
  let c4_i32 : BitVec 32 := 4#32
  let c1280_i32_19 : BitVec 32 := 1280#32
  let v69 : BitVec 32 := Scalar.muli c4_i32 c1280_i32_19
  v69
def k0_cond2 (i : grid0.Coords) : BitVec 1 :=
  let arg1 : BitVec 32 := BitVec.ofNat 32 (i 1).val
  let c4_i32_27 : BitVec 32 := 4#32
  let v91 : BitVec 1 := Scalar.cmpi .eq arg1 c4_i32_27
  let v92 : BitVec 32 := Scalar.extui v91
  let c0_i32_28 : BitVec 32 := 0#32
  let v93 : BitVec 1 := Scalar.cmpi .ne v92 c0_i32_28
  v93

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x6400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  h_S_ : 0 < S_.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  h_S512x1280 : 0 < S512x1280.numel
  reduces_S512x1280_S512 : S512x1280.Reduces [1] S512
  shapeCasts_S512_S512x1 : S512.ShapeCasts S512x1
  broadcasts_S512x1_S512x1280 : S512x1.Broadcasts S512x1280
  reducesTo_S4096x1_S_d0_1 : S4096x1.ReducesTo [0, 1] S_
  gather_S4096x32000_S4096x1x1_S4096x1_n_1_0_0_1_2_11_wf : GatherDims.WF S4096x32000 S4096x1x1 S4096x1 [] [1] [0] [1] [0] 2 ![1, 1]
  hrank0 : 0 < grid0.rank
  k0_mult1_dvd : 128 ∣ k0_mult1.toNat
  k0_off1_inb : ∀ (r : Fin 5), ∀ a, (k0_off1 (BitVec.ofNat 32 r.val)) a + S512x1280.size a ≤ S512x6400.size a
  k0_mult2_dvd : 128 ∣ k0_mult2.toNat
  k0_mult3_dvd : 128 ∣ k0_mult3.toNat
  k0_mult4_dvd : 128 ∣ k0_mult4.toNat
  k0_mult5_dvd : 128 ∣ k0_mult5.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x6400.size a ≤ S4096x32000.size a
  hwx0_0 : ∀ i : grid0.Coords, EltTy.bits .f32 = 32 ∨ (Rect.block (s := S4096x32000) S512x6400.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S4096x1.size a
  hwx0_1 : ∀ i : grid0.Coords, EltTy.bits .f32 = 32 ∨ (Rect.block (s := S4096x1) S512x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .f32 = 32 ∨ (Rect.block (s := S4096x1) S512x1.size (cc0_transform_3 i) (hinb0_3 i)).WholeWords (EltTy.packing .f32)

variable [Facts₀]

def gather_S4096x32000_S4096x1x1_S4096x1_n_1_0_0_1_2_11 : GatherDims S4096x32000 S4096x1x1 S4096x1 where
  offsetDims := []
  collapsedSliceDims := [1]
  operandBatchingDims := [0]
  startIndicesBatchingDims := [0]
  startIndexMap := [1]
  indexVectorDim := 2
  sliceSizes := ![1, 1]
  wf := gather_S4096x32000_S4096x1x1_S4096x1_n_1_0_0_1_2_11_wf

abbrev win0_0 : Pipeline.Window sig grid0 :=
  Pipeline.Window.ofSpec (Memref.whole main_arg0) S512x6400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x32000 : Shape := ⟨2, ![4096, 32000]⟩
abbrev S4096 : Shape := ⟨1, ![4096]⟩
abbrev S_ : Shape := ⟨0, ![]⟩
abbrev S4096x1 : Shape := ⟨2, ![4096, 1]⟩
abbrev S4096x2 : Shape := ⟨2, ![4096, 2]⟩

abbrev nBuf : Space → Nat
  | .hbm => 147
  | .vmem => 0
  | .smem => 0
  | _ => 0

abbrev hbmTy0_0 (i : Nat) : BufTy := match i % 128 with
  | 0 => ⟨S4096x32000, .f32⟩
  | 1 => ⟨S4096, .i32⟩
  | 2 => ⟨S4096, .i32⟩
  | 3 => ⟨S4096, .i32⟩
  | 4 => ⟨S_, .i32⟩
  | 5 => ⟨S_, .i32⟩
  | 6 => ⟨S_, .i32⟩
  | 7 => ⟨S_, .i1⟩
  | 8 => ⟨S_, .i32⟩
  | 9 => ⟨S_, .i32⟩
  | 10 => ⟨S4096, .i32⟩
  | 11 => ⟨S4096, .i32⟩
  | 12 => ⟨S_, .i32⟩
  | 13 => ⟨S4096, .i32⟩
  | 14 => ⟨S4096, .i1⟩
  | 15 => ⟨S_, .i32⟩
  | 16 => ⟨S4096, .i32⟩
  | 17 => ⟨S4096, .i1⟩
  | 18 => ⟨S_, .i32⟩
  | 19 => ⟨S_, .i1⟩
  | 20 => ⟨S4096, .i1⟩
  | 21 => ⟨S4096, .i1⟩
  | 22 => ⟨S4096, .i1⟩
  | 23 => ⟨S4096, .i32⟩
  | 24 => ⟨S4096, .i32⟩
  | 25 => ⟨S4096, .i32⟩
  | 26 => ⟨S_, .f32⟩
  | 27 => ⟨S4096, .f32⟩
  | 28 => ⟨S_, .f32⟩
  | 29 => ⟨S4096, .f32⟩
  | 30 => ⟨S4096, .f32⟩
  | 31 => ⟨S4096x1, .f32⟩
  | 32 => ⟨S4096x32000, .f32⟩
  | 33 => ⟨S4096x32000, .f32⟩
  | 34 => ⟨S4096x32000, .f32⟩
  | 35 => ⟨S_, .f32⟩
  | 36 => ⟨S4096, .f32⟩
  | 37 => ⟨S4096x1, .f32⟩
  | 38 => ⟨S4096x32000, .f32⟩
  | 39 => ⟨S4096x32000, .f32⟩
  | 40 => ⟨S_, .f32⟩
  | 41 => ⟨S_, .f32⟩
  | 42 => ⟨S_, .f32⟩
  | 43 => ⟨S4096x32000, .f32⟩
  | 44 => ⟨S4096x32000, .f32⟩
  | 45 => ⟨S_, .f32⟩
  | 46 => ⟨S4096x32000, .f32⟩
  | 47 => ⟨S4096x32000, .f32⟩
  | 48 => ⟨S4096, .i32⟩
  | 49 => ⟨S_, .i32⟩
  | 50 => ⟨S4096, .i32⟩
  | 51 => ⟨S4096, .i1⟩
  | 52 => ⟨S_, .i32⟩
  | 53 => ⟨S4096, .i32⟩
  | 54 => ⟨S4096, .i32⟩
  | 55 => ⟨S4096, .i32⟩
  | 56 => ⟨S_, .i32⟩
  | 57 => ⟨S4096, .i32⟩
  | 58 => ⟨S4096, .i1⟩
  | 59 => ⟨S_, .i32⟩
  | 60 => ⟨S4096, .i32⟩
  | 61 => ⟨S4096, .i32⟩
  | 62 => ⟨S4096, .i32⟩
  | 63 => ⟨S4096x1, .i32⟩
  | 64 => ⟨S4096x1, .i32⟩
  | 65 => ⟨S4096x2, .i32⟩
  | 66 => ⟨S4096, .f32⟩
  | 67 => ⟨S_, .i32⟩
  | 68 => ⟨S4096, .i32⟩
  | 69 => ⟨S4096, .i1⟩
  | 70 => ⟨S_, .i32⟩
  | 71 => ⟨S4096, .i32⟩
  | 72 => ⟨S4096, .i32⟩
  | 73 => ⟨S4096, .i32⟩
  | 74 => ⟨S_, .i32⟩
  | 75 => ⟨S4096, .i32⟩
  | 76 => ⟨S4096, .i1⟩
  | 77 => ⟨S_, .i32⟩
  | 78 => ⟨S4096, .i32⟩
  | 79 => ⟨S4096, .i32⟩
  | 80 => ⟨S4096, .i32⟩
  | 81 => ⟨S4096x1, .i32⟩
  | 82 => ⟨S4096x1, .i32⟩
  | 83 => ⟨S4096x2, .i32⟩
  | 84 => ⟨S4096, .f32⟩
  | 85 => ⟨S4096, .f32⟩
  | 86 => ⟨S_, .f32⟩
  | 87 => ⟨S4096, .f32⟩
  | 88 => ⟨S4096, .f32⟩
  | 89 => ⟨S4096, .f32⟩
  | 90 => ⟨S4096, .f32⟩
  | 91 => ⟨S4096, .f32⟩
  | 92 => ⟨S4096, .f32⟩
  | 93 => ⟨S_, .f32⟩
  | 94 => ⟨S4096, .f32⟩
  | 95 => ⟨S4096, .f32⟩
  | 96 => ⟨S4096, .f32⟩
  | 97 => ⟨S4096, .f32⟩
  | 98 => ⟨S4096, .f32⟩
  | 99 => ⟨S4096, .f32⟩
  | 100 => ⟨S4096, .f32⟩
  | 101 => ⟨S4096, .f32⟩
  | 102 => ⟨S4096, .f32⟩
  | 103 => ⟨S_, .i32⟩
  | 104 => ⟨S4096, .i32⟩
  | 105 => ⟨S4096, .i1⟩
  | 106 => ⟨S_, .i32⟩
  | 107 => ⟨S4096, .i32⟩
  | 108 => ⟨S4096, .i32⟩
  | 109 => ⟨S4096, .i32⟩
  | 110 => ⟨S_, .i32⟩
  | 111 => ⟨S4096, .i32⟩
  | 112 => ⟨S4096, .i1⟩
  | 113 => ⟨S_, .i32⟩
  | 114 => ⟨S4096, .i32⟩
  | 115 => ⟨S4096, .i32⟩
  | 116 => ⟨S4096, .i32⟩
  | 117 => ⟨S4096x1, .i32⟩
  | 118 => ⟨S4096x1, .i32⟩
  | 119 => ⟨S4096x2, .i32⟩
  | 120 => ⟨S4096, .f32⟩
  | 121 => ⟨S_, .i32⟩
  | 122 => ⟨S4096, .i32⟩
  | 123 => ⟨S4096, .i1⟩
  | 124 => ⟨S_, .i32⟩
  | 125 => ⟨S4096, .i32⟩
  | 126 => ⟨S4096, .i32⟩
  | 127 => ⟨S4096, .i32⟩
  | _ => ⟨S4096x32000, .f32⟩

abbrev hbmTy0_1 (i : Nat) : BufTy := match i % 128 with
  | 0 => ⟨S_, .i32⟩
  | 1 => ⟨S4096, .i32⟩
  | 2 => ⟨S4096, .i1⟩
  | 3 => ⟨S_, .i32⟩
  | 4 => ⟨S4096, .i32⟩
  | 5 => ⟨S4096, .i32⟩
  | 6 => ⟨S4096, .i32⟩
  | 7 => ⟨S4096x1, .i32⟩
  | 8 => ⟨S4096x1, .i32⟩
  | 9 => ⟨S4096x2, .i32⟩
  | 10 => ⟨S4096, .f32⟩
  | 11 => ⟨S4096, .f32⟩
  | 12 => ⟨S4096, .f32⟩
  | 13 => ⟨S4096, .f32⟩
  | 14 => ⟨S_, .f32⟩
  | 15 => ⟨S_, .f32⟩
  | 16 => ⟨S_, .f32⟩
  | 17 => ⟨S_, .f32⟩
  | 18 => ⟨S_, .f32⟩
  | _ => ⟨S4096x32000, .f32⟩

abbrev hbmTy (i : Nat) : BufTy := match i / 128 with
  | 0 => hbmTy0_0 i
  | 1 => hbmTy0_1 i
  | _ => ⟨S4096x32000, .f32⟩

abbrev bufTy : (tb : Table) → Fin (tcTables nBuf tb) → BufTy
  | .hbm, ⟨i, _⟩ => hbmTy i
  | _, _ => ⟨S4096x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_v5 : Ref sig .tc := ⟨.hbm, 13, rfl⟩
abbrev main_call0_v6 : Ref sig .tc := ⟨.hbm, 14, rfl⟩
abbrev main_call0_c_2 : Ref sig .tc := ⟨.hbm, 15, rfl⟩
abbrev main_call0_v7 : Ref sig .tc := ⟨.hbm, 16, rfl⟩
abbrev main_call0_v8 : Ref sig .tc := ⟨.hbm, 17, rfl⟩
abbrev main_call0_c_3 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_v1 : Ref sig .tc := ⟨.hbm, 25, rfl⟩
abbrev main_cst : Ref sig .tc := ⟨.hbm, 26, rfl⟩
abbrev main_v2 : Ref sig .tc := ⟨.hbm, 27, rfl⟩
abbrev main_cst_0 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_cst_1 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_cst_2 : Ref sig .tc := ⟨.hbm, 40, rfl⟩
abbrev main_cst_3 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v13 : Ref sig .tc := ⟨.hbm, 47, rfl⟩
abbrev main_v14 : Ref sig .tc := ⟨.hbm, 48, rfl⟩
abbrev main_c_4 : Ref sig .tc := ⟨.hbm, 49, rfl⟩
abbrev main_v15 : Ref sig .tc := ⟨.hbm, 50, rfl⟩
abbrev main_v16 : Ref sig .tc := ⟨.hbm, 51, rfl⟩
abbrev main_c_5 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_c_6 : Ref sig .tc := ⟨.hbm, 56, rfl⟩
abbrev main_v20 : Ref sig .tc := ⟨.hbm, 57, rfl⟩
abbrev main_v21 : Ref sig .tc := ⟨.hbm, 58, rfl⟩
abbrev main_c_7 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_c_8 : Ref sig .tc := ⟨.hbm, 67, rfl⟩
abbrev main_v29 : Ref sig .tc := ⟨.hbm, 68, rfl⟩
abbrev main_v30 : Ref sig .tc := ⟨.hbm, 69, rfl⟩
abbrev main_c_9 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_c_10 : Ref sig .tc := ⟨.hbm, 74, rfl⟩
abbrev main_v34 : Ref sig .tc := ⟨.hbm, 75, rfl⟩
abbrev main_v35 : Ref sig .tc := ⟨.hbm, 76, rfl⟩
abbrev main_c_11 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_cst_12 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_cst_13 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_c_14 : Ref sig .tc := ⟨.hbm, 103, rfl⟩
abbrev main_v59 : Ref sig .tc := ⟨.hbm, 104, rfl⟩
abbrev main_v60 : Ref sig .tc := ⟨.hbm, 105, rfl⟩
abbrev main_c_15 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_c_16 : Ref sig .tc := ⟨.hbm, 110, rfl⟩
abbrev main_v64 : Ref sig .tc := ⟨.hbm, 111, rfl⟩
abbrev main_v65 : Ref sig .tc := ⟨.hbm, 112, rfl⟩
abbrev main_c_17 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_c_18 : Ref sig .tc := ⟨.hbm, 121, rfl⟩
abbrev main_v73 : Ref sig .tc := ⟨.hbm, 122, rfl⟩
abbrev main_v74 : Ref sig .tc := ⟨.hbm, 123, rfl⟩
abbrev main_c_19 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_c_20 : Ref sig .tc := ⟨.hbm, 128, rfl⟩
abbrev main_v78 : Ref sig .tc := ⟨.hbm, 129, rfl⟩
abbrev main_v79 : Ref sig .tc := ⟨.hbm, 130, rfl⟩
abbrev main_c_21 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_cst_22 : Ref sig .tc := ⟨.hbm, 142, rfl⟩
abbrev main_v90 : Ref sig .tc := ⟨.hbm, 143, rfl⟩
abbrev main_cst_23 : Ref sig .tc := ⟨.hbm, 144, rfl⟩
abbrev main_v91 : Ref sig .tc := ⟨.hbm, 145, rfl⟩
abbrev main_v92 : Ref sig .tc := ⟨.hbm, 146, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  reducesTo_S4096x32000_S4096_d1 : S4096x32000.ReducesTo [1] S4096
  h_S_ : 0 < S_.numel
  bcast_S4096_S4096x1_0 : S4096.BroadcastsInDim S4096x1 (![0] : Fin 1 → Fin S4096x1.rank)
  bcast_S4096x1_S4096x32000_0_1 : S4096x1.BroadcastsInDim S4096x32000 (![0, 1] : Fin 2 → Fin S4096x32000.rank)
  bcast_S_S4096x32000 : S_.BroadcastsInDim S4096x32000 (![] : Fin 0 → Fin S4096x32000.rank)
  concatenates_S4096x1_S4096x1_S4096x2_d1 : Shape.Concatenates [S4096x1, S4096x1] S4096x2 1
  reducesTo_S4096_S_d0 : S4096.ReducesTo [0] S_
  gather_S4096x32000_S4096x2_S4096_n_01_n_n_01_1_11_wf : GatherDims.WF S4096x32000 S4096x2 S4096 [] [0, 1] [] [0, 1] [] 1 ![1, 1]

variable [Facts₀]

def gather_S4096x32000_S4096x2_S4096_n_01_n_n_01_1_11 : GatherDims S4096x32000 S4096x2 S4096 where
  offsetDims := []
  collapsedSliceDims := [0, 1]
  operandBatchingDims := []
  startIndicesBatchingDims := []
  startIndexMap := [0, 1]
  indexVectorDim := 1
  sliceSizes := ![1, 1]
  wf := gather_S4096x32000_S4096x2_S4096_n_01_n_n_01_1_11_wf

class Facts : Prop extends Facts₀ where

variable [Facts]
-- ==== Proof.KerPoint.lean ====
/-
  What one grid point of the kernel leaves in its two carried scratch columns and, at a row tile's last point, in its
  result block — as functions of what the point finds.

  A point reads a [512, 6400] block of scores as five slabs of 1280 columns. From the running maximum m0 and the running
  normaliser l0 of the columns seen so far (one entry per row) it makes, slab after slab, the new maximum and the
  normaliser rescaled to it, and stores both back. The first point of a row tile starts from −∞ and 0. The last point
  of a row tile then forms the row's loss entry from the finished maximum and normaliser and the two picked scores.
-/
import proofs.«412134_j71330816852650_3_alg».proof.Proof.Gen.KernelIdeal.Frame
import Idealize.ShloMosaic.Lib.Pipeline.Value
import Idealize.ShloMosaic.Lib.ValueIdx
import Idealize.ShloMosaic.Lib.Tactic

set_option maxRecDepth 16384

noncomputable section

namespace Cert.NL.Ker

open Idealize.ShloMosaic Idealize.ShloMosaic.TcCoe Idealize.ShloMosaic.ValueIdx Idealize.SL.Sem
open Cert.KernelIdeal Cert.KernelIdeal.Gen

variable {F : FTy → Type} [FloatOps F]

/-- The 1280 columns of a block that start at column off. -/
def slab (x0 : Vec F S512x6400 .f32) (off : ℕ)
    (h : ∀ a, (![0, off] : Fin 2 → ℕ) a + (![512, 1280] : Fin 2 → ℕ) a ≤ S512x6400.size a) : Vec F S512x1280 .f32 :=
  View.ld x0 (Rect.unit (s := S512x6400) ![0, off] ![512, 1280] h)

/-- A slab's entry (p, q) is the block's entry (p, off + q). -/
theorem slab_apply (x0 : Vec F S512x6400 .f32) (off : ℕ)
    (h : ∀ a, (![0, off] : Fin 2 → ℕ) a + (![512, 1280] : Fin 2 → ℕ) a ≤ S512x6400.size a)
    (hoff : off + 1280 ≤ 6400) (p : Fin 512) (q : Fin 1280) :
    slab x0 off h (ix2 p q) = x0 (ix2 p (⟨off + q.val, by have := q.isLt; omega⟩ : Fin 6400)) := by
  unfold slab
  refine congrArg x0 (funext fun a => Fin.ext ?_)
  match a with
  | ⟨0, _⟩ => show 0 + 1 * p.val = p.val; omega
  | ⟨1, _⟩ => show off + 1 * q.val = off + q.val; omega

theorem inb0 : ∀ a, (![0, 0] : Fin 2 → ℕ) a + (![512, 1280] : Fin 2 → ℕ) a ≤ S512x6400.size a := by decide
theorem inb1 : ∀ a, (![0, 1280] : Fin 2 → ℕ) a + (![512, 1280] : Fin 2 → ℕ) a ≤ S512x6400.size a := by decide
theorem inb2 : ∀ a, (![0, 2560] : Fin 2 → ℕ) a + (![512, 1280] : Fin 2 → ℕ) a ≤ S512x6400.size a := by decide
theorem inb3 : ∀ a, (![0, 3840] : Fin 2 → ℕ) a + (![512, 1280] : Fin 2 → ℕ) a ≤ S512x6400.size a := by decide
theorem inb4 : ∀ a, (![0, 5120] : Fin 2 → ℕ) a + (![512, 1280] : Fin 2 → ℕ) a ≤ S512x6400.size a := by decide

/-- The running maximum after a point that found m0 and the block x0. -/
def mNew (m0 : Vec F S512x1 .f32) (x0 : Vec F S512x6400 .f32) : Vec F S512x1 .f32 :=
  k0_pay1 (k0_pay13 (k0_pay9 m0 (slab x0 0 inb0) (slab x0 1280 inb1)) (slab x0 2560 inb2) (slab x0 3840 inb3) (slab x0 5120 inb4))

/-- The running normaliser after a point that found m0, l0 and the block x0. -/
def lNew (m0 l0 : Vec F S512x1 .f32) (x0 : Vec F S512x6400 .f32) : Vec F S512x1 .f32 :=
  k0_pay2 (k0_pay14 (k0_pay9 m0 (slab x0 0 inb0) (slab x0 1280 inb1)) (k0_pay10 m0 l0 (slab x0 0 inb0) (slab x0 1280 inb1))
    (slab x0 2560 inb2) (slab x0 3840 inb3) (slab x0 5120 inb4))

/-- The result block of a row tile's last point, from the finished maximum m1 and normaliser l1 and the blocks x1, x2 of
    the two picked scores. -/
def oNew (m1 l1 x1 x2 : Vec F S512x1 .f32) : Vec F S512x1 .f32 := k0_pay3 (k0_pay4 m1 l1 x1 x2) (k0_pay5 (F := F))

/-! ## The three control cases' found pieces are these functions -/

/-- The zero offset of a whole-block store, as a constant function. -/
private theorem hz : (![0, 0] : Fin 2 → Nat) = fun _ => 0 := funext fun a => by fin_cases a <;> rfl

theorem sA0 (c : Dev nD) (i : grid0.Coords) (a2 : Memref sig .tc .vmem S512x6400 .f32) (h2 : a2.IsWhole) (a3 : Memref sig .tc .vmem S512x1 .f32) (h3 : a3.IsWhole) (a4 : Memref sig .tc .vmem S512x1 .f32) (h4 : a4.IsWhole) (a5 : Memref sig .tc .vmem S512x1 .f32) (h5 : a5.IsWhole) (a6 : Memref sig .tc .vmem S512x1 .f32) (h6 : a6.IsWhole) (a7 : Memref sig .tc .vmem S512x1 .f32) (h7 : a7.IsWhole) (hc0 : cond0_0 i) (hc1 : ¬cond0_1 i)
    (x0 : Vec F S512x6400 .f32) (x1 x2 : Vec F S512x1 .f32) :
    sout0_A_0 c i a2 h2 a3 h3 a4 h4 a5 h5 a6 h6 a7 h7 hc0 hc1 x0 x1 x2 = mNew (k0_pay6 (F := F)) x0 := by
  unfold sout0_A_0
  rw [View.read_writes_eq_canon _ _ _ (scover0_A_0 c i a2 h2 a3 h3 a4 h4 a5 h5 a6 h6 a7 h7 hc0 hc1 x0 x1 x2)]
  unfold kernelRun0_A
  dsimp only
  sl_unfold_words
  rw [View.canon_cons_unit_zero (S := S512x1) hz]
  simp only [View.readAt_eq_ld, h2.read_unread, View.readCov_unit_zero (S := S512x1) _ hz]
  rfl

theorem sA1 (c : Dev nD) (i : grid0.Coords) (a2 : Memref sig .tc .vmem S512x6400 .f32) (h2 : a2.IsWhole) (a3 : Memref sig .tc .vmem S512x1 .f32) (h3 : a3.IsWhole) (a4 : Memref sig .tc .vmem S512x1 .f32) (h4 : a4.IsWhole) (a5 : Memref sig .tc .vmem S512x1 .f32) (h5 : a5.IsWhole) (a6 : Memref sig .tc .vmem S512x1 .f32) (h6 : a6.IsWhole) (a7 : Memref sig .tc .vmem S512x1 .f32) (h7 : a7.IsWhole) (hc0 : cond0_0 i) (hc1 : ¬cond0_1 i)
    (x0 : Vec F S512x6400 .f32) (x1 x2 : Vec F S512x1 .f32) :
    sout0_A_1 c i a2 h2 a3 h3 a4 h4 a5 h5 a6 h6 a7 h7 hc0 hc1 x0 x1 x2 = lNew (k0_pay6 (F := F)) (k0_pay7 (F := F)) x0 := by
  unfold sout0_A_1
  rw [View.read_writes_eq_canon _ _ _ (scover0_A_1 c i a2 h2 a3 h3 a4 h4 a5 h5 a6 h6 a7 h7 hc0 hc1 x0 x1 x2)]
  unfold kernelRun0_A
  dsimp only
  sl_unfold_words
  rw [View.canon_cons_unit_zero (S := S512x1) hz]
  simp only [View.readAt_eq_ld, h2.read_unread, View.readCov_unit_zero (S := S512x1) _ hz]
  rfl

theorem sB0 (c : Dev nD) (i : grid0.Coords) (a2 : Memref sig .tc .vmem S512x6400 .f32) (h2 : a2.IsWhole) (a3 : Memref sig .tc .vmem S512x1 .f32) (h3 : a3.IsWhole) (a4 : Memref sig .tc .vmem S512x1 .f32) (h4 : a4.IsWhole) (a5 : Memref sig .tc .vmem S512x1 .f32) (h5 : a5.IsWhole) (a6 : Memref sig .tc .vmem S512x1 .f32) (h6 : a6.IsWhole) (a7 : Memref sig .tc .vmem S512x1 .f32) (h7 : a7.IsWhole) (hc0 : ¬cond0_0 i) (hc1 : ¬cond0_1 i)
    (x0 : Vec F S512x6400 .f32) (x1 x2 xs0 xs1 : Vec F S512x1 .f32) :
    sout0_B_0 c i a2 h2 a3 h3 a4 h4 a5 h5 a6 h6 a7 h7 hc0 hc1 x0 x1 x2 xs0 xs1 = mNew xs0 x0 := by
  unfold sout0_B_0
  rw [View.read_writes_eq_canon _ _ _ (scover0_B_0 c i a2 h2 a3 h3 a4 h4 a5 h5 a6 h6 a7 h7 hc0 hc1 x0 x1 x2 xs0 xs1)]
  unfold kernelRun0_B
  dsimp only
  sl_unfold_words
  rw [View.canon_unit_zero hz]
  simp only [View.readAt_eq_ld, h6.read_unread, h2.read_unread, View.ld_unit_zero (S := S512x1) hz]
  rfl

theorem sB1 (c : Dev nD) (i : grid0.Coords) (a2 : Memref sig .tc .vmem S512x6400 .f32) (h2 : a2.IsWhole) (a3 : Memref sig .tc .vmem S512x1 .f32) (h3 : a3.IsWhole) (a4 : Memref sig .tc .vmem S512x1 .f32) (h4 : a4.IsWhole) (a5 : Memref sig .tc .vmem S512x1 .f32) (h5 : a5.IsWhole) (a6 : Memref sig .tc .vmem S512x1 .f32) (h6 : a6.IsWhole) (a7 : Memref sig .tc .vmem S512x1 .f32) (h7 : a7.IsWhole) (hc0 : ¬cond0_0 i) (hc1 : ¬cond0_1 i)
    (x0 : Vec F S512x6400 .f32) (x1 x2 xs0 xs1 : Vec F S512x1 .f32) :
    sout0_B_1 c i a2 h2 a3 h3 a4 h4 a5 h5 a6 h6 a7 h7 hc0 hc1 x0 x1 x2 xs0 xs1 = lNew xs0 xs1 x0 := by
  unfold sout0_B_1
  rw [View.read_writes_eq_canon _ _ _ (scover0_B_1 c i a2 h2 a3 h3 a4 h4 a5 h5 a6 h6 a7 h7 hc0 hc1 x0 x1 x2 xs0 xs1)]
  unfold kernelRun0_B
  dsimp only
  sl_unfold_words
  rw [View.canon_unit_zero hz]
  simp only [View.readAt_eq_ld, h6.read_unread, h7.read_unread, h2.read_unread, View.ld_unit_zero (S := S512x1) hz]
  rfl

theorem sC0 (c : Dev nD) (i : grid0.Coords) (a2 : Memref sig .tc .vmem S512x6400 .f32) (h2 : a2.IsWhole) (a3 : Memref sig .tc .vmem S512x1 .f32) (h3 : a3.IsWhole) (a4 : Memref sig .tc .vmem S512x1 .f32) (h4 : a4.IsWhole) (a5 : Memref sig .tc .vmem S512x1 .f32) (h5 : a5.IsWhole) (a6 : Memref sig .tc .vmem S512x1 .f32) (h6 : a6.IsWhole) (a7 : Memref sig .tc .vmem S512x1 .f32) (h7 : a7.IsWhole) (hc0 : ¬cond0_0 i) (hc1 : cond0_1 i)
    (x0 : Vec F S512x6400 .f32) (x1 x2 xs0 xs1 : Vec F S512x1 .f32) :
    sout0_C_0 c i a2 h2 a3 h3 a4 h4 a5 h5 a6 h6 a7 h7 hc0 hc1 x0 x1 x2 xs0 xs1 = mNew xs0 x0 := by
  unfold sout0_C_0
  rw [View.read_writes_eq_canon _ _ _ (scover0_C_0 c i a2 h2 a3 h3 a4 h4 a5 h5 a6 h6 a7 h7 hc0 hc1 x0 x1 x2 xs0 xs1)]
  unfold kernelRun0_C
  dsimp only
  sl_unfold_words
  rw [View.canon_unit_zero hz]
  simp only [View.readAt_eq_ld, h6.read_unread, h2.read_unread, View.ld_unit_zero (S := S512x1) hz]
  rfl

theorem sC1 (c : Dev nD) (i : grid0.Coords) (a2 : Memref sig .tc .vmem S512x6400 .f32) (h2 : a2.IsWhole) (a3 : Memref sig .tc .vmem S512x1 .f32) (h3 : a3.IsWhole) (a4 : Memref sig .tc .vmem S512x1 .f32) (h4 : a4.IsWhole) (a5 : Memref sig .tc .vmem S512x1 .f32) (h5 : a5.IsWhole) (a6 : Memref sig .tc .vmem S512x1 .f32) (h6 : a6.IsWhole) (a7 : Memref sig .tc .vmem S512x1 .f32) (h7 : a7.IsWhole) (hc0 : ¬cond0_0 i) (hc1 : cond0_1 i)
    (x0 : Vec F S512x6400 .f32) (x1 x2 xs0 xs1 : Vec F S512x1 .f32) :
    sout0_C_1 c i a2 h2 a3 h3 a4 h4 a5 h5 a6 h6 a7 h7 hc0 hc1 x0 x1 x2 xs0 xs1 = lNew xs0 xs1 x0 := by
  unfold sout0_C_1
  rw [View.read_writes_eq_canon _ _ _ (scover0_C_1 c i a2 h2 a3 h3 a4 h4 a5 h5 a6 h6 a7 h7 hc0 hc1 x0 x1 x2 xs0 xs1)]
  unfold kernelRun0_C
  dsimp only
  sl_unfold_words
  rw [View.canon_unit_zero hz]
  simp only [View.readAt_eq_ld, h6.read_unread, h7.read_unread, h2.read_unread, View.ld_unit_zero (S := S512x1) hz]
  rfl

theorem oC3 (c : Dev nD) (i : grid0.Coords) (a2 : Memref sig .tc .vmem S512x6400 .f32) (h2 : a2.IsWhole) (a3 : Memref sig .tc .vmem S512x1 .f32) (h3 : a3.IsWhole) (a4 : Memref sig .tc .vmem S512x1 .f32) (h4 : a4.IsWhole) (a5 : Memref sig .tc .vmem S512x1 .f32) (h5 : a5.IsWhole) (a6 : Memref sig .tc .vmem S512x1 .f32) (h6 : a6.IsWhole) (a7 : Memref sig .tc .vmem S512x1 .f32) (h7 : a7.IsWhole) (hc0 : ¬cond0_0 i) (hc1 : cond0_1 i)
    (x0 : Vec F S512x6400 .f32) (x1 x2 xs0 xs1 : Vec F S512x1 .f32) :
    out0_C_3 c i a2 h2 a3 h3 a4 h4 a5 h5 a6 h6 a7 h7 hc0 hc1 x0 x1 x2 xs0 xs1 = oNew (mNew xs0 x0) (lNew xs0 xs1 x0) x1 x2 := by
  unfold out0_C_3
  rw [View.read_writes_eq_canon _ _ _ (cover0_C_3 c i a2 h2 a3 h3 a4 h4 a5 h5 a6 h6 a7 h7 hc0 hc1 x0 x1 x2 xs0 xs1)]
  unfold kernelRun0_C
  dsimp only
  sl_unfold_words
  rw [View.canon_unit_zero hz]
  simp only [View.readAt_eq_ld, h6.read_unread, h7.read_unread, h2.read_unread, h3.read_unread, h4.read_unread, View.ld_unit_zero (S := S512x1) hz, View.readCov_unit_zero (S := S512x1) _ hz]
  rfl

end Cert.NL.Ker

end
-- ==== Proof.Spec.lean ====
/-
  The mathematics both programs compute, over the extended reals, with no program in sight.

  A row X of 32000 scores has a maximum M and a normaliser L = Σ_c exp (X c − M). The probability of a score a is
  exp (a − M) / L clipped to [lo, 1], lo the f32 word of 1e-7. From the probabilities p_y, p_k of two scores and the
  scores themselves o_pos, o_neg a row contributes
      (−(p_k (p_y + p_k)) t − p_k (1 − p_k) t) o_neg + (p_k t + p_k p_y t) o_pos,   t = 1 − (p_k − p_y),
  and the result is minus the mean of the contributions over 4096 rows.

  One program finds M and L in one pass over the columns, 1280 at a time: with m, l the maximum and the normaliser of
  the columns below b, the next 1280 columns give m' = max m (their maximum) and l' = l · exp (m − m') + Σ exp (X c − m').
  That is again the maximum and the normaliser of the columns below b + 1280 (exp (u − m) · exp (m − m') = exp (u − m'),
  every term real once one column has been seen; before any column m = −∞, l = 0 and 0 · exp (−∞) = 0). It multiplies by
  1 / L where the other divides by L, negates by subtracting from zero, and negates each row before the mean rather than
  the mean: over real numbers all the same.
-/
import Idealize.ShloMosaic.PureOps.Ideal

noncomputable section

namespace Cert.NL

open Idealize.ShloMosaic

/-- The lower clip bound: the f32 word the programs print for 1e-7. -/
def lo : EReal := Ideal.ofBits .f32 0x33D6BF95#32

/-- The divisor of the mean: the f32 word of 4096. -/
def rows : EReal := Ideal.ofBits .f32 0x45800000#32

/-- Clip to [lo, 1]: the maximum with lo first, then the minimum with 1. -/
def clip (x : EReal) : EReal := min 1 (max lo x)

/-- The columns below b. -/
def below (b : ℕ) : Finset (Fin 32000) := Finset.univ.filter fun c => c.val < b

/-- The maximum of the columns below b (−∞ when there is none). -/
def pmax (X : Fin 32000 → EReal) (b : ℕ) : EReal := (below b).fold max ⊥ X

/-- The normaliser of the columns below b, relative to their own maximum. -/
def psum (X : Fin 32000 → EReal) (b : ℕ) : EReal := ∑ c ∈ below b, Ideal.exp (X c - pmax X b)

/-- The row's maximum. -/
def rowMax (X : Fin 32000 → EReal) : EReal := (Finset.univ : Finset (Fin 32000)).fold max ⊥ X

/-- The row's normaliser. -/
def rowSum (X : Fin 32000 → EReal) : EReal := ∑ c, Ideal.exp (X c - rowMax X)

/-- Column b + k of the row, for k among the next 1280. -/
def col (b : ℕ) (hb : b + 1280 ≤ 32000) (k : Fin 1280) : Fin 32000 := ⟨b + k.val, by have := k.isLt; omega⟩

/-- The word 0x45800000 is 4096. -/
theorem rows_eq : rows = ((4096 : ℝ) : EReal) := by
  simp [rows, Ideal.ofBits, Ideal.ieee, -EReal.coe_mul]
  norm_num

/-- The word 0x33D6BF95 is a positive real number, at most 1. -/
theorem lo_real : ∃ r : ℝ, lo = (r : EReal) ∧ 0 < r ∧ r ≤ 1 := by
  simp [lo, Ideal.ofBits, Ideal.ieee, -EReal.coe_mul]
  norm_num

/-- The coercion of a finite sum of reals is the sum of the coercions. -/
private theorem coe_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The maximum of finitely many reals over a nonempty set is one of them, so real. -/
private theorem sup_real {ι : Type} (s : Finset ι) (hs : s.Nonempty) (X : ι → EReal)
    (hX : ∀ c, ∃ r : ℝ, X c = (r : EReal)) : ∃ m : ℝ, s.sup X = (m : EReal) := by
  obtain ⟨i, _, hi⟩ := Finset.exists_mem_eq_sup s hs X
  obtain ⟨r, hr⟩ := hX i
  exact ⟨r, hi.trans hr⟩

/-- exp (u − m) · exp (m − m') = exp (u − m'), summed over finitely many real u. -/
private theorem sum_exp_rescale {ι : Type} (s : Finset ι) (f : ι → ℝ) (m m' : ℝ) :
    ∑ c ∈ s, Ideal.exp ((f c : EReal) - (m' : EReal))
      = (∑ c ∈ s, Ideal.exp ((f c : EReal) - (m : EReal))) * Ideal.exp ((m : EReal) - (m' : EReal)) := by
  simp only [← EReal.coe_sub, Ideal.exp_coe, ← coe_sum, ← EReal.coe_mul]
  congr 1
  rw [Finset.sum_mul]
  refine Finset.sum_congr rfl fun c _ => ?_
  rw [← Real.exp_add]
  congr 1
  ring

private theorem below_zero : below 0 = ∅ := by
  simp [below]

private theorem below_full : below 32000 = Finset.univ :=
  Finset.filter_true_of_mem fun c _ => c.isLt

private theorem col_injective (b : ℕ) (hb : b + 1280 ≤ 32000) : Function.Injective (col b hb) := by
  intro k k' h
  have := congrArg Fin.val h
  simp only [col] at this
  exact Fin.ext (by omega)

/-- The columns below b + 1280 are the columns below b and the next 1280. -/
private theorem below_step (b : ℕ) (hb : b + 1280 ≤ 32000) :
    below (b + 1280) = below b ∪ Finset.univ.image (col b hb) := by
  ext c
  simp only [below, Finset.mem_filter, Finset.mem_univ, true_and, Finset.mem_union, Finset.mem_image]
  constructor
  · intro h
    by_cases hc : c.val < b
    · exact Or.inl hc
    · exact Or.inr ⟨⟨c.val - b, by omega⟩, Fin.ext (by simp only [col]; omega)⟩
  · rintro (h | ⟨k, rfl⟩)
    · omega
    · have := k.isLt
      simp only [col]
      omega

private theorem below_disjoint (b : ℕ) (hb : b + 1280 ≤ 32000) :
    Disjoint (below b) (Finset.univ.image (col b hb)) := by
  rw [Finset.disjoint_left]
  intro c hc hc'
  simp only [below, Finset.mem_filter, Finset.mem_univ, true_and] at hc
  obtain ⟨k, _, rfl⟩ := Finset.mem_image.mp hc'
  simp only [col] at hc
  omega

theorem pmax_zero (X : Fin 32000 → EReal) : pmax X 0 = ⊥ := by
  rw [pmax, below_zero, Finset.fold_empty]

theorem psum_zero (X : Fin 32000 → EReal) : psum X 0 = 0 := by
  rw [psum, below_zero, Finset.sum_empty]

theorem pmax_full (X : Fin 32000 → EReal) : pmax X 32000 = rowMax X := by
  rw [pmax, rowMax, below_full]

theorem psum_full (X : Fin 32000 → EReal) : psum X 32000 = rowSum X := by
  rw [psum, rowSum, pmax_full, below_full]

/-- The next 1280 columns: the maximum. No finiteness needed. -/
theorem pmax_step (X : Fin 32000 → EReal) (b : ℕ) (hb : b + 1280 ≤ 32000) :
    pmax X (b + 1280) = max (pmax X b) ((Finset.univ : Finset (Fin 1280)).fold max ⊥ fun k => X (col b hb k)) := by
  rw [pmax, pmax, below_step b hb]
  show (below b ∪ Finset.univ.image (col b hb)).sup X
    = (below b).sup X ⊔ (Finset.univ : Finset (Fin 1280)).sup fun k => X (col b hb k)
  rw [Finset.sup_union, Finset.sup_image]
  rfl

/-- The next 1280 columns: the normaliser, rescaled to the new maximum. Every score real. -/
theorem psum_step (X : Fin 32000 → EReal) (hX : ∀ c, ∃ r : ℝ, X c = (r : EReal)) (b : ℕ) (hb : b + 1280 ≤ 32000) :
    psum X (b + 1280)
      = psum X b * Ideal.exp (pmax X b - pmax X (b + 1280))
        + ∑ k : Fin 1280, Ideal.exp (X (col b hb k) - pmax X (b + 1280)) := by
  have hsplit : psum X (b + 1280)
      = ∑ c ∈ below b, Ideal.exp (X c - pmax X (b + 1280))
        + ∑ k : Fin 1280, Ideal.exp (X (col b hb k) - pmax X (b + 1280)) := by
    rw [psum, below_step b hb, Finset.sum_union (below_disjoint b hb),
      Finset.sum_image fun k _ k' _ h => col_injective b hb h]
  have hscale : ∑ c ∈ below b, Ideal.exp (X c - pmax X (b + 1280))
      = psum X b * Ideal.exp (pmax X b - pmax X (b + 1280)) := by
    rcases (below b).eq_empty_or_nonempty with he | hne
    · rw [psum, he, Finset.sum_empty, Finset.sum_empty, zero_mul]
    · have hne' : (below (b + 1280)).Nonempty :=
        hne.mono (by rw [below_step b hb]; exact Finset.subset_union_left)
      obtain ⟨m, hm⟩ : ∃ m : ℝ, pmax X b = (m : EReal) := sup_real (below b) hne X hX
      obtain ⟨m', hm'⟩ : ∃ m' : ℝ, pmax X (b + 1280) = (m' : EReal) := sup_real (below (b + 1280)) hne' X hX
      choose f hf using hX
      rw [psum, hm, hm']
      simp only [hf]
      exact sum_exp_rescale (below b) f m m'
  rw [hsplit, hscale]

/-- The probability of a score a in the row X, as the dividing program computes it. -/
def prob (X : Fin 32000 → EReal) (a : EReal) : EReal := clip (Ideal.div (Ideal.exp (a - rowMax X)) (rowSum X))

/-- The normaliser of a row of real scores is a positive real number: a nonempty sum of exponentials of reals. -/
theorem rowSum_pos (X : Fin 32000 → EReal) (hX : ∀ c, ∃ r : ℝ, X c = (r : EReal)) :
    ∃ L : ℝ, rowSum X = (L : EReal) ∧ 0 < L := by
  obtain ⟨m, hm⟩ : ∃ m : ℝ, rowMax X = (m : EReal) := sup_real Finset.univ Finset.univ_nonempty X hX
  choose f hf using hX
  refine ⟨∑ c, Real.exp (f c - m), ?_, Finset.sum_pos (fun c _ => Real.exp_pos _) Finset.univ_nonempty⟩
  rw [rowSum, hm, coe_sum]
  refine Finset.sum_congr rfl fun c _ => ?_
  rw [hf c, ← EReal.coe_sub, Ideal.exp_coe]

/-- Multiplying by the reciprocal of the normaliser is dividing by it: the normaliser of real scores is a real
    number at least 1. -/
theorem prob_mul (X : Fin 32000 → EReal) (hX : ∀ c, ∃ r : ℝ, X c = (r : EReal)) (a : EReal) :
    clip (Ideal.exp (a - rowMax X) * Ideal.div 1 (rowSum X)) = prob X a := by
  obtain ⟨L, hL, hpos⟩ := rowSum_pos X hX
  rw [prob, hL, Ideal.div_coe hpos.ne', Ideal.div_coe hpos.ne', one_mul]

/-- A row's contribution, in the order the dividing program multiplies and adds. -/
def lossTerm (py pk opos oneg : EReal) : EReal :=
  ((-(pk * (py + pk))) * (1 - (pk - py)) - (pk * (1 - pk)) * (1 - (pk - py))) * oneg
    + (pk * (1 - (pk - py)) + (pk * py) * (1 - (pk - py))) * opos

/-- The same with the negation spelt as a subtraction from zero. -/
theorem lossTerm_zero_sub (py pk opos oneg : EReal) :
    ((0 - pk * (py + pk)) * (1 - (pk - py)) - (pk * (1 - pk)) * (1 - (pk - py))) * oneg
      + (pk * (1 - (pk - py)) + (pk * py) * (1 - (pk - py))) * opos = lossTerm py pk opos oneg := by
  rw [lossTerm, sub_eq_add_neg 0, zero_add]

/-- A row's contribution from the row and the two picked columns. -/
def rowLoss (X : Fin 32000 → EReal) (a b : Fin 32000) : EReal := lossTerm (prob X (X a)) (prob X (X b)) (X a) (X b)

/-- A clipped value lies between the real numbers lo and 1, so it is real, whatever was clipped. -/
theorem clip_real (x : EReal) : ∃ q : ℝ, clip x = (q : EReal) := by
  obtain ⟨r, hr, _, hr1⟩ := lo_real
  have h1 : clip x ≤ 1 := min_le_left _ _
  have h2 : (r : EReal) ≤ clip x := by
    rw [clip, hr]
    exact le_min (by exact_mod_cast hr1) (le_max_left _ _)
  refine ⟨(clip x).toReal, (EReal.coe_toReal ?_ ?_).symm⟩
  · have h1' : clip x ≤ ((1 : ℝ) : EReal) := by rw [EReal.coe_one]; exact h1
    exact ne_top_of_le_ne_top (EReal.coe_ne_top 1) h1'
  · exact ne_bot_of_le_ne_bot (EReal.coe_ne_bot r) h2

/-- Clipped probabilities are real numbers, so a row of real scores contributes a real number. -/
theorem rowLoss_real (X : Fin 32000 → EReal) (hX : ∀ c, ∃ r : ℝ, X c = (r : EReal)) (a b : Fin 32000) :
    ∃ q : ℝ, rowLoss X a b = (q : EReal) := by
  obtain ⟨py, hpy⟩ := clip_real (Ideal.div (Ideal.exp (X a - rowMax X)) (rowSum X))
  obtain ⟨pk, hpk⟩ := clip_real (Ideal.div (Ideal.exp (X b - rowMax X)) (rowSum X))
  obtain ⟨oa, ha⟩ := hX a
  obtain ⟨ob, hb⟩ := hX b
  refine ⟨((-(pk * (py + pk))) * (1 - (pk - py)) - (pk * (1 - pk)) * (1 - (pk - py))) * ob
      + (pk * (1 - (pk - py)) + (pk * py) * (1 - (pk - py))) * oa, ?_⟩
  rw [rowLoss, prob, prob, hpy, hpk, ha, hb, lossTerm]
  simp only [EReal.coe_add, EReal.coe_mul, EReal.coe_sub, EReal.coe_neg, EReal.coe_one]

/-- Negating every row before the mean, or the mean afterwards: the same for real contributions. The sums start
    from zero as the programs' reductions do. -/
theorem mean_neg (f : Fin 4096 → EReal) (hf : ∀ r, ∃ q : ℝ, f r = (q : EReal)) :
    Ideal.div (0 + ∑ r, (0 - f r)) rows = -(Ideal.div (0 + ∑ r, f r) rows) := by
  choose g hg using hf
  have h1 : (0 : EReal) + ∑ r, (0 - f r) = ((∑ r, -g r : ℝ) : EReal) := by
    rw [zero_add, coe_sum]
    exact Finset.sum_congr rfl fun r _ => by rw [hg r, sub_eq_add_neg, zero_add, EReal.coe_neg]
  have h2 : (0 : EReal) + ∑ r, f r = ((∑ r, g r : ℝ) : EReal) := by
    rw [zero_add, coe_sum]
    exact Finset.sum_congr rfl fun r _ => hg r
  have h4096 : (4096 : ℝ) ≠ 0 := by norm_num
  rw [h1, h2, rows_eq, Ideal.div_coe h4096, Ideal.div_coe h4096, ← EReal.coe_mul, ← EReal.coe_mul,
    ← EReal.coe_neg, Finset.sum_neg_distrib, neg_mul]

end Cert.NL

end
-- ==== Proof.RowOut.lean ====
/-
  A row's entry of the multiplying program's result array, in that program's own spelling: the probabilities as
  exp (a − M) · (1 / L) clipped, the negation of p_k (p_y + p_k) as a subtraction from zero, and the whole contribution
  subtracted from zero.
-/
import proofs.«412134_j71330816852650_3_alg».proof.Proof.Spec

noncomputable section

namespace Cert.NL

open Idealize.ShloMosaic

/-- The probability of a score a from a maximum M and a normaliser L, multiplying by the reciprocal. -/
def probK (M L a : EReal) : EReal := clip (Ideal.exp (a - M) * Ideal.div 1 L)

/-- The entry: zero minus the contribution of the scores a (first pick) and b (second pick), from M and L. -/
def entryK (M L a b : EReal) : EReal :=
  0 - (((0 - probK M L b * (probK M L a + probK M L b)) * (1 - (probK M L b - probK M L a))
          - (probK M L b * (1 - probK M L b)) * (1 - (probK M L b - probK M L a))) * b
        + (probK M L b * (1 - (probK M L b - probK M L a))
          + (probK M L b * probK M L a) * (1 - (probK M L b - probK M L a))) * a)

/-- The entry of a row X at the scores a and b. -/
def rowOut (X : Fin 32000 → EReal) (a b : EReal) : EReal := entryK (rowMax X) (rowSum X) a b

end Cert.NL

end
-- ==== Proof.LibRowRead.lean ====
/-
  Rows of a rank-2 array read through a reduction over the columns, and a unit middle axis dropped.

  A sum or a maximum over axis 1 of an [R, C] array, at row p, ranges over the entries (p, k), k a column:
  the sum is their sum, the maximum the fold of max from the starting value. An [R, 1, C] array cast to [R, C]
  reads, at (p, k), the entry (p, 0, k). And the four float words these programs use, as extended reals.
-/
import Idealize.ShloMosaic.PureOps.Ideal.Laws
import Idealize.ShloMosaic.Lib.Pipeline.Value
import Idealize.ShloMosaic.Lib.ValueIdx

noncomputable section

namespace Cert.RowRead

open Idealize.ShloMosaic Idealize.ShloMosaic.ValueIdx

variable {R C : ℕ} {φ : FTy}

/-- The reduced index p with column k put back is (p, k). -/
theorem lift_row (h : (⟨2, ![R, C]⟩ : Shape).Reduces [1] (⟨1, ![R]⟩ : Shape)) (p : Fin R)
    (k : Fin ((⟨2, ![R, C]⟩ : Shape).size 1)) : h.lift (ix1 p) k = ix2 p (⟨k.val, k.isLt⟩ : Fin C) := by
  funext c; apply Fin.ext
  fin_cases c <;> rfl

/-- A sum over the columns, at row p. -/
theorem rowSum_apply (src : FVec Ideal (⟨2, ![R, C]⟩ : Shape) φ) (acc : BitVec φ.bits)
    (h : (⟨2, ![R, C]⟩ : Shape).Reduces [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin C, src (ix2 p k) := by
  rw [Ideal.multiReduction_add_single]
  exact Finset.sum_congr rfl fun k _ => congrArg src (lift_row h p k)

/-- A maximum over the columns, at row p: the fold of max from the accumulator's value. -/
theorem rowMax_apply (src : FVec Ideal (⟨2, ![R, C]⟩ : Shape) φ) (acc : BitVec φ.bits)
    (h : (⟨2, ![R, C]⟩ : Shape).Reduces [1] (⟨1, ![R]⟩ : Shape)) (hφ : FKind.Formats φ)
    (hacc : acc = FKind.maximumf.neutral φ hφ) (p : Fin R) :
    multiReduction .maximumf [1] (⟨1, ![R]⟩ : Shape) src acc h hφ hacc (ix1 p)
      = (Finset.univ : Finset (Fin C)).fold max (Ideal.ofBits φ acc) (fun k => src (ix2 p k)) := by
  rw [Ideal.multiReduction_maximumf_single]
  have hf : (src ∘ h.lift (ix1 p)) = fun k : Fin C => src (ix2 p k) := funext fun k => congrArg src (lift_row h p k)
  exact congrArg (fun f => Finset.fold max (Ideal.ofBits φ acc) f (Finset.univ : Finset (Fin C))) hf

/-- The f32 sum from the zero word, its side proofs typed as a program spells them. -/
theorem rowSum_f32 (src : FVec Ideal (⟨2, ![R, C]⟩ : Shape) .f32)
    (h : (⟨2, ![R, C]⟩ : Shape).Reduces [1] (⟨1, ![R]⟩ : Shape)) (hφ : FKind.Formats .f32)
    (hacc : (0x00000000#32 : BitVec 32) = 0x00000000#32) (p : Fin R) :
    multiReduction .add [1] (⟨1, ![R]⟩ : Shape) src 0x00000000#32 h hφ hacc (ix1 p) = ∑ k : Fin C, src (ix2 p k) :=
  rowSum_apply src _ h hφ hacc p

/-- The f32 maximum from the word of -∞, likewise: the fold of max from the bottom element. -/
theorem rowMax_f32 (src : FVec Ideal (⟨2, ![R, C]⟩ : Shape) .f32)
    (h : (⟨2, ![R, C]⟩ : Shape).Reduces [1] (⟨1, ![R]⟩ : Shape)) (hφ : FKind.Formats .f32)
    (hacc : (0xFF800000#32 : BitVec 32) = 0xFF800000#32) (p : Fin R) :
    multiReduction .maximumf [1] (⟨1, ![R]⟩ : Shape) src 0xFF800000#32 h hφ hacc (ix1 p)
      = (Finset.univ : Finset (Fin C)).fold max ⊥ (fun k => src (ix2 p k)) := by
  have e : Ideal.ofBits .f32 0xFF800000#32 = ⊥ := by simp [Ideal.ofBits, Ideal.ieee]
  rw [← e]
  exact rowMax_apply src _ h hφ hacc p

/-- The host's maximum over the columns, at row p: the fold of max from the initial value. -/
theorem hostRowMax_apply (x : FVec Ideal (⟨2, ![R, C]⟩ : Shape) φ) (init : (⟨0, ![]⟩ : Shape).Idx → Ideal φ)
    (h' : (⟨2, ![R, C]⟩ : Shape).ReducesTo [1] (⟨1, ![R]⟩ : Shape))
    (h : (⟨2, ![R, C]⟩ : Shape).Reduces [1] (⟨1, ![R]⟩ : Shape)) (hu : 0 < (⟨0, ![]⟩ : Shape).numel) (p : Fin R) :
    Host.reduce FloatOps.maximumf x init h' hu (ix1 p)
      = (Finset.univ : Finset (Fin C)).fold max (init (Shape.Idx.first hu)) (fun k => x (ix2 p k)) := by
  rw [Host.reduce_eq_fold_single FloatOps.maximumf x init h' h hu]
  have hf : (x ∘ h.lift (ix1 p)) = fun k : Fin C => x (ix2 p k) := funext fun k => congrArg x (lift_row h p k)
  exact congrArg (fun f => Finset.fold max (init (Shape.Idx.first hu)) f (Finset.univ : Finset (Fin C))) hf

/-- An [R, 1, C] array with its unit axis dropped reads, at (p, k), the entry (p, 0, k). -/
theorem squeeze_apply {α : Type} (x : (⟨3, ![R, 1, C]⟩ : Shape).Idx → α)
    (h : (⟨3, ![R, 1, C]⟩ : Shape).ShapeCasts (⟨2, ![R, C]⟩ : Shape)) (p : Fin R) (k : Fin C) :
    shapeCast (⟨2, ![R, C]⟩ : Shape) x h (ix2 p k) = x (ix3 p (0 : Fin 1) k) :=
  shapeCast_apply x h _ _ (by
    rw [Shape.rowMajor_val_three, Shape.rowMajor_val_two]
    show (p.val * 1 + 0) * C + k.val = p.val * C + k.val
    rw [Nat.mul_one, Nat.add_zero])

/-- Reading a vector through `exp`, entry by entry. -/
theorem exp_apply {s : Shape} (a : FVec Ideal s φ) (i : s.Idx) : exp a i = Ideal.exp (a i) := rfl

/-! ## The float words -/

theorem word_zero : Ideal.ofBits .f32 0x00000000#32 = 0 := Ideal.ofBits_zero_f32
theorem word_one : Ideal.ofBits .f32 0x3F800000#32 = 1 := by simp [Ideal.ofBits, Ideal.ieee, -EReal.coe_mul]; norm_num
theorem word_thousand : Ideal.ofBits .f32 0x447A0000#32 = ((1000 : ℝ) : EReal) := by
  simp [Ideal.ofBits, Ideal.ieee, -EReal.coe_mul]; norm_num
theorem word_neg_inf : Ideal.ofBits .f32 0xFF800000#32 = ⊥ := by simp [Ideal.ofBits, Ideal.ieee]

end Cert.RowRead

end
-- ==== Proof.LibColumn.lean ====
/-
  Keep-dims columns read at an index.

  A row statistic of an [a, b] array (a row's maximum, a row's sum) is computed as an [a] vector, cast to the
  column [a, 1] and broadcast back over the b columns. Read at (p, c) the result is the statistic of row p,
  whatever the column c. The two layout steps, at any extents and element type.
-/
import Idealize.ShloMosaic.Lib.Pipeline.Value
import Idealize.ShloMosaic.Lib.ValueIdx

noncomputable section

namespace Idealize.ShloMosaic.Column

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two steps together: an `[a]` vector as a column, broadcast over `b` columns, at `(p, c)` is the vector at `p`. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Idealize.ShloMosaic.Column

end
-- ==== Proof.KerRead.lean ====
/-
  The kernel's point functions read at the extended reals, one row at a time.

  Row p of the block is 6400 consecutive columns of a row X of scores, starting at column b. If the running maximum and
  normaliser the point finds in row p are those of the columns below b, the ones it leaves are those of the columns
  below b + 6400: five times the step of 1280 columns. The first point of a row tile starts from −∞ and 0, the
  maximum and normaliser of no column. From the finished maximum and normaliser the last point's result entry is the
  row's entry at the two picked scores.
-/
import proofs.«412134_j71330816852650_3_alg».proof.Proof.KerPoint
import proofs.«412134_j71330816852650_3_alg».proof.Proof.Spec
import proofs.«412134_j71330816852650_3_alg».proof.Proof.RowOut
import proofs.«412134_j71330816852650_3_alg».proof.Proof.LibRowRead
import proofs.«412134_j71330816852650_3_alg».proof.Proof.LibColumn
import Idealize.ShloMosaic.PureOps.Ideal.Laws

noncomputable section

namespace Cert.NL.Ker

open Idealize.ShloMosaic Idealize.ShloMosaic.ValueIdx Cert.KernelIdeal Cert.KernelIdeal.Gen Cert.NL

/-- The maximum of a slab's row p. -/
private def smax (v : Vec Ideal S512x1280 .f32) (p : Fin 512) : EReal :=
  (Finset.univ : Finset (Fin 1280)).fold max ⊥ fun k => v (ix2 p k)

/-- The sum over a slab's row p of the exponentials of the entries less M. -/
private def ssum (v : Vec Ideal S512x1280 .f32) (M : EReal) (p : Fin 512) : EReal :=
  ∑ k : Fin 1280, Ideal.exp (v (ix2 p k) - M)

/-- A slab's maximum over the columns, kept as a column, read in row p. -/
private theorem redMax_apply (v : Vec Ideal S512x1280 .f32) (p : Fin 512) :
    shapeCast S512x1 (multiReduction (F := Ideal) .maximumf [1] S512 v 0xFF800000#32 reduces_S512x1280_S512 (.inl rfl) rfl)
      shapeCasts_S512_S512x1 (ix2 p (0 : Fin 1)) = smax v p :=
  (Column.shapeCast_a_a1_apply _ _ p 0).trans (Cert.RowRead.rowMax_f32 _ _ _ _ p)

/-- The sum over the columns of exp (slab − a column M broadcast over them), kept as a column, read in row p. -/
private theorem redSumExp_apply (v : Vec Ideal S512x1280 .f32) (M : FVec Ideal S512x1 .f32) (p : Fin 512) :
    shapeCast S512x1 (multiReduction (F := Ideal) .add [1] S512
        (exp (subf v (broadcastTo S512x1280 M broadcasts_S512x1_S512x1280))) 0x00000000#32 reduces_S512x1280_S512 (.inl rfl) rfl)
      shapeCasts_S512_S512x1 (ix2 p (0 : Fin 1)) = ssum v (M (ix2 p (0 : Fin 1))) p := by
  refine ((Column.shapeCast_a_a1_apply _ _ p 0).trans (Cert.RowRead.rowSum_f32 _ _ _ _ p)).trans ?_
  refine Finset.sum_congr rfl fun k _ => ?_
  show Ideal.exp (v (ix2 p k) - broadcastTo S512x1280 M broadcasts_S512x1_S512x1280 (ix2 p k)) = _
  rw [Column.broadcastTo_a1_ab_apply]

/-! ## The payloads read in row p -/

private theorem pay8_apply (v3 : Vec Ideal S512x1 .f32) (v8 : Vec Ideal S512x1280 .f32) (p : Fin 512) :
    k0_pay8 v3 v8 (ix2 p (0 : Fin 1)) = max (v3 (ix2 p (0 : Fin 1))) (smax v8 p) := by
  unfold k0_pay8
  exact congrArg (max _) (redMax_apply v8 p)

private theorem pay9_apply (v3 : Vec Ideal S512x1 .f32) (v8 v24 : Vec Ideal S512x1280 .f32) (p : Fin 512) :
    k0_pay9 v3 v8 v24 (ix2 p (0 : Fin 1)) = max (k0_pay8 v3 v8 (ix2 p (0 : Fin 1))) (smax v24 p) := by
  unfold k0_pay9
  exact congrArg (max _) (redMax_apply v24 p)

private theorem pay11_apply (v27 : FVec Ideal S512x1 .f32) (v40 : Vec Ideal S512x1280 .f32) (p : Fin 512) :
    k0_pay11 v27 v40 (ix2 p (0 : Fin 1)) = max (v27 (ix2 p (0 : Fin 1))) (smax v40 p) := by
  unfold k0_pay11
  exact congrArg (max _) (redMax_apply v40 p)

private theorem pay12_apply (v27 : FVec Ideal S512x1 .f32) (v40 v56 : Vec Ideal S512x1280 .f32) (p : Fin 512) :
    k0_pay12 v27 v40 v56 (ix2 p (0 : Fin 1)) = max (k0_pay11 v27 v40 (ix2 p (0 : Fin 1))) (smax v56 p) := by
  unfold k0_pay12
  exact congrArg (max _) (redMax_apply v56 p)

private theorem pay13_apply (v27 : FVec Ideal S512x1 .f32) (v40 v56 v72 : Vec Ideal S512x1280 .f32) (p : Fin 512) :
    k0_pay13 v27 v40 v56 v72 (ix2 p (0 : Fin 1)) = max (k0_pay12 v27 v40 v56 (ix2 p (0 : Fin 1))) (smax v72 p) := by
  unfold k0_pay13
  exact congrArg (max _) (redMax_apply v72 p)

private theorem pay10_apply (v3 v4 : Vec Ideal S512x1 .f32) (v8 v24 : Vec Ideal S512x1280 .f32) (p : Fin 512) :
    k0_pay10 v3 v4 v8 v24 (ix2 p (0 : Fin 1))
      = (v4 (ix2 p (0 : Fin 1)) * Ideal.exp (v3 (ix2 p (0 : Fin 1)) - k0_pay8 v3 v8 (ix2 p (0 : Fin 1)))
            + ssum v8 (k0_pay8 v3 v8 (ix2 p (0 : Fin 1))) p)
          * Ideal.exp (k0_pay8 v3 v8 (ix2 p (0 : Fin 1)) - k0_pay9 v3 v8 v24 (ix2 p (0 : Fin 1)))
        + ssum v24 (k0_pay9 v3 v8 v24 (ix2 p (0 : Fin 1))) p := by
  rw [← redSumExp_apply v8 (k0_pay8 v3 v8) p, ← redSumExp_apply v24 (k0_pay9 v3 v8 v24) p]
  rfl

private theorem pay14_apply (v27 v36 : FVec Ideal S512x1 .f32) (v40 v56 v72 : Vec Ideal S512x1280 .f32) (p : Fin 512) :
    k0_pay14 v27 v36 v40 v56 v72 (ix2 p (0 : Fin 1))
      = ((v36 (ix2 p (0 : Fin 1)) * Ideal.exp (v27 (ix2 p (0 : Fin 1)) - k0_pay11 v27 v40 (ix2 p (0 : Fin 1)))
              + ssum v40 (k0_pay11 v27 v40 (ix2 p (0 : Fin 1))) p)
            * Ideal.exp (k0_pay11 v27 v40 (ix2 p (0 : Fin 1)) - k0_pay12 v27 v40 v56 (ix2 p (0 : Fin 1)))
          + ssum v56 (k0_pay12 v27 v40 v56 (ix2 p (0 : Fin 1))) p)
          * Ideal.exp (k0_pay12 v27 v40 v56 (ix2 p (0 : Fin 1)) - k0_pay13 v27 v40 v56 v72 (ix2 p (0 : Fin 1)))
        + ssum v72 (k0_pay13 v27 v40 v56 v72 (ix2 p (0 : Fin 1))) p := by
  rw [← redSumExp_apply v40 (k0_pay11 v27 v40) p, ← redSumExp_apply v56 (k0_pay12 v27 v40 v56) p,
    ← redSumExp_apply v72 (k0_pay13 v27 v40 v56 v72) p]
  rfl

/-! ## One slab of 1280 columns, over the row X -/

/-- The maximum step: the slab holds the columns c … c + 1279 of X. -/
private theorem step_m (X : Fin 32000 → EReal) (v : Vec Ideal S512x1280 .f32) (p : Fin 512) (c : ℕ) (hc : c + 1280 ≤ 32000)
    (hv : ∀ k : Fin 1280, v (ix2 p k) = X (col c hc k)) (M : EReal) (hM : M = pmax X c) :
    max M (smax v p) = pmax X (c + 1280) := by
  rw [pmax_step X c hc, hM]
  exact congrArg (fun f => max (pmax X c) (Finset.fold max ⊥ f (Finset.univ : Finset (Fin 1280)))) (funext hv)

/-- The normaliser step, rescaled from the maximum M of the columns below c to the maximum M' of those below c + 1280. -/
private theorem step_l (X : Fin 32000 → EReal) (hX : ∀ c, ∃ r : ℝ, X c = (r : EReal)) (v : Vec Ideal S512x1280 .f32) (p : Fin 512)
    (c : ℕ) (hc : c + 1280 ≤ 32000) (hv : ∀ k : Fin 1280, v (ix2 p k) = X (col c hc k)) (M L M' : EReal)
    (hM : M = pmax X c) (hL : L = psum X c) (hM' : M' = pmax X (c + 1280)) :
    L * Ideal.exp (M - M') + ssum v M' p = psum X (c + 1280) := by
  rw [psum_step X hX c hc, hM, hL, hM']
  exact congrArg (fun s => psum X c * Ideal.exp (pmax X c - pmax X (c + 1280)) + s)
    (Finset.sum_congr rfl fun k _ => by rw [hv k])

/-- A slab of the block at column offset off holds the columns c … c + 1279 of X, c = b + off. -/
private theorem slab_row (X : Fin 32000 → EReal) (b : ℕ) (hb : b + 6400 ≤ 32000) (x0 : Vec Ideal S512x6400 .f32) (p : Fin 512)
    (hx0 : ∀ q : Fin 6400, x0 (ix2 p q) = X (⟨b + q.val, by have := q.isLt; omega⟩ : Fin 32000))
    (off : ℕ) (h : ∀ a, (![0, off] : Fin 2 → ℕ) a + (![512, 1280] : Fin 2 → ℕ) a ≤ S512x6400.size a)
    (hoff : off + 1280 ≤ 6400) (c : ℕ) (hc : c + 1280 ≤ 32000) (hcb : c = b + off) (k : Fin 1280) :
    slab x0 off h (ix2 p k) = X (col c hc k) := by
  rw [slab_apply x0 off h hoff p k, hx0]
  exact congrArg X (Fin.ext (by simp only [col]; omega))

/-- The reset value of the running maximum: −∞ in every row. -/
theorem init_m (p : Fin 512) : k0_pay6 (F := Ideal) (ix2 p (0 : Fin 1)) = ⊥ := by
  unfold k0_pay6
  rw [shapeCast_self]
  exact Cert.RowRead.word_neg_inf

/-- The reset value of the running normaliser: 0 in every row. -/
theorem init_l (p : Fin 512) : k0_pay7 (F := Ideal) (ix2 p (0 : Fin 1)) = 0 := by
  unfold k0_pay7
  rw [shapeCast_self]
  exact Cert.RowRead.word_zero

/-- One point, in row p: from the maximum and normaliser of the columns below b to those of the columns below b + 6400. -/
theorem point_apply (X : Fin 32000 → EReal) (hX : ∀ c, ∃ r : ℝ, X c = (r : EReal)) (b : ℕ) (hb : b + 6400 ≤ 32000)
    (m0 l0 : Vec Ideal S512x1 .f32) (x0 : Vec Ideal S512x6400 .f32) (p : Fin 512)
    (hm : m0 (ix2 p (0 : Fin 1)) = pmax X b) (hl : l0 (ix2 p (0 : Fin 1)) = psum X b)
    (hx0 : ∀ q : Fin 6400, x0 (ix2 p q) = X (⟨b + q.val, by have := q.isLt; omega⟩ : Fin 32000)) :
    mNew m0 x0 (ix2 p (0 : Fin 1)) = pmax X (b + 6400) ∧ lNew m0 l0 x0 (ix2 p (0 : Fin 1)) = psum X (b + 6400) := by
  have hc0 : b + 1280 ≤ 32000 := by omega
  have hc1 : b + 1280 + 1280 ≤ 32000 := by omega
  have hc2 : b + 1280 + 1280 + 1280 ≤ 32000 := by omega
  have hc3 : b + 1280 + 1280 + 1280 + 1280 ≤ 32000 := by omega
  have hc4 : b + 1280 + 1280 + 1280 + 1280 + 1280 ≤ 32000 := by omega
  have hs0 := slab_row X b hb x0 p hx0 0 inb0 (by omega) b hc0 (by omega)
  have hs1 := slab_row X b hb x0 p hx0 1280 inb1 (by omega) (b + 1280) hc1 (by omega)
  have hs2 := slab_row X b hb x0 p hx0 2560 inb2 (by omega) (b + 1280 + 1280) hc2 (by omega)
  have hs3 := slab_row X b hb x0 p hx0 3840 inb3 (by omega) (b + 1280 + 1280 + 1280) hc3 (by omega)
  have hs4 := slab_row X b hb x0 p hx0 5120 inb4 (by omega) (b + 1280 + 1280 + 1280 + 1280) hc4 (by omega)
  -- the five maxima
  have e8 := (pay8_apply m0 (slab x0 0 inb0) p).trans (step_m X _ p b hc0 hs0 _ hm)
  have e9 := (pay9_apply m0 (slab x0 0 inb0) (slab x0 1280 inb1) p).trans (step_m X _ p _ hc1 hs1 _ e8)
  have e11 := (pay11_apply (k0_pay9 m0 (slab x0 0 inb0) (slab x0 1280 inb1)) (slab x0 2560 inb2) p).trans
    (step_m X _ p _ hc2 hs2 _ e9)
  have e12 := (pay12_apply (k0_pay9 m0 (slab x0 0 inb0) (slab x0 1280 inb1)) (slab x0 2560 inb2) (slab x0 3840 inb3) p).trans
    (step_m X _ p _ hc3 hs3 _ e11)
  have e13 := (pay13_apply (k0_pay9 m0 (slab x0 0 inb0) (slab x0 1280 inb1)) (slab x0 2560 inb2) (slab x0 3840 inb3)
    (slab x0 5120 inb4) p).trans (step_m X _ p _ hc4 hs4 _ e12)
  -- the normaliser after two slabs, then after five
  have e10 := (pay10_apply m0 l0 (slab x0 0 inb0) (slab x0 1280 inb1) p).trans
    (step_l X hX _ p _ hc1 hs1 _ _ _ e8 (step_l X hX _ p b hc0 hs0 _ _ _ hm hl e8) e9)
  have e14 := (pay14_apply (k0_pay9 m0 (slab x0 0 inb0) (slab x0 1280 inb1))
      (k0_pay10 m0 l0 (slab x0 0 inb0) (slab x0 1280 inb1)) (slab x0 2560 inb2) (slab x0 3840 inb3) (slab x0 5120 inb4) p).trans
    (step_l X hX _ p _ hc4 hs4 _ _ _ e12
      (step_l X hX _ p _ hc3 hs3 _ _ _ e11 (step_l X hX _ p _ hc2 hs2 _ _ _ e9 e10 e11) e12) e13)
  have hend : b + 1280 + 1280 + 1280 + 1280 + 1280 = b + 6400 := by omega
  constructor
  · unfold mNew k0_pay1
    rw [shapeCast_self]
    exact e13.trans (congrArg (pmax X) hend)
  · unfold lNew k0_pay2
    rw [shapeCast_self]
    exact e14.trans (congrArg (psum X) hend)

/-- The last point's result entry in row p, from the row's maximum and normaliser and the two picked scores. -/
theorem fin_apply (X : Fin 32000 → EReal) (m1 l1 x1 x2 : Vec Ideal S512x1 .f32) (p : Fin 512)
    (hm : m1 (ix2 p (0 : Fin 1)) = rowMax X) (hl : l1 (ix2 p (0 : Fin 1)) = rowSum X) :
    oNew m1 l1 x1 x2 (ix2 p (0 : Fin 1)) = rowOut X (x1 (ix2 p (0 : Fin 1))) (x2 (ix2 p (0 : Fin 1))) := by
  unfold rowOut entryK probK clip lo
  rw [← hm, ← hl, ← Cert.RowRead.word_one, ← Cert.RowRead.word_zero]
  unfold oNew k0_pay3 k0_pay4 k0_pay5
  simp only [shapeCast_self]
  rfl

end Cert.NL.Ker

end
-- ==== Proof.LibTake.lean ====
/-
  jnp.take along axis 0 with in-range indices.

  The default-mode take wraps negative indices once, gathers with the wrapped indices as start
  indices, and replaces by a fill value every row whose wrapped index lies outside the table.
  When every index is already a natural number below the table's row count N (with N below 2³¹,
  so that each word is non-negative as a signed integer), nothing wraps, every row passes the
  range test, and the whole composite is the plain gather at the given indices.

  Also here: a concatenation of in-range indices with an iota stays in range.
-/
import Idealize.ShloMosaic.PureOps
import Idealize.ShloMosaic.Lib.StableHlo.Predicate
import Idealize.ShloMosaic.Lib.ReduceAll
import Idealize.ShloMosaic.Lib.Pipeline.Value

namespace Cert.LibTake

open Idealize.ShloMosaic
open Idealize.ShloMosaic.StableHlo.Predicate

variable {α : Type}

/-! ## A select whose condition is all ones -/

/-- A select under a mask that is 1 at every index returns its first branch. -/
theorem select_ones {s : Shape} (mask : IVec s 1) (a b : s.Idx → α) (h : ∀ i, mask i = 1#1) :
    select mask a b = a := by
  funext i
  show Scalar.select (mask i) (a i) (b i) = a i
  unfold Scalar.select
  rw [h i]
  exact if_pos rfl

/-- A select under a mask that is 1 nowhere returns its second branch. -/
theorem select_none {s : Shape} (mask : IVec s 1) (a b : s.Idx → α) (h : ∀ i, ¬ mask i = 1#1) :
    select mask a b = b := by
  funext i
  show Scalar.select (mask i) (a i) (b i) = b i
  unfold Scalar.select
  exact if_neg (h i)

/-! ## The wrap of negative indices -/

/-- With every index a natural number below N < 2³¹, no index is negative as a signed word, so the
    select that adds N to the negative ones returns the index vector itself. -/
theorem wrap_id {R N : Nat} (hN : N < 2 ^ 31) (idx : IVec ⟨1, ![R]⟩ 32) (hidx : ∀ r, (idx r).toNat < N)
    (hz hn : (⟨0, ![]⟩ : Shape).BroadcastsInDim ⟨1, ![R]⟩ ![]) :
    select (cmpi .slt idx (broadcastInDim ⟨1, ![R]⟩ ![] hz (constantI ⟨0, ![]⟩ 32 0#32)))
      (addi idx (broadcastInDim ⟨1, ![R]⟩ ![] hn (constantI ⟨0, ![]⟩ 32 (BitVec.ofNat 32 N)))) idx = idx := by
  apply select_none
  intro r
  show ¬ IntOp.cmpi .slt (idx r) 0#32 = 1#1
  have hr := hidx r
  rw [slt_iff_toNat (by omega) (by decide)]
  simp

/-! ## The range mask -/

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = (1#1 : BitVec 1) from by decide]
    exact foldl_andi_ones f hf l

/-- A reduction by `and` from an initial value 1 of an array that is 1 everywhere is 1 at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1)
    (j : t.Idx) : Host.reduce IntOp.andi x init h hu j = 1#1 := by
  rw [Host.reduce_eq_foldl, hinit]
  exact foldl_andi_ones x hx _

/-- With every index a natural number below N < 2³¹, the start-index column passes both range tests
    (0 ≤ index, index ≤ N − 1) in every row, so the row mask — their conjunction reduced by `and` along the
    column axis — is 1 at every row. -/
theorem mask_ones {R N : Nat} (hN : N < 2 ^ 31) (idx : IVec ⟨1, ![R]⟩ 32) (hidx : ∀ r, (idx r).toNat < N)
    (hI : (⟨1, ![R]⟩ : Shape).BroadcastsInDim ⟨2, ![R, 1]⟩ ![0])
    (h0 : (⟨0, ![]⟩ : Shape).BroadcastsInDim ⟨2, ![R, 1]⟩ ![])
    (h1 : (⟨1, ![1]⟩ : Shape).BroadcastsInDim ⟨2, ![1, 1]⟩ ![1])
    (h2 : (⟨2, ![1, 1]⟩ : Shape).BroadcastsInDim ⟨2, ![R, 1]⟩ ![0, 1])
    (hr : (⟨2, ![R, 1]⟩ : Shape).ReducesTo [1] ⟨1, ![R]⟩) (hu : 0 < (⟨0, ![]⟩ : Shape).numel)
    (j : (⟨1, ![R]⟩ : Shape).Idx) :
    Host.reduce IntOp.andi
      (andi
        (cmpi .sge (broadcastInDim ⟨2, ![R, 1]⟩ ![0] hI idx)
          (broadcastInDim ⟨2, ![R, 1]⟩ ![] h0 (constantI ⟨0, ![]⟩ 32 0#32)))
        (cmpi .sle (broadcastInDim ⟨2, ![R, 1]⟩ ![0] hI idx)
          (broadcastInDim ⟨2, ![R, 1]⟩ ![0, 1] h2
            (broadcastInDim ⟨2, ![1, 1]⟩ ![1] h1 (constantI ⟨1, ![1]⟩ 32 (BitVec.ofNat 32 (N - 1)))))))
      (constantI ⟨0, ![]⟩ 1 1#1) hr hu j = 1#1 := by
  apply reduce_andi_ones _ _ hr hu _ rfl
  intro i
  -- the start index at i is one of the given indices
  obtain ⟨r, hIr⟩ : ∃ r, broadcastInDim ⟨2, ![R, 1]⟩ ![0] hI idx i = idx r := ⟨_, rfl⟩
  have hlt := hidx r
  have hM : (BitVec.ofNat 32 (N - 1)).toNat = N - 1 := by
    rw [BitVec.toNat_ofNat]; exact Nat.mod_eq_of_lt (by omega)
  show IntOp.andi (IntOp.cmpi .sge (broadcastInDim ⟨2, ![R, 1]⟩ ![0] hI idx i) 0#32)
      (IntOp.cmpi .sle (broadcastInDim ⟨2, ![R, 1]⟩ ![0] hI idx i) (BitVec.ofNat 32 (N - 1))) = 1#1
  rw [hIr, IntOp.andi_eq_one, sge_iff_toNat (by omega) (by decide), sle_iff_toNat (by omega) (by rw [hM]; omega), hM]
  exact ⟨Nat.zero_le _, by omega⟩

/-! ## The take composite is the plain gather -/

/-- THE TAKE OF ROWS (a table whose gathered slices have C entries each; result [R, C]). With every index a natural number
    below N < 2³¹: the wrap of negative indices does nothing, the row mask — broadcast along the rows of the result — is
    all ones, and so the select between the gathered rows and the fill array is the gather at the given indices kept
    as an [R, 1] column. The table's shape, the gather's dimension numbers and the fill array are arbitrary. -/
theorem take_rows_eq {R N C : Nat} {s : Shape} (hN : N < 2 ^ 31) (idx : IVec ⟨1, ![R]⟩ 32)
    (hidx : ∀ r, (idx r).toNat < N) (d : GatherDims s ⟨2, ![R, 1]⟩ ⟨2, ![R, C]⟩) (x : s.Idx → α)
    (fill : (⟨2, ![R, C]⟩ : Shape).Idx → α)
    (hz hn : (⟨0, ![]⟩ : Shape).BroadcastsInDim ⟨1, ![R]⟩ ![])
    (hI : (⟨1, ![R]⟩ : Shape).BroadcastsInDim ⟨2, ![R, 1]⟩ ![0])
    (h0 : (⟨0, ![]⟩ : Shape).BroadcastsInDim ⟨2, ![R, 1]⟩ ![])
    (h1 : (⟨1, ![1]⟩ : Shape).BroadcastsInDim ⟨2, ![1, 1]⟩ ![1])
    (h2 : (⟨2, ![1, 1]⟩ : Shape).BroadcastsInDim ⟨2, ![R, 1]⟩ ![0, 1])
    (hr : (⟨2, ![R, 1]⟩ : Shape).ReducesTo [1] ⟨1, ![R]⟩) (hu : 0 < (⟨0, ![]⟩ : Shape).numel)
    (hm : (⟨1, ![R]⟩ : Shape).BroadcastsInDim ⟨2, ![R, C]⟩ ![0]) :
    select
      (broadcastInDim ⟨2, ![R, C]⟩ ![0] hm
        (Host.reduce IntOp.andi
          (andi
            (cmpi .sge
              (broadcastInDim ⟨2, ![R, 1]⟩ ![0] hI
                (select (cmpi .slt idx (broadcastInDim ⟨1, ![R]⟩ ![] hz (constantI ⟨0, ![]⟩ 32 0#32)))
                  (addi idx (broadcastInDim ⟨1, ![R]⟩ ![] hn (constantI ⟨0, ![]⟩ 32 (BitVec.ofNat 32 N)))) idx))
              (broadcastInDim ⟨2, ![R, 1]⟩ ![] h0 (constantI ⟨0, ![]⟩ 32 0#32)))
            (cmpi .sle
              (broadcastInDim ⟨2, ![R, 1]⟩ ![0] hI
                (select (cmpi .slt idx (broadcastInDim ⟨1, ![R]⟩ ![] hz (constantI ⟨0, ![]⟩ 32 0#32)))
                  (addi idx (broadcastInDim ⟨1, ![R]⟩ ![] hn (constantI ⟨0, ![]⟩ 32 (BitVec.ofNat 32 N)))) idx))
              (broadcastInDim ⟨2, ![R, 1]⟩ ![0, 1] h2
                (broadcastInDim ⟨2, ![1, 1]⟩ ![1] h1 (constantI ⟨1, ![1]⟩ 32 (BitVec.ofNat 32 (N - 1)))))))
          (constantI ⟨0, ![]⟩ 1 1#1) hr hu))
      (Host.gather d x
        (broadcastInDim ⟨2, ![R, 1]⟩ ![0] hI
          (select (cmpi .slt idx (broadcastInDim ⟨1, ![R]⟩ ![] hz (constantI ⟨0, ![]⟩ 32 0#32)))
            (addi idx (broadcastInDim ⟨1, ![R]⟩ ![] hn (constantI ⟨0, ![]⟩ 32 (BitVec.ofNat 32 N)))) idx)))
      fill
    = Host.gather d x (broadcastInDim ⟨2, ![R, 1]⟩ ![0] hI idx) := by
  rw [wrap_id hN idx hidx hz hn]
  apply select_ones
  intro i
  exact mask_ones hN idx hidx hI h0 h1 h2 hr hu _

/-- THE TAKE OF ENTRIES (a table whose gathered slices are single entries; result [R]). As `take_rows_eq`, the row
    mask used as it is. -/
theorem take_vec_eq {R N : Nat} {s : Shape} (hN : N < 2 ^ 31) (idx : IVec ⟨1, ![R]⟩ 32)
    (hidx : ∀ r, (idx r).toNat < N) (d : GatherDims s ⟨2, ![R, 1]⟩ ⟨1, ![R]⟩) (x : s.Idx → α)
    (fill : (⟨1, ![R]⟩ : Shape).Idx → α)
    (hz hn : (⟨0, ![]⟩ : Shape).BroadcastsInDim ⟨1, ![R]⟩ ![])
    (hI : (⟨1, ![R]⟩ : Shape).BroadcastsInDim ⟨2, ![R, 1]⟩ ![0])
    (h0 : (⟨0, ![]⟩ : Shape).BroadcastsInDim ⟨2, ![R, 1]⟩ ![])
    (h1 : (⟨1, ![1]⟩ : Shape).BroadcastsInDim ⟨2, ![1, 1]⟩ ![1])
    (h2 : (⟨2, ![1, 1]⟩ : Shape).BroadcastsInDim ⟨2, ![R, 1]⟩ ![0, 1])
    (hr : (⟨2, ![R, 1]⟩ : Shape).ReducesTo [1] ⟨1, ![R]⟩) (hu : 0 < (⟨0, ![]⟩ : Shape).numel) :
    select
      (Host.reduce IntOp.andi
        (andi
          (cmpi .sge
            (broadcastInDim ⟨2, ![R, 1]⟩ ![0] hI
              (select (cmpi .slt idx (broadcastInDim ⟨1, ![R]⟩ ![] hz (constantI ⟨0, ![]⟩ 32 0#32)))
                (addi idx (broadcastInDim ⟨1, ![R]⟩ ![] hn (constantI ⟨0, ![]⟩ 32 (BitVec.ofNat 32 N)))) idx))
            (broadcastInDim ⟨2, ![R, 1]⟩ ![] h0 (constantI ⟨0, ![]⟩ 32 0#32)))
          (cmpi .sle
            (broadcastInDim ⟨2, ![R, 1]⟩ ![0] hI
              (select (cmpi .slt idx (broadcastInDim ⟨1, ![R]⟩ ![] hz (constantI ⟨0, ![]⟩ 32 0#32)))
                (addi idx (broadcastInDim ⟨1, ![R]⟩ ![] hn (constantI ⟨0, ![]⟩ 32 (BitVec.ofNat 32 N)))) idx))
            (broadcastInDim ⟨2, ![R, 1]⟩ ![0, 1] h2
              (broadcastInDim ⟨2, ![1, 1]⟩ ![1] h1 (constantI ⟨1, ![1]⟩ 32 (BitVec.ofNat 32 (N - 1)))))))
        (constantI ⟨0, ![]⟩ 1 1#1) hr hu)
      (Host.gather d x
        (broadcastInDim ⟨2, ![R, 1]⟩ ![0] hI
          (select (cmpi .slt idx (broadcastInDim ⟨1, ![R]⟩ ![] hz (constantI ⟨0, ![]⟩ 32 0#32)))
            (addi idx (broadcastInDim ⟨1, ![R]⟩ ![] hn (constantI ⟨0, ![]⟩ 32 (BitVec.ofNat 32 N)))) idx)))
      fill
    = Host.gather d x (broadcastInDim ⟨2, ![R, 1]⟩ ![0] hI idx) := by
  rw [wrap_id hN idx hidx hz hn]
  apply select_ones
  intro i
  exact mask_ones hN idx hidx hI h0 h1 h2 hr hu i

/-! ## Indices followed by an iota -/

/-- A vector of n words each below B as a natural number, followed by the positions 0, 1, …, m − 1 with m ≤ B, has
    every entry below B. -/
theorem concat_iota_lt {n m T B : Nat} (hmB : m ≤ B) (v : IVec ⟨1, ![n]⟩ 32) (hv : ∀ i, (v i).toNat < B)
    (hc : Shape.Concatenates [(⟨1, ![n]⟩ : Shape), ⟨1, ![m]⟩] ⟨1, ![T]⟩ 0) (j : (⟨1, ![T]⟩ : Shape).Idx) :
    (concatenate ⟨1, ![T]⟩ 0 [⟨⟨1, ![n]⟩, v⟩, ⟨⟨1, ![m]⟩, iotaInDim ⟨1, ![m]⟩ 32 0⟩] hc j).toNat < B := by
  have hT : n + (m + 0) = T := hc.2.2
  have hj : (j 0).val < T := (j 0).isLt
  by_cases hlt : (j 0).val < n
  · rw [concatenate_pair_apply_left (t := ⟨1, ![T]⟩) (s₁ := ⟨1, ![n]⟩) (s₂ := ⟨1, ![m]⟩) (0 : Fin 1) v _ hc j rfl (Shape.Idx.ofFin ⟨(j 0).val, hlt⟩) (fun b => by
      have hb : b = 0 := Subsingleton.elim _ _
      subst hb; rfl)]
    exact hv _
  · have hm' : (j 0).val - n < m := by omega
    rw [concatenate_pair_apply_right (t := ⟨1, ![T]⟩) (s₁ := ⟨1, ![n]⟩) (s₂ := ⟨1, ![m]⟩) (0 : Fin 1) v _ hc j rfl rfl (Shape.Idx.ofFin ⟨(j 0).val - n, hm'⟩)
      (fun b hb => absurd (Subsingleton.elim _ _) hb) (by show (j 0).val - n + n = (j 0).val; omega)]
    show (BitVec.ofNat 32 ((j 0).val - n)).toNat < B
    rw [BitVec.toNat_ofNat]
    exact lt_of_le_of_lt (Nat.mod_le _ _) (by omega)

end Cert.LibTake
-- ==== Proof.Picks.lean ====
/-
  The integer side of both programs, over literal shapes and with no program in sight.

  Both programs pick, in every row r of a [4096, 32000] array, the entry of one column: the column idx r, a 32-bit word.
  One spells it as a take along the column axis: negative words wrapped once by 32000, the wrapped word tested against
  [0, 31999], the entry gathered with the row as a batching coordinate, and a fill value wherever the test fails.
  The other spells it as a gather at the pair (row, column): the row numbers 0 … 4095 and the words, both wrapped,
  laid side by side as a [4096, 2] table of start indices. When every word is a natural number below 32000 nothing wraps,
  every test passes, no start index is clamped, and both read x (r, idx r).

  The second picked column is a remainder: (a + b) mod 32000 with the sign of the divisor, as jnp computes it from the
  truncating remainder — the remainder, plus 32000 where it is negative. Whatever the word, the result is a natural
  number below 32000.
-/
import Idealize.ShloMosaic.PureOps
import Idealize.ShloMosaic.Lib.ValueIdx
import Idealize.ShloMosaic.Lib.Pipeline.Value
import Idealize.ShloMosaic.Lib.StableHlo.Predicate
import proofs.«412134_j71330816852650_3_alg».proof.Proof.LibTake

noncomputable section

namespace Cert.NL

open Idealize.ShloMosaic Idealize.ShloMosaic.ValueIdx

/-- The shapes, as literals. -/
abbrev R0 : Shape := ⟨0, ![]⟩
abbrev R1 : Shape := ⟨1, ![4096]⟩
abbrev R11 : Shape := ⟨2, ![4096, 1]⟩
abbrev R111 : Shape := ⟨3, ![4096, 1, 1]⟩
abbrev R2 : Shape := ⟨2, ![4096, 2]⟩
abbrev RC : Shape := ⟨2, ![4096, 32000]⟩
abbrev O1 : Shape := ⟨1, ![1]⟩
abbrev O111 : Shape := ⟨3, ![1, 1, 1]⟩

/-- jnp's remainder by 32000 of a vector of words: the truncating remainder, plus 32000 where its sign differs from
    the divisor's and it is not zero. The divisor is guarded against zero first (it is 32000, so the guard does nothing). -/
def remV (x : IVec R1 32) (hb : R0.BroadcastsInDim R1 (![] : Fin 0 → Fin R1.rank)) : IVec R1 32 :=
  let c : IVec R0 32 := constantI R0 32 32000#32
  let v2 : IVec R0 32 := select (cmpi .eq c (constantI R0 32 0#32)) (constantI R0 32 1#32) c
  let v4 : IVec R1 32 := Host.remsi x (broadcastInDim R1 ![] hb v2)
  let v6 : IVec R1 1 := cmpi .ne v4 (broadcastInDim R1 ![] hb (constantI R0 32 0#32))
  let v8 : IVec R1 1 := cmpi .slt v4 (broadcastInDim R1 ![] hb (constantI R0 32 0#32))
  let v9 : IVec R0 1 := cmpi .slt v2 (constantI R0 32 0#32)
  let v11 : IVec R1 1 := cmpi .ne v8 (broadcastInDim R1 ![] hb v9)
  let v12 : IVec R1 1 := andi v11 v6
  select v12 (addi v4 (broadcastInDim R1 ![] hb v2)) v4

/-- The divisor word after its guard against zero is 32000 itself. -/
theorem remV_guard : Scalar.select (IntOp.cmpi .eq 32000#32 0#32) 1#32 32000#32 = 32000#32 := by decide

/-- One word: the truncating remainder m of w by 32000 lies strictly between −32000 and 32000 as a signed integer
    (32000 is neither zero nor −1, so the division meets no corner). Where m is negative it is not zero and the divisor is
    not negative, so 32000 is added and the sum lies in (0, 32000); where m is not negative it is kept and lies in
    [0, 32000). Either way the result, read as a natural number, is below 32000. -/
theorem remV_word_lt (w : BitVec 32) :
    (Scalar.select
      (IntOp.andi (IntOp.cmpi .ne (IntOp.cmpi .slt (IntOp.remsi .host w 32000#32) 0#32) (IntOp.cmpi .slt 32000#32 0#32))
        (IntOp.cmpi .ne (IntOp.remsi .host w 32000#32) 0#32))
      (IntOp.addi (IntOp.remsi .host w 32000#32) 32000#32) (IntOp.remsi .host w 32000#32)).toNat < 32000 := by
  have hnc : ¬ IntOp.SDivCorner w 32000#32 := by
    intro hc; rcases hc with hc | ⟨_, hc⟩ <;> exact absurd hc (by decide)
  have hm : IntOp.remsi .host w 32000#32 = w.srem 32000#32 := if_neg hnc
  rw [hm]
  generalize hmdef : w.srem 32000#32 = m
  have hmi : m.toInt = w.toInt.tmod 32000 := by
    rw [← hmdef, BitVec.toInt_srem]; rfl
  have h1 : m.toInt < 32000 := by rw [hmi]; exact Int.tmod_lt_of_pos _ (by decide)
  have h2 : -32000 < m.toInt := by rw [hmi]; exact Int.lt_tmod_of_pos _ (by decide)
  have hlt : m.toNat < 2 ^ 32 := m.isLt
  have hc := BitVec.toInt_eq_toNat_cond m
  by_cases hneg : m.toInt < 0
  · -- a negative remainder: both tests pass, 32000 is added
    have hs : IntOp.cmpi .slt m 0#32 = 1#1 := by
      show BitVec.ofBool (m.slt 0#32) = 1#1
      rw [BitVec.slt_iff_toInt_lt.mpr (by simpa using hneg)]; rfl
    have hne : IntOp.cmpi .ne m 0#32 = 1#1 := by
      show BitVec.ofBool (m != 0#32) = 1#1
      have : m ≠ 0#32 := by rintro rfl; simp at hneg
      rw [bne_iff_ne.mpr this]; rfl
    rw [hs, hne, show IntOp.andi (IntOp.cmpi .ne (1#1 : BitVec 1) (IntOp.cmpi .slt 32000#32 0#32)) 1#1 = 1#1 from by decide,
      select_one]
    show (m + 32000#32).toNat < 32000
    rw [BitVec.toNat_add, BitVec.toNat_ofNat]
    split at hc <;> omega
  · -- a remainder that is not negative: the sign test fails, the remainder is kept
    have hs : IntOp.cmpi .slt m 0#32 = 0#1 := by
      show BitVec.ofBool (m.slt 0#32) = 0#1
      have : ¬ (m.slt 0#32 = true) := fun h => hneg (by simpa using BitVec.slt_iff_toInt_lt.mp h)
      rw [Bool.eq_false_iff.mpr this]; rfl
    rw [hs, show IntOp.cmpi .ne (0#1 : BitVec 1) (IntOp.cmpi .slt 32000#32 0#32) = 0#1 from by decide,
      show ∀ b : BitVec 1, IntOp.andi 0#1 b = 0#1 from by decide, select_zero]
    split at hc <;> omega

/-- Whatever the words, the remainder is a natural number below 32000. -/
theorem remV_lt (x : IVec R1 32) (hb : R0.BroadcastsInDim R1 (![] : Fin 0 → Fin R1.rank)) (r : Fin 4096) :
    (remV x hb (ix1 r)).toNat < 32000 := by
  -- at row r every operation reads the one word x r and the scalar divisor
  show (Scalar.select
      (IntOp.andi
        (IntOp.cmpi .ne
          (IntOp.cmpi .slt (IntOp.remsi .host (x (ix1 r)) (Scalar.select (IntOp.cmpi .eq 32000#32 0#32) 1#32 32000#32)) 0#32)
          (IntOp.cmpi .slt (Scalar.select (IntOp.cmpi .eq 32000#32 0#32) 1#32 32000#32) 0#32))
        (IntOp.cmpi .ne (IntOp.remsi .host (x (ix1 r)) (Scalar.select (IntOp.cmpi .eq 32000#32 0#32) 1#32 32000#32)) 0#32))
      (IntOp.addi (IntOp.remsi .host (x (ix1 r)) (Scalar.select (IntOp.cmpi .eq 32000#32 0#32) 1#32 32000#32))
        (Scalar.select (IntOp.cmpi .eq 32000#32 0#32) 1#32 32000#32))
      (IntOp.remsi .host (x (ix1 r)) (Scalar.select (IntOp.cmpi .eq 32000#32 0#32) 1#32 32000#32))).toNat < 32000
  rw [remV_guard]
  exact remV_word_lt _

/-- The take along the column axis: the words as a column, wrapped, tested, gathered with the row as batching
    coordinate, and filled where the test fails. -/
def takeV {α : Type} (x : RC.Idx → α) (fill : R11.Idx → α) (idx : IVec R1 32)
    (hcol : R1.BroadcastsInDim R11 (![0] : Fin 1 → Fin R11.rank))
    (h0 : R0.BroadcastsInDim R11 (![] : Fin 0 → Fin R11.rank))
    (hsc : R11.ShapeCasts R111)
    (h03 : R0.BroadcastsInDim R111 (![] : Fin 0 → Fin R111.rank))
    (h1 : O1.BroadcastsInDim O111 (![2] : Fin 1 → Fin O111.rank))
    (h2 : O111.BroadcastsInDim R111 (![0, 1, 2] : Fin 3 → Fin R111.rank))
    (hr : R111.ReducesTo [2] R11) (hu : 0 < R0.numel)
    (d : GatherDims RC R111 R11) : R11.Idx → α :=
  let a1 : IVec R11 32 := broadcastInDim R11 ![0] hcol idx
  let v4 : IVec R11 32 := select (cmpi .slt a1 (broadcastInDim R11 ![] h0 (constantI R0 32 0#32)))
    (addi a1 (broadcastInDim R11 ![] h0 (constantI R0 32 32000#32))) a1
  let v5 : IVec R111 32 := shapeCast R111 v4 hsc
  let v11 : IVec R111 1 := andi (cmpi .sge v5 (broadcastInDim R111 ![] h03 (constantI R0 32 0#32)))
    (cmpi .sle v5 (broadcastInDim R111 ![0, 1, 2] h2 (broadcastInDim O111 ![2] h1 (constantI O1 32 31999#32))))
  let v12 : IVec R11 1 := Host.reduce IntOp.andi v11 (constantI R0 1 1#1) hr hu
  select v12 (Host.gather d x v5) fill

/-- A vector of words each below 2³¹ has no negative entry, so the select that adds a word to the negative entries
    returns the vector itself. -/
theorem takeV_wrap_none {s : Shape} (v z n : IVec s 32) (hv : ∀ i, (v i).toNat < 2 ^ 31) (hz : ∀ i, z i = 0#32) :
    select (cmpi .slt v z) (addi v n) v = v := by
  apply LibTake.select_none
  intro i
  show ¬ IntOp.cmpi .slt (v i) (z i) = 1#1
  rw [hz i, StableHlo.Predicate.slt_iff_toNat (hv i) (by decide)]
  simp

/-- A word whose value is n, with n below 2³¹ and at most m, read signed and clamped into [0, m], is n. -/
theorem takeV_clamp_val (w : BitVec 32) (n m : Nat) (hw : w.toNat = n) (hn : n < 2 ^ 31) (hm : n ≤ m) :
    min w.toInt.toNat m = n := by
  rw [StableHlo.Predicate.toInt_eq_toNat_of_lt (by omega), Int.toNat_natCast]
  omega

/-- Words all below 32000 pass both range tests (0 ≤ word, word ≤ 31999) everywhere, so their conjunction reduced by
    `and` along the unit axis is 1 in every row. -/
theorem takeV_range_ones (v : IVec R111 32) (hv : ∀ i, (v i).toNat < 32000)
    (h03 : R0.BroadcastsInDim R111 (![] : Fin 0 → Fin R111.rank))
    (h1 : O1.BroadcastsInDim O111 (![2] : Fin 1 → Fin O111.rank))
    (h2 : O111.BroadcastsInDim R111 (![0, 1, 2] : Fin 3 → Fin R111.rank))
    (hr : R111.ReducesTo [2] R11) (hu : 0 < R0.numel) (j : R11.Idx) :
    Host.reduce IntOp.andi
      (andi (cmpi .sge v (broadcastInDim R111 ![] h03 (constantI R0 32 0#32)))
        (cmpi .sle v (broadcastInDim R111 ![0, 1, 2] h2 (broadcastInDim O111 ![2] h1 (constantI O1 32 31999#32)))))
      (constantI R0 1 1#1) hr hu j = 1#1 := by
  apply LibTake.reduce_andi_ones _ _ hr hu _ rfl
  intro i
  have hi := hv i
  have hM : (31999#32 : BitVec 32).toNat = 31999 := by decide
  show IntOp.andi (IntOp.cmpi .sge (v i) 0#32) (IntOp.cmpi .sle (v i) 31999#32) = 1#1
  rw [IntOp.andi_eq_one, StableHlo.Predicate.sge_iff_toNat (by omega) (by decide),
    StableHlo.Predicate.sle_iff_toNat (by omega) (by decide), hM]
  exact ⟨Nat.zero_le _, by omega⟩

/-- The batching gather read at (r, 0). Operand axis 0 is a batching axis: its coordinate is the result's row r (start 0,
    no offset). Operand axis 1 is collapsed and start-indexed: its coordinate is the start index of row r — the word at
    (r, 0, 0) of the start indices — read signed and clamped into [0, 31999], which for a word below 32000 is its value. -/
theorem takeV_gather_col {α : Type} (x : RC.Idx → α) (v : IVec R111 32) (d : GatherDims RC R111 R11)
    (hoff : d.offsetDims = []) (hcoll : d.collapsedSliceDims = [1]) (hob : d.operandBatchingDims = [0])
    (hsb : d.startIndicesBatchingDims = [0]) (hsim : d.startIndexMap = [1]) (hivd : d.indexVectorDim = 2)
    (r : Fin 4096) (w : BitVec 32) (hv : v (ix3 r (0 : Fin 1) (0 : Fin 1)) = w) (hw : w.toNat < 32000) :
    Host.gather d x v (ix2 r (0 : Fin 1)) = x (ix2 r (⟨w.toNat, hw⟩ : Fin 32000)) := by
  obtain ⟨od, cd, ob, sb, sm, iv, ss, wf⟩ := d
  dsimp only at hoff hcoll hob hsb hsim hivd
  subst hoff hcoll hob hsb hsim hivd
  unfold Host.gather
  congr 1
  funext a
  refine Fin.ext ?_
  set D : GatherDims RC R111 R11 := ⟨[], [1], [0], [0], [1], 2, ss, wf⟩ with hD
  match a with
  | ⟨0, _⟩ =>
    have h1 : D.start (ix2 r (0 : Fin 1)) v (0 : Fin 2) = 0 := rfl
    have h2 : D.batchCoord (ix2 r (0 : Fin 1)) (0 : Fin 2) = r.val := rfl
    have h3 : D.offCoord (ix2 r (0 : Fin 1)) (0 : Fin 2) = 0 := rfl
    show D.start (ix2 r (0 : Fin 1)) v (0 : Fin 2) + D.batchCoord (ix2 r (0 : Fin 1)) (0 : Fin 2)
      + D.offCoord (ix2 r (0 : Fin 1)) (0 : Fin 2) = r.val
    rw [h1, h2, h3]; omega
  | ⟨1, _⟩ =>
    have hs : ss (1 : Fin 2) = 1 := D.slice_collapsed 1 (List.mem_singleton.mpr rfl)
    have h1 : D.start (ix2 r (0 : Fin 1)) v (1 : Fin 2)
        = min (v (ix3 r (0 : Fin 1) (0 : Fin 1))).toInt.toNat (32000 - ss 1) := by
      unfold GatherDims.start
      rw [dif_pos (show (1 : Fin 2) ∈ D.startIndexMap from List.mem_singleton.mpr rfl)]
      have hsi : D.siIdx (ix2 r (0 : Fin 1)) ⟨List.idxOf (1 : Fin 2) D.startIndexMap,
          List.idxOf_lt_length_iff.2 (List.mem_singleton.mpr rfl)⟩ = ix3 r (0 : Fin 1) (0 : Fin 1) := by
        funext b; refine Fin.ext ?_
        match b with
        | ⟨0, _⟩ => rfl
        | ⟨1, _⟩ => rfl
        | ⟨2, _⟩ => rfl
      rw [hsi]
      rfl
    have h2 : D.batchCoord (ix2 r (0 : Fin 1)) (1 : Fin 2) = 0 := rfl
    have h3 : D.offCoord (ix2 r (0 : Fin 1)) (1 : Fin 2) = 0 := rfl
    show D.start (ix2 r (0 : Fin 1)) v (1 : Fin 2) + D.batchCoord (ix2 r (0 : Fin 1)) (1 : Fin 2)
      + D.offCoord (ix2 r (0 : Fin 1)) (1 : Fin 2) = w.toNat
    rw [h1, h2, h3, hs, hv, takeV_clamp_val w w.toNat (32000 - 1) rfl (by omega) (by omega)]
    rfl

/-- With every word a natural number below 32000 the take reads, in row r, the entry of column idx r. The gather's
    dimension numbers are the printed ones (each hypothesis holds by rfl of the printed record). -/
theorem takeV_apply {α : Type} (x : RC.Idx → α) (fill : R11.Idx → α) (idx : IVec R1 32)
    (hcol : R1.BroadcastsInDim R11 (![0] : Fin 1 → Fin R11.rank))
    (h0 : R0.BroadcastsInDim R11 (![] : Fin 0 → Fin R11.rank))
    (hsc : R11.ShapeCasts R111)
    (h03 : R0.BroadcastsInDim R111 (![] : Fin 0 → Fin R111.rank))
    (h1 : O1.BroadcastsInDim O111 (![2] : Fin 1 → Fin O111.rank))
    (h2 : O111.BroadcastsInDim R111 (![0, 1, 2] : Fin 3 → Fin R111.rank))
    (hr : R111.ReducesTo [2] R11) (hu : 0 < R0.numel)
    (d : GatherDims RC R111 R11)
    (hoff : d.offsetDims = []) (hcoll : d.collapsedSliceDims = [1]) (hob : d.operandBatchingDims = [0])
    (hsb : d.startIndicesBatchingDims = [0]) (hsim : d.startIndexMap = [1]) (hivd : d.indexVectorDim = 2)
    (hidx : ∀ r : Fin 4096, (idx (ix1 r)).toNat < 32000) (r : Fin 4096) :
    takeV x fill idx hcol h0 hsc h03 h1 h2 hr hu d (ix2 r (0 : Fin 1))
      = x (ix2 r (⟨(idx (ix1 r)).toNat, hidx r⟩ : Fin 32000)) := by
  have hidx' : ∀ i : R1.Idx, (idx i).toNat < 32000 := fun i => by rw [eq_ix1 i]; exact hidx _
  -- every entry of the column of words is one of the words
  have ha1 : ∀ j : R11.Idx, (broadcastInDim R11 ![0] hcol idx j).toNat < 32000 := fun j => hidx' _
  -- no word is negative: the wrap does nothing
  have hw : select (cmpi .slt (broadcastInDim R11 ![0] hcol idx) (broadcastInDim R11 ![] h0 (constantI R0 32 0#32)))
      (addi (broadcastInDim R11 ![0] hcol idx) (broadcastInDim R11 ![] h0 (constantI R0 32 32000#32)))
      (broadcastInDim R11 ![0] hcol idx) = broadcastInDim R11 ![0] hcol idx :=
    takeV_wrap_none _ _ _ (fun j => by have := ha1 j; omega) (fun _ => rfl)
  have hv5 : ∀ i : R111.Idx, (shapeCast R111 (broadcastInDim R11 ![0] hcol idx) hsc i).toNat < 32000 :=
    fun i => ha1 (Shape.reshapeEquiv hsc i)
  unfold takeV
  dsimp only
  -- every row passes the range test: the select returns the gathered entry
  rw [hw, select_apply, takeV_range_ones _ hv5 h03 h1 h2 hr hu, select_one]
  refine takeV_gather_col x _ d hoff hcoll hob hsb hsim hivd r (idx (ix1 r)) ?_ (hidx r)
  -- the start index of row r, read off the [4096, 1, 1] array, is the word idx r
  refine (shapeCast_apply _ hsc (ix3 r (0 : Fin 1) (0 : Fin 1)) (ix2 r (0 : Fin 1)) ?_).trans ?_
  · rw [Shape.rowMajor_val_two, Shape.rowMajor_val_three]
    show r.val * 1 + 0 = (r.val * 1 + 0) * 1 + 0
    omega
  · exact broadcastInDim_apply _ hcol idx (ix2 r (0 : Fin 1)) (ix1 r) (fun a => by match a with | ⟨0, _⟩ => rfl)

/-- The gather at the pair (row, column): the row numbers and the words, both wrapped, side by side as start indices. -/
def pickV {α : Type} (x : RC.Idx → α) (idx : IVec R1 32)
    (hb : R0.BroadcastsInDim R1 (![] : Fin 0 → Fin R1.rank))
    (hcol : R1.BroadcastsInDim R11 (![0] : Fin 1 → Fin R11.rank))
    (hc : Shape.Concatenates [R11, R11] R2 1)
    (d : GatherDims RC R2 R1) : R1.Idx → α :=
  let io : IVec R1 32 := iotaInDim R1 32 0
  let v19 : IVec R1 32 := select (cmpi .slt io (broadcastInDim R1 ![] hb (constantI R0 32 0#32)))
    (addi io (broadcastInDim R1 ![] hb (constantI R0 32 4096#32))) io
  let v24 : IVec R1 32 := select (cmpi .slt idx (broadcastInDim R1 ![] hb (constantI R0 32 0#32)))
    (addi idx (broadcastInDim R1 ![] hb (constantI R0 32 32000#32))) idx
  Host.gather d x (concatenate R2 1 [⟨R11, broadcastInDim R11 ![0] hcol v19⟩, ⟨R11, broadcastInDim R11 ![0] hcol v24⟩] hc)

/-- The gather at a pair read at row r. Both operand axes are collapsed and start-indexed, with no batching or offset
    axes: the coordinate on axis a is component a of row r's start index — the word at (r, a) of the [4096, 2] table —
    read signed and clamped into [0, size a − 1]. A first component whose value is r and a second one below 32000 are
    not clamped. -/
theorem pickV_gather_pair {α : Type} (x : RC.Idx → α) (v : IVec R2 32) (d : GatherDims RC R2 R1)
    (hoff : d.offsetDims = []) (hcoll : d.collapsedSliceDims = [0, 1]) (hob : d.operandBatchingDims = [])
    (hsb : d.startIndicesBatchingDims = []) (hsim : d.startIndexMap = [0, 1]) (hivd : d.indexVectorDim = 1)
    (r : Fin 4096) (w0 w1 : BitVec 32) (hv0 : v (ix2 r (0 : Fin 2)) = w0) (hv1 : v (ix2 r (1 : Fin 2)) = w1)
    (hw0 : w0.toNat = r.val) (hw1 : w1.toNat < 32000) :
    Host.gather d x v (ix1 r) = x (ix2 r (⟨w1.toNat, hw1⟩ : Fin 32000)) := by
  obtain ⟨od, cd, ob, sb, sm, iv, ss, wf⟩ := d
  dsimp only at hoff hcoll hob hsb hsim hivd
  subst hoff hcoll hob hsb hsim hivd
  unfold Host.gather
  congr 1
  funext a
  refine Fin.ext ?_
  set D : GatherDims RC R2 R1 := ⟨[], [0, 1], [], [], [0, 1], 1, ss, wf⟩ with hD
  have hr := r.isLt
  match a with
  | ⟨0, _⟩ =>
    have hs : ss (0 : Fin 2) = 1 := D.slice_collapsed 0 (List.mem_cons_self)
    have h1 : D.start (ix1 r) v (0 : Fin 2) = min (v (ix2 r (0 : Fin 2))).toInt.toNat (4096 - ss 0) := by
      unfold GatherDims.start
      rw [dif_pos (show (0 : Fin 2) ∈ D.startIndexMap from List.mem_cons_self)]
      have hsi : D.siIdx (ix1 r) ⟨List.idxOf (0 : Fin 2) D.startIndexMap,
          List.idxOf_lt_length_iff.2 (List.mem_cons_self)⟩ = ix2 r (0 : Fin 2) := by
        funext b; refine Fin.ext ?_
        match b with
        | ⟨0, _⟩ => rfl
        | ⟨1, _⟩ => rfl
      rw [hsi]
      rfl
    have h2 : D.batchCoord (ix1 r) (0 : Fin 2) = 0 := rfl
    have h3 : D.offCoord (ix1 r) (0 : Fin 2) = 0 := rfl
    show D.start (ix1 r) v (0 : Fin 2) + D.batchCoord (ix1 r) (0 : Fin 2) + D.offCoord (ix1 r) (0 : Fin 2) = r.val
    rw [h1, h2, h3, hs, hv0, takeV_clamp_val w0 r.val (4096 - 1) hw0 (by omega) (by omega)]
    rfl
  | ⟨1, _⟩ =>
    have hs : ss (1 : Fin 2) = 1 := D.slice_collapsed 1 (List.mem_cons_of_mem _ List.mem_cons_self)
    have h1 : D.start (ix1 r) v (1 : Fin 2) = min (v (ix2 r (1 : Fin 2))).toInt.toNat (32000 - ss 1) := by
      unfold GatherDims.start
      rw [dif_pos (show (1 : Fin 2) ∈ D.startIndexMap from List.mem_cons_of_mem _ List.mem_cons_self)]
      have hsi : D.siIdx (ix1 r) ⟨List.idxOf (1 : Fin 2) D.startIndexMap,
          List.idxOf_lt_length_iff.2 (List.mem_cons_of_mem _ List.mem_cons_self)⟩ = ix2 r (1 : Fin 2) := by
        funext b; refine Fin.ext ?_
        match b with
        | ⟨0, _⟩ => rfl
        | ⟨1, _⟩ => rfl
      rw [hsi]
      rfl
    have h2 : D.batchCoord (ix1 r) (1 : Fin 2) = 0 := rfl
    have h3 : D.offCoord (ix1 r) (1 : Fin 2) = 0 := rfl
    show D.start (ix1 r) v (1 : Fin 2) + D.batchCoord (ix1 r) (1 : Fin 2) + D.offCoord (ix1 r) (1 : Fin 2) = w1.toNat
    rw [h1, h2, h3, hs, hv1, takeV_clamp_val w1 w1.toNat (32000 - 1) rfl (by omega) (by omega)]
    rfl

/-- With every word a natural number below 32000 the gather reads, in row r, the entry of column idx r. -/
theorem pickV_apply {α : Type} (x : RC.Idx → α) (idx : IVec R1 32)
    (hb : R0.BroadcastsInDim R1 (![] : Fin 0 → Fin R1.rank))
    (hcol : R1.BroadcastsInDim R11 (![0] : Fin 1 → Fin R11.rank))
    (hc : Shape.Concatenates [R11, R11] R2 1)
    (d : GatherDims RC R2 R1)
    (hoff : d.offsetDims = []) (hcoll : d.collapsedSliceDims = [0, 1]) (hob : d.operandBatchingDims = [])
    (hsb : d.startIndicesBatchingDims = []) (hsim : d.startIndexMap = [0, 1]) (hivd : d.indexVectorDim = 1)
    (hidx : ∀ r : Fin 4096, (idx (ix1 r)).toNat < 32000) (r : Fin 4096) :
    pickV x idx hb hcol hc d (ix1 r) = x (ix2 r (⟨(idx (ix1 r)).toNat, hidx r⟩ : Fin 32000)) := by
  have hidx' : ∀ i : R1.Idx, (idx i).toNat < 32000 := fun i => by rw [eq_ix1 i]; exact hidx _
  -- a row number is below 4096, so the word that holds it is not negative
  have hio : ∀ i : R1.Idx, (iotaInDim R1 32 0 i).toNat < 2 ^ 31 := fun i => by
    show (BitVec.ofNat 32 (i 0).val).toNat < 2 ^ 31
    have := (i 0).isLt
    rw [BitVec.toNat_ofNat]
    exact lt_of_le_of_lt (Nat.mod_le _ _) (by change (i 0).val < 4096 at this; omega)
  have hw19 : select (cmpi .slt (iotaInDim R1 32 0) (broadcastInDim R1 ![] hb (constantI R0 32 0#32)))
      (addi (iotaInDim R1 32 0) (broadcastInDim R1 ![] hb (constantI R0 32 4096#32))) (iotaInDim R1 32 0)
      = iotaInDim R1 32 0 := takeV_wrap_none _ _ _ hio (fun _ => rfl)
  have hw24 : select (cmpi .slt idx (broadcastInDim R1 ![] hb (constantI R0 32 0#32)))
      (addi idx (broadcastInDim R1 ![] hb (constantI R0 32 32000#32))) idx = idx :=
    takeV_wrap_none _ _ _ (fun i => by have := hidx' i; omega) (fun _ => rfl)
  unfold pickV
  dsimp only
  rw [hw19, hw24]
  refine pickV_gather_pair x _ d hoff hcoll hob hsb hsim hivd r (BitVec.ofNat 32 r.val) (idx (ix1 r)) ?_ ?_ ?_ (hidx r)
  · -- column 0 of the table of start indices: the row number
    refine (concatenate_pair_apply_left (t := R2) (s₁ := R11) (s₂ := R11) (1 : Fin 2) _ _ hc (ix2 r (0 : Fin 2)) rfl
      (ix2 r (0 : Fin 1)) (fun b => by match b with | ⟨0, _⟩ => rfl | ⟨1, _⟩ => rfl)).trans ?_
    exact broadcastInDim_apply _ hcol _ (ix2 r (0 : Fin 1)) (ix1 r) (fun a => by match a with | ⟨0, _⟩ => rfl)
  · -- column 1: the word
    refine (concatenate_pair_apply_right (t := R2) (s₁ := R11) (s₂ := R11) (1 : Fin 2) _ _ hc (ix2 r (1 : Fin 2)) rfl rfl
      (ix2 r (0 : Fin 1)) (fun b hb => by
        match b with
        | ⟨0, _⟩ => rfl
        | ⟨1, _⟩ => exact absurd rfl hb) rfl).trans ?_
    exact broadcastInDim_apply _ hcol _ (ix2 r (0 : Fin 1)) (ix1 r) (fun a => by match a with | ⟨0, _⟩ => rfl)
  · rw [BitVec.toNat_ofNat]
    exact Nat.mod_eq_of_lt (by have := r.isLt; omega)

end Cert.NL

end
-- ==== Proof.Total.lean ====
/-
  The result both programs are shown to compute: minus the mean over the 4096 rows of the rows' contributions, each row
  contributing through its two picked columns — the class word of the row, a natural number below 32000 by hypothesis,
  and the remainder of class plus offset, below 32000 whatever the words.
-/
import proofs.«412134_j71330816852650_3_alg».proof.Proof.Spec
import proofs.«412134_j71330816852650_3_alg».proof.Proof.Picks

noncomputable section

namespace Cert.NL

open Idealize.ShloMosaic Idealize.ShloMosaic.ValueIdx

/-- Row r of a [4096, 32000] array. -/
def rowOf (x : RC.Idx → EReal) (r : Fin 4096) : Fin 32000 → EReal := fun c => x (ix2 r c)

/-- The column the class word of row r names. -/
def colT (t : IVec R1 32) (ht : ∀ r : Fin 4096, (t (ix1 r)).toNat < 32000) (r : Fin 4096) : Fin 32000 :=
  ⟨(t (ix1 r)).toNat, ht r⟩

/-- The column the remainder of class plus offset names in row r. -/
def colN (t n : IVec R1 32) (hb : R0.BroadcastsInDim R1 (![] : Fin 0 → Fin R1.rank)) (r : Fin 4096) : Fin 32000 :=
  ⟨(remV (addi t n) hb (ix1 r)).toNat, remV_lt (addi t n) hb r⟩

/-- Minus the mean of the rows' contributions. -/
def total (x : RC.Idx → EReal) (t n : IVec R1 32) (hb : R0.BroadcastsInDim R1 (![] : Fin 0 → Fin R1.rank))
    (ht : ∀ r : Fin 4096, (t (ix1 r)).toNat < 32000) : EReal :=
  -(Ideal.div (0 + ∑ r : Fin 4096, rowLoss (rowOf x r) (colT t ht r) (colN t n hb r)) rows)

end Cert.NL

end
-- ==== Proof.KerInv.lean ====
/-
  The invariant of the kernel's grid, at the extended reals.

  The grid has 40 points, point n = 5 i + j handling row tile i (rows 512 i … 512 i + 511) and column tile j (columns
  6400 j … 6400 j + 6399). After point n the two scratch columns hold, in row p of the tile, the maximum and the
  normaliser of the columns below 6400 (j + 1) of score row 512 i + p: at j = 0 the point starts from −∞ and 0, otherwise
  from what point n − 1 left, which is the same row's maximum and normaliser of the columns below 6400 j. At j = 4 these
  are the row's maximum and normaliser, and the result block's entry in row p is the row's entry at the two picked scores.
-/
import proofs.«412134_j71330816852650_3_alg».proof.Proof.KerPoint
import proofs.«412134_j71330816852650_3_alg».proof.Proof.KerRead
import proofs.«412134_j71330816852650_3_alg».proof.Proof.Total

set_option maxRecDepth 16384

noncomputable section

namespace Cert.NL.Ker

open Idealize.ShloMosaic Idealize.ShloMosaic.TcCoe Idealize.ShloMosaic.ValueIdx Idealize.SL.Sem
open Cert.KernelIdeal Cert.KernelIdeal.Gen Cert.NL

variable (m : (ℓ : Loc nD τ sig) → Buf (Elt Ideal) ℓ)

/-- The score array, and the two picked-score columns, as the region finds them. -/
abbrev xarr (c : Dev nD) : FVec Ideal S4096x32000 .f32 := V m c main_arg0
abbrev oparr (c : Dev nD) : FVec Ideal S4096x1 .f32 := V m c main_v3
abbrev onarr (c : Dev nD) : FVec Ideal S4096x1 .f32 := V m c main_v5

/-- The score row that row p of the tile of point n is. -/
def rowAt (n : ℕ) (hn : n < 40) (p : Fin 512) : Fin 4096 := ⟨512 * (n / 5) + p.val, by have := p.isLt; omega⟩

/-- The index maps of the three input windows, decided once over the grid: point t is row tile t / 5, column tile t % 5. -/
private theorem idx0 : ∀ t : Fin cfg0.N, win0_0.index t (0 : Fin 2) = t.val / 5 ∧ win0_0.index t (1 : Fin 2) = t.val % 5 :=
  (by decide +kernel : ∀ t : Fin grid0.N, win0_0.index t (0 : Fin 2) = t.val / 5 ∧ win0_0.index t (1 : Fin 2) = t.val % 5)
private theorem idx1 : ∀ t : Fin cfg0.N, win0_1.index t (0 : Fin 2) = t.val / 5 ∧ win0_1.index t (1 : Fin 2) = 0 :=
  (by decide +kernel : ∀ t : Fin grid0.N, win0_1.index t (0 : Fin 2) = t.val / 5 ∧ win0_1.index t (1 : Fin 2) = 0)
private theorem idx2 : ∀ t : Fin cfg0.N, win0_2.index t (0 : Fin 2) = t.val / 5 ∧ win0_2.index t (1 : Fin 2) = 0 :=
  (by decide +kernel : ∀ t : Fin grid0.N, win0_2.index t (0 : Fin 2) = t.val / 5 ∧ win0_2.index t (1 : Fin 2) = 0)

/-- The score block of point t: row p, column q of the block is row 512 i + p, column 6400 j + q of the array. -/
theorem iblk0_apply (c : Dev nD) (t : Fin cfg0.N) (p : Fin 512) (q : Fin 6400) :
    (iblk m c 0 t : FVec Ideal S512x6400 .f32) (ix2 p q)
      = xarr m c (ix2 (rowAt t.val (lt_of_lt_of_eq t.isLt (show cfg0.N = 40 from N_0)) p)
          (⟨6400 * (t.val % 5) + q.val, by have := q.isLt; omega⟩ : Fin 32000)) := by
  have hi := idx0 t
  unfold iblk
  rw [View.read_apply]
  show V m c main_arg0 _ = V m c main_arg0 _
  refine congrArg (V m c main_arg0) (funext fun a => Fin.ext ?_)
  match a with
  | ⟨0, _⟩ => show win0_0.index t (0 : Fin 2) * 512 + 1 * p.val = 512 * (t.val / 5) + p.val; rw [hi.1]; omega
  | ⟨1, _⟩ => show win0_0.index t (1 : Fin 2) * 6400 + 1 * q.val = 6400 * (t.val % 5) + q.val; rw [hi.2]; omega

/-- The first picked-score block of point t: row p is row 512 i + p of the column. -/
theorem iblk1_apply (c : Dev nD) (t : Fin cfg0.N) (p : Fin 512) :
    (iblk m c 1 t : FVec Ideal S512x1 .f32) (ix2 p (0 : Fin 1))
      = oparr m c (ix2 (rowAt t.val (lt_of_lt_of_eq t.isLt (show cfg0.N = 40 from N_0)) p) (0 : Fin 1)) := by
  have hi := idx1 t
  unfold iblk
  rw [View.read_apply]
  show V m c main_v3 _ = V m c main_v3 _
  refine congrArg (V m c main_v3) (funext fun a => Fin.ext ?_)
  match a with
  | ⟨0, _⟩ => show win0_1.index t (0 : Fin 2) * 512 + 1 * p.val = 512 * (t.val / 5) + p.val; rw [hi.1]; omega
  | ⟨1, _⟩ => show win0_1.index t (1 : Fin 2) * 1 + 1 * 0 = 0; rw [hi.2]

/-- The second picked-score block of point t, likewise. -/
theorem iblk2_apply (c : Dev nD) (t : Fin cfg0.N) (p : Fin 512) :
    (iblk m c 2 t : FVec Ideal S512x1 .f32) (ix2 p (0 : Fin 1))
      = onarr m c (ix2 (rowAt t.val (lt_of_lt_of_eq t.isLt (show cfg0.N = 40 from N_0)) p) (0 : Fin 1)) := by
  have hi := idx2 t
  unfold iblk
  rw [View.read_apply]
  show V m c main_v5 _ = V m c main_v5 _
  refine congrArg (V m c main_v5) (funext fun a => Fin.ext ?_)
  match a with
  | ⟨0, _⟩ => show win0_2.index t (0 : Fin 2) * 512 + 1 * p.val = 512 * (t.val / 5) + p.val; rw [hi.1]; omega
  | ⟨1, _⟩ => show win0_2.index t (1 : Fin 2) * 1 + 1 * 0 = 0; rw [hi.2]

/-- Every entry of a row of real scores is real. -/
private theorem row_real (hx : ∀ (c : Dev nD) i, ∃ q : ℝ, xarr m c i = (q : EReal)) (c : Dev nD) (r : Fin 4096) :
    ∀ cc, ∃ q : ℝ, rowOf (xarr m c) r cc = (q : EReal) := by
  intro cc
  unfold rowOf
  exact hx c (ix2 r cc)

/-- Row p of the score block of point t is the 6400 columns of score row r that start at column b, where r is the
    row of the point's tile and b the first column of its column tile. -/
private theorem blk_row (c : Dev nD) (t : Fin cfg0.N) (p : Fin 512) (r : Fin 4096) (b : ℕ) (hb : b + 6400 ≤ 32000)
    (hr : rowAt t.val (lt_of_lt_of_eq t.isLt (show cfg0.N = 40 from N_0)) p = r) (hbt : 6400 * (t.val % 5) = b)
    (q : Fin 6400) :
    (iblk m c 0 t : FVec Ideal S512x6400 .f32) (ix2 p q)
      = rowOf (xarr m c) r (⟨b + q.val, by have := q.isLt; omega⟩ : Fin 32000) := by
  subst hr; subst hbt
  unfold rowOf
  exact iblk0_apply m c t p q

/-- One point in row p: if it finds the maximum and normaliser of the columns below b of its score row, it leaves
    those of the columns below b + 6400. -/
private theorem step (hx : ∀ (c : Dev nD) i, ∃ q : ℝ, xarr m c i = (q : EReal)) (c : Dev nD) (t : Fin cfg0.N)
    (p : Fin 512) (r : Fin 4096) (b : ℕ) (hb : b + 6400 ≤ 32000)
    (hr : rowAt t.val (lt_of_lt_of_eq t.isLt (show cfg0.N = 40 from N_0)) p = r) (hbt : 6400 * (t.val % 5) = b)
    (m0 l0 : Vec Ideal S512x1 .f32)
    (hm : m0 (ix2 p (0 : Fin 1)) = pmax (rowOf (xarr m c) r) b) (hl : l0 (ix2 p (0 : Fin 1)) = psum (rowOf (xarr m c) r) b) :
    mNew m0 (iblk m c 0 t : FVec Ideal S512x6400 .f32) (ix2 p (0 : Fin 1)) = pmax (rowOf (xarr m c) r) (b + 6400)
      ∧ lNew m0 l0 (iblk m c 0 t : FVec Ideal S512x6400 .f32) (ix2 p (0 : Fin 1)) = psum (rowOf (xarr m c) r) (b + 6400) :=
  point_apply (rowOf (xarr m c) r) (row_real m hx c r) b hb m0 l0 (iblk m c 0 t) p hm hl
    (fun q => blk_row m c t p r b hb hr hbt q)

/-- A row tile's first point starts from the maximum and normaliser of no column. -/
private theorem step0 (hx : ∀ (c : Dev nD) i, ∃ q : ℝ, xarr m c i = (q : EReal)) (c : Dev nD) (t : Fin cfg0.N)
    (p : Fin 512) (r : Fin 4096)
    (hr : rowAt t.val (lt_of_lt_of_eq t.isLt (show cfg0.N = 40 from N_0)) p = r) (hbt : 6400 * (t.val % 5) = 0) :
    mNew (k0_pay6 (F := Ideal)) (iblk m c 0 t : FVec Ideal S512x6400 .f32) (ix2 p (0 : Fin 1)) = pmax (rowOf (xarr m c) r) (0 + 6400)
      ∧ lNew (k0_pay6 (F := Ideal)) (k0_pay7 (F := Ideal)) (iblk m c 0 t : FVec Ideal S512x6400 .f32) (ix2 p (0 : Fin 1))
          = psum (rowOf (xarr m c) r) (0 + 6400) :=
  step m hx c t p r 0 (by omega) hr hbt _ _ ((init_m p).trans (pmax_zero _).symm) ((init_l p).trans (psum_zero _).symm)

/-- THE INVARIANT: after point n the scratch columns hold, row by row, the maximum and the normaliser of the columns
    of the row's scores seen so far. Every score real. -/
theorem scratch_inv (hx : ∀ (c : Dev nD) i, ∃ q : ℝ, xarr m c i = (q : EReal)) (c : Dev nD) :
    ∀ (n : ℕ) (h : n < cfg0.N) (p : Fin 512),
      ((outsAt0 m c n h).2.1 : FVec Ideal S512x1 .f32) (ix2 p (0 : Fin 1))
          = pmax (rowOf (xarr m c) (rowAt n (lt_of_lt_of_eq h (show cfg0.N = 40 from N_0)) p)) (6400 * (n % 5 + 1))
        ∧ ((outsAt0 m c n h).2.2 : FVec Ideal S512x1 .f32) (ix2 p (0 : Fin 1))
          = psum (rowOf (xarr m c) (rowAt n (lt_of_lt_of_eq h (show cfg0.N = 40 from N_0)) p)) (6400 * (n % 5 + 1)) := by
  have hN : cfg0.N = 40 := N_0
  intro n
  induction n with
  | zero =>
    intro h p
    have h0 : (⟨0, h⟩ : Fin cfg0.N).val % 5 = 0 := Nat.zero_mod 5
    have h1 : ¬(⟨0, h⟩ : Fin cfg0.N).val % 5 = 4 := by show ¬0 % 5 = 4; decide
    rw [outsAt0_A m c ⟨0, h⟩ h0 h1]
    dsimp only
    rw [sA0 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) scM0_1 (Memref.isWhole_whole _) ((hcond0_0 ⟨0, h⟩).mpr h0) (fun hh => h1 ((hcond0_1 ⟨0, h⟩).mp hh)) (iblk m c 0 ⟨0, h⟩) (iblk m c 1 ⟨0, h⟩) (iblk m c 2 ⟨0, h⟩),
      sA1 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) scM0_1 (Memref.isWhole_whole _) ((hcond0_0 ⟨0, h⟩).mpr h0) (fun hh => h1 ((hcond0_1 ⟨0, h⟩).mp hh)) (iblk m c 0 ⟨0, h⟩) (iblk m c 1 ⟨0, h⟩) (iblk m c 2 ⟨0, h⟩)]
    have hb : 6400 * (0 % 5 + 1) = 0 + 6400 := rfl
    rw [hb]
    exact step0 m hx c ⟨0, h⟩ p _ rfl rfl
  | succ n ih =>
    intro h p
    have hn : n < cfg0.N := Nat.lt_of_succ_lt h
    by_cases h0 : (n + 1) % 5 = 0
    · have h1 : ¬(n + 1) % 5 = 4 := by omega
      rw [outsAt0_A m c ⟨n + 1, h⟩ h0 h1]
      dsimp only
      rw [sA0 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) ((hcond0_0 ⟨n + 1, h⟩).mpr h0) (fun hh => h1 ((hcond0_1 ⟨n + 1, h⟩).mp hh)) (iblk m c 0 ⟨n + 1, h⟩) (iblk m c 1 ⟨n + 1, h⟩) (iblk m c 2 ⟨n + 1, h⟩),
        sA1 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) ((hcond0_0 ⟨n + 1, h⟩).mpr h0) (fun hh => h1 ((hcond0_1 ⟨n + 1, h⟩).mp hh)) (iblk m c 0 ⟨n + 1, h⟩) (iblk m c 1 ⟨n + 1, h⟩) (iblk m c 2 ⟨n + 1, h⟩)]
      have hb : 6400 * ((n + 1) % 5 + 1) = 0 + 6400 := by omega
      rw [hb]
      exact step0 m hx c ⟨n + 1, h⟩ p _ rfl (by show 6400 * ((n + 1) % 5) = 0; omega)
    · have hrow : rowAt (n + 1) (lt_of_lt_of_eq h (show cfg0.N = 40 from N_0)) p = rowAt n (lt_of_lt_of_eq hn (show cfg0.N = 40 from N_0)) p :=
        Fin.ext (by show 512 * ((n + 1) / 5) + p.val = 512 * (n / 5) + p.val; omega)
      have hb : 6400 * ((n + 1) % 5 + 1) = 6400 * (n % 5 + 1) + 6400 := by omega
      have hbt : 6400 * ((⟨n + 1, h⟩ : Fin cfg0.N).val % 5) = 6400 * (n % 5 + 1) := by show 6400 * ((n + 1) % 5) = 6400 * (n % 5 + 1); omega
      obtain ⟨im, il⟩ := ih hn p
      by_cases h1 : (n + 1) % 5 = 4
      · rw [outsAt0_C m c ⟨n + 1, h⟩ h0 h1]
        dsimp only
        simp only [Nat.add_sub_cancel]
        rw [sC0 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (outsAt0 m c n hn).2.1 (outsAt0 m c n hn).2.2,
          sC1 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (outsAt0 m c n hn).2.1 (outsAt0 m c n hn).2.2]
        rw [hb, hrow]
        exact step m hx c ⟨n + 1, h⟩ p _ (6400 * (n % 5 + 1)) (by omega) hrow hbt _ _ im il
      · rw [outsAt0_B m c ⟨n + 1, h⟩ h0 h1]
        dsimp only
        simp only [Nat.add_sub_cancel]
        rw [sB0 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (outsAt0 m c n hn).2.1 (outsAt0 m c n hn).2.2,
          sB1 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (outsAt0 m c n hn).2.1 (outsAt0 m c n hn).2.2]
        rw [hb, hrow]
        exact step m hx c ⟨n + 1, h⟩ p _ (6400 * (n % 5 + 1)) (by omega) hrow hbt _ _ im il

/-- At a row tile's last point the result block's entry in row p is the row's entry at the two picked scores. -/
theorem result_entry (hx : ∀ (c : Dev nD) i, ∃ q : ℝ, xarr m c i = (q : EReal)) (c : Dev nD)
    (n : ℕ) (h : n < cfg0.N) (h4 : n % 5 = 4) (p : Fin 512) :
    ((outsAt0 m c n h).1 : FVec Ideal S512x1 .f32) (ix2 p (0 : Fin 1))
      = rowOut (rowOf (xarr m c) (rowAt n (lt_of_lt_of_eq h (show cfg0.N = 40 from N_0)) p))
          (oparr m c (ix2 (rowAt n (lt_of_lt_of_eq h (show cfg0.N = 40 from N_0)) p) (0 : Fin 1)))
          (onarr m c (ix2 (rowAt n (lt_of_lt_of_eq h (show cfg0.N = 40 from N_0)) p) (0 : Fin 1))) := by
  obtain ⟨k, rfl⟩ : ∃ k, n = k + 1 := ⟨n - 1, by omega⟩
  have hk : k < cfg0.N := Nat.lt_of_succ_lt h
  have h0 : ¬(k + 1) % 5 = 0 := by omega
  obtain ⟨jm, jl⟩ := scratch_inv m hx c (k + 1) h p
  rw [outsAt0_C m c ⟨k + 1, h⟩ h0 h4] at jm jl ⊢
  dsimp only at jm jl ⊢
  simp only [Nat.add_sub_cancel] at jm jl ⊢
  rw [sC0 (F := Ideal) c (grid0.coords ⟨k + 1, h⟩) (ms0_0 ⟨k + 1, h⟩) (hs0_0 ⟨k + 1, h⟩) (ms0_1 ⟨k + 1, h⟩) (hs0_1 ⟨k + 1, h⟩) (ms0_2 ⟨k + 1, h⟩) (hs0_2 ⟨k + 1, h⟩) (ms0_3 ⟨k + 1, h⟩) (hs0_3 ⟨k + 1, h⟩) scM0_0 (Memref.isWhole_whole _) scM0_1 (Memref.isWhole_whole _) (fun hh => h0 ((hcond0_0 ⟨k + 1, h⟩).mp hh)) ((hcond0_1 ⟨k + 1, h⟩).mpr h4) (iblk m c 0 ⟨k + 1, h⟩) (iblk m c 1 ⟨k + 1, h⟩) (iblk m c 2 ⟨k + 1, h⟩) (outsAt0 m c k hk).2.1 (outsAt0 m c k hk).2.2] at jm
  rw [sC1 (F := Ideal) c (grid0.coords ⟨k + 1, h⟩) (ms0_0 ⟨k + 1, h⟩) (hs0_0 ⟨k + 1, h⟩) (ms0_1 ⟨k + 1, h⟩) (hs0_1 ⟨k + 1, h⟩) (ms0_2 ⟨k + 1, h⟩) (hs0_2 ⟨k + 1, h⟩) (ms0_3 ⟨k + 1, h⟩) (hs0_3 ⟨k + 1, h⟩) scM0_0 (Memref.isWhole_whole _) scM0_1 (Memref.isWhole_whole _) (fun hh => h0 ((hcond0_0 ⟨k + 1, h⟩).mp hh)) ((hcond0_1 ⟨k + 1, h⟩).mpr h4) (iblk m c 0 ⟨k + 1, h⟩) (iblk m c 1 ⟨k + 1, h⟩) (iblk m c 2 ⟨k + 1, h⟩) (outsAt0 m c k hk).2.1 (outsAt0 m c k hk).2.2] at jl
  rw [oC3 (F := Ideal) c (grid0.coords ⟨k + 1, h⟩) (ms0_0 ⟨k + 1, h⟩) (hs0_0 ⟨k + 1, h⟩) (ms0_1 ⟨k + 1, h⟩) (hs0_1 ⟨k + 1, h⟩) (ms0_2 ⟨k + 1, h⟩) (hs0_2 ⟨k + 1, h⟩) (ms0_3 ⟨k + 1, h⟩) (hs0_3 ⟨k + 1, h⟩) scM0_0 (Memref.isWhole_whole _) scM0_1 (Memref.isWhole_whole _) (fun hh => h0 ((hcond0_0 ⟨k + 1, h⟩).mp hh)) ((hcond0_1 ⟨k + 1, h⟩).mpr h4) (iblk m c 0 ⟨k + 1, h⟩) (iblk m c 1 ⟨k + 1, h⟩) (iblk m c 2 ⟨k + 1, h⟩) (outsAt0 m c k hk).2.1 (outsAt0 m c k hk).2.2]
  have hb : 6400 * ((k + 1) % 5 + 1) = 32000 := by omega
  rw [hb, pmax_full] at jm
  rw [hb, psum_full] at jl
  refine (fin_apply _ _ _ (iblk m c 1 ⟨k + 1, h⟩) (iblk m c 2 ⟨k + 1, h⟩) p jm jl).trans ?_
  rw [iblk1_apply m c ⟨k + 1, h⟩ p, iblk2_apply m c ⟨k + 1, h⟩ p]

end Cert.NL.Ker

end
-- ==== Proof.KerTerm.lean ====
/-
  The kernel program's result as one pure term of its three argument arrays, at the extended reals.

  Before the region the host picks, in every row, the scores at the class column and at the second-class column
  (t + n) mod 32000 — a take along the columns, filled with a not-a-number word where a word is out of range. The region
  turns the score array and the two picked columns into a [4096, 1] column of row entries. After the region the host
  sums the column from zero and divides by 4096.
-/
import proofs.«412134_j71330816852650_3_alg».proof.KernelIdeal
import proofs.«412134_j71330816852650_3_alg».proof.Proof.Picks
import proofs.«412134_j71330816852650_3_alg».proof.Proof.RowOut

noncomputable section

namespace Cert.NL.Ker

open Idealize.ShloMosaic Idealize.ShloMosaic.ValueIdx Cert.KernelIdeal Cert.KernelIdeal.Facts₀ Cert.NL

variable {F : FTy → Type} [FloatOps F] [Cert.KernelIdeal.Facts]

/-- The second class: (t + n) mod 32000. -/
def tneg (t n : IVec S4096 32) : IVec S4096 32 := remV (addi t n) bcast_S_S4096

/-- The fill of an out-of-range take: the not-a-number word in every row. -/
def fillNaN : FVec F S4096x1 .f32 := broadcastInDim S4096x1 ![] bcast_S_S4096x1 (constant S_ .f32 0x7FC00000#32)

/-- The scores at the columns the words name, as a column. -/
def take (x : FVec F S4096x32000 .f32) (idx : IVec S4096 32) : FVec F S4096x1 .f32 :=
  takeV x (fillNaN (F := F)) idx bcast_S4096_S4096x1_0 bcast_S_S4096x1 shapeCasts_S4096x1_S4096x1x1 bcast_S_S4096x1x1
    bcast_S1_S1x1x1_2 bcast_S1x1x1_S4096x1x1_0_1_2 reducesTo_S4096x1x1_S4096x1_d2 h_S_
    gather_S4096x32000_S4096x1x1_S4096x1_n_1_0_0_1_2_11

/-- The row an index of a [4096, 1] column lies in. -/
def rowIx (i : S4096x1.Idx) : Fin 4096 := ⟨(i 0).val, (i 0).isLt⟩

/-- What the region leaves in its result column, from the scores and the two picked columns: row by row the row's entry. -/
def region (x : FVec Ideal S4096x32000 .f32) (op on : FVec Ideal S4096x1 .f32) : FVec Ideal S4096x1 .f32 :=
  fun i => rowOut (fun c => x (ix2 (rowIx i) c)) (op (ix2 (rowIx i) (0 : Fin 1))) (on (ix2 (rowIx i) (0 : Fin 1)))

/-- The result: the mean of the region's column. -/
def kout (x : FVec Ideal S4096x32000 .f32) (t n : IVec S4096 32) : FVec Ideal S_ .f32 :=
  Host.divf (Host.reduceAdd (region x (take x t) (take x (tneg t n))) (constant S_ .f32 0x00000000#32) reducesTo_S4096x1_S_d0_1 h_S_)
    (constant S_ .f32 0x45800000#32)

end Cert.NL.Ker

end
-- ==== Proof.KerFinal.lean ====
/-
  The region's result array: row by row the row's entry.

  The result window's block at point n = 5 i + j is rows 512 i … 512 i + 511 of the [4096, 1] column, whatever j; it is
  written back only after the row tile's last point, j = 4. So the eight write-backs tile the column, and what each
  writes is the block of one whole-array function: the region's column of row entries.
-/
import proofs.«412134_j71330816852650_3_alg».proof.Proof.KerInv
import proofs.«412134_j71330816852650_3_alg».proof.Proof.KerTerm

set_option maxRecDepth 16384

noncomputable section

namespace Cert.NL.Ker

open Idealize.ShloMosaic Idealize.ShloMosaic.TcCoe Idealize.ShloMosaic.ValueIdx Idealize.SL.Sem
open Idealize.ShloMosaic.Pipeline (Dat)
open Cert.KernelIdeal Cert.KernelIdeal.Gen Cert.NL

variable (m : (ℓ : Loc nD τ sig) → Buf (Elt Ideal) ℓ)

/-- What the region leaves in its result column, from the arrays it finds. -/
abbrev resultArr (c : Dev nD) : FVec Ideal S4096x1 .f32 := region (xarr m c) (oparr m c) (onarr m c)

/-- The result window's index map, decided once over the grid: point t is row tile t / 5 of the one column. -/
theorem idx3 : ∀ t : Fin cfg0.N, win0_3.index t (0 : Fin 2) = t.val / 5 ∧ win0_3.index t (1 : Fin 2) = 0 :=
  (by decide +kernel : ∀ t : Fin grid0.N, win0_3.index t (0 : Fin 2) = t.val / 5 ∧ win0_3.index t (1 : Fin 2) = 0)

/-- A write-back of the result window writes the block of the region's column. -/
theorem flushed_eq (hx : ∀ (c : Dev nD) i, ∃ q : ℝ, xarr m c i = (q : EReal)) (c : Dev nD) (t : Fin cfg0.N)
    (hf : (cfg0.win 3).flush t = true) :
    (dats m 0 c).flushed 3 t = ((cfg0.win 3).blk t).view.read (Elt Ideal) (resultArr m c) := by
  have h4 : t.val % 5 = 4 := (flush0_3 t).mp hf
  have hi := idx3 t
  show (cfg0.win 3).cut (grid0.coords t) ((dats m 0 c).after 3 t) = _
  rw [after0_3]
  funext y
  obtain ⟨p, u, rfl⟩ : ∃ (p : Fin 512) (u : Fin 1), y = ix2 p u := ⟨y 0, y 1, eq_ix2 (n0 := 512) (n1 := 1) y⟩
  obtain rfl : u = 0 := Subsingleton.elim _ _
  rw [View.read_apply]
  -- row p of the block is row 512 (t / 5) + p of the column
  have hrow : rowIx (((cfg0.win 3).blk t).view.emb (ix2 p (0 : Fin 1)))
      = rowAt t.val (lt_of_lt_of_eq t.isLt (show cfg0.N = 40 from N_0)) p :=
    Fin.ext (by
      show win0_3.index t (0 : Fin 2) * 512 + 1 * p.val = 512 * (t.val / 5) + p.val
      rw [hi.1]; omega)
  refine (result_entry m hx c t.val t.isLt h4 p).trans ?_
  rw [← hrow]
  rfl

/-- After the last point the result array is the region's column. -/
theorem final (hx : ∀ (c : Dev nD) i, ∃ q : ℝ, xarr m c i = (q : EReal)) (c : Dev nD) :
    (dats m 0 c).arrAt 3 cfg0.N = resultArr m c := by
  refine (dats m 0 c).arrAt_eq_of_cover 3 (resultArr m c) (fun t hf => flushed_eq m hx c t hf) fun i => by
    -- row r of the column lies in the block of the last point of its row tile, t = 5 (r / 512) + 4
    have hi0 : (i 0 : Nat) < 4096 := (i 0).isLt
    have hi1 : (i 1 : Nat) < 1 := (i 1).isLt
    have hN : cfg0.N = 40 := N_0
    have ht : 5 * ((i 0 : Nat) / 512) + 4 < cfg0.N := by rw [hN]; omega
    refine ⟨⟨5 * ((i 0 : Nat) / 512) + 4, ht⟩, (flush0_3 _).mpr (by show (5 * ((i 0 : Nat) / 512) + 4) % 5 = 4; omega), ?_⟩
    obtain ⟨e0, e1⟩ := idx3 ⟨5 * ((i 0 : Nat) / 512) + 4, ht⟩
    show i ∈ ((View.whole main_v6).slice (win0_3.rect ⟨5 * ((i 0 : Nat) / 512) + 4, ht⟩)).set
    rw [View.set_slice_whole, Rect.mem_set_unit]
    intro a
    match a with
    | ⟨0, _⟩ =>
      show win0_3.index ⟨5 * ((i 0 : Nat) / 512) + 4, ht⟩ (0 : Fin 2) * 512 ≤ (i 0 : Nat)
        ∧ (i 0 : Nat) < win0_3.index ⟨5 * ((i 0 : Nat) / 512) + 4, ht⟩ (0 : Fin 2) * 512 + 512
      rw [e0]
      show (5 * ((i 0 : Nat) / 512) + 4) / 5 * 512 ≤ (i 0 : Nat) ∧ (i 0 : Nat) < (5 * ((i 0 : Nat) / 512) + 4) / 5 * 512 + 512
      omega
    | ⟨1, _⟩ =>
      show win0_3.index ⟨5 * ((i 0 : Nat) / 512) + 4, ht⟩ (1 : Fin 2) * 1 ≤ (i 1 : Nat)
        ∧ (i 1 : Nat) < win0_3.index ⟨5 * ((i 0 : Nat) / 512) + 4, ht⟩ (1 : Fin 2) * 1 + 1
      rw [e1]
      omega

end Cert.NL.Ker

end
-- ==== Proof.KerHead.lean ====
/-
  What the region finds in the two picked-score columns: the takes of the score array at the class words and at the
  second-class words, as the host lines before the region compute them from the arguments.
-/
import proofs.«412134_j71330816852650_3_alg».proof.Proof.Gen.KernelIdeal.Frame
import proofs.«412134_j71330816852650_3_alg».proof.Proof.KerTerm
import Idealize.ShloMosaic.Lib.StableHlo.Run

set_option maxRecDepth 8192

noncomputable section

namespace Cert.NL.Ker

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

set_option maxHeartbeats 4000000 in
/-- The first picked column: the scores at the class words. -/
theorem V_v3 (c : Dev nD) :
    (V m c main_v3 : S4096x1.Idx → Elt F .f32)
      = take (m ((c : Thread nD τ).loc main_arg0)) (m ((c : Thread nD τ).loc main_arg1)) := by
  dsimp only [V, V0]
  simp only [hostOps0, hostOps0_1, hostOps0_2, hostOps0_3, hostOps0_4, hostOps0_5, List.flatten_cons, List.flatten_nil,
    List.append_nil, List.cons_append, List.nil_append]
  after_results
  simp only [TRef.toBuf, TRef.ofBuf, cast_eq]
  rfl

set_option maxHeartbeats 4000000 in
/-- The second picked column: the scores at the second-class words (class plus offset, mod 32000). -/
theorem V_v5 (c : Dev nD) :
    (V m c main_v5 : S4096x1.Idx → Elt F .f32)
      = take (m ((c : Thread nD τ).loc main_arg0))
          (tneg (m ((c : Thread nD τ).loc main_arg1)) (m ((c : Thread nD τ).loc main_arg2))) := by
  dsimp only [V, V0]
  simp only [hostOps0, hostOps0_1, hostOps0_2, hostOps0_3, hostOps0_4, hostOps0_5, List.flatten_cons, List.flatten_nil,
    List.append_nil, List.cons_append, List.nil_append]
  after_results
  simp only [TRef.toBuf, TRef.ofBuf, cast_eq]
  rfl

end Cert.NL.Ker

end
-- ==== Proof.KerRun.lean ====
/-
  The kernel program's run, read: it ends with its result at the mean of the region's column, computed from the arguments.

  The generated frame run ends every weakly fair execution with each window's array at what the library computes from
  the proof data and every other unscoped buffer as the host lines after the region leave it. The result buffer is one
  of the latter: the four lines after the region sum window 3's array from zero and divide by 4096. Window 3's array after
  the last point is the region's column of row entries, a term of the three arrays the region finds; those are the score
  array as launched and the two takes the host lines before the region compute. The arguments end as launched: the score
  array is an input window's array, the two word arrays bypass the region and no host line writes them.
-/
import proofs.«412134_j71330816852650_3_alg».proof.Proof.KerFinal
import proofs.«412134_j71330816852650_3_alg».proof.Proof.KerHead
import Idealize.ShloMosaic.Lib.StableHlo.Run

set_option maxRecDepth 16384

noncomputable section

namespace Cert.NL.Ker

open Idealize.ShloMosaic Idealize.ShloMosaic.TcCoe Idealize.ShloMosaic.ValueIdx Idealize.SL.Sem
open Cert.KernelIdeal Cert.KernelIdeal.Gen Cert.NL

variable (m : (ℓ : Loc nD τ sig) → Buf (Elt Ideal) ℓ) (ρ : Dev nD → PrngReg)

/-- Every score the region finds is real: it finds the score array as launched. -/
theorem hx_arr (hx : ∀ (c : Dev nD) i, ∃ q : ℝ, m ((c : Thread nD τ).loc main_arg0) i = (q : EReal)) (c : Dev nD) i :
    ∃ q : ℝ, xarr m c i = (q : EReal) := by
  rw [show xarr m c = m ((c : Thread nD τ).loc main_arg0) from V_main_arg0 m c]
  exact hx c i

/-- The result buffer after the host lines that follow the region: they sum the region's column (window 3's array, as
    the region leaves it) from zero and divide by 4096; the column is the region's term of the three arrays it finds,
    and those are the score array as launched and its two takes. -/
theorem tail_eq (hx : ∀ (c : Dev nD) i, ∃ q : ℝ, m ((c : Thread nD τ).loc main_arg0) i = (q : EReal)) (c : Dev nD) :
    Pipeline.afterTail₀ cfgs (dats m) 0 (V0 m) [hostOps1] c main_v8
      = kout (m ((c.tc : Thread nD τ).loc main_arg0)) (m ((c.tc : Thread nD τ).loc main_arg1)) (m ((c.tc : Thread nD τ).loc main_arg2)) := by
  have h6 : Pipeline.withArrays (cfgs 0).spec c (V0 m c) (fun w => (dats m 0 c).arrAt w (cfgs 0).N) (Proc.devRef .tc main_v6)
      = resultArr m c :=
    (Pipeline.withArrays_arr spec0 launch0.win.arr_inj c _ _ 3).trans (final m (hx_arr m hx) c)
  unfold Pipeline.afterTail₀
  show StableHlo.after hostOps1 _ (Proc.devRef .tc main_v8) = _
  generalize Pipeline.withArrays (cfgs 0).spec c (V0 m c) (fun w => (dats m 0 c).arrAt w (cfgs 0).N) = W at h6 ⊢
  after_results
  rw [h6]
  show Host.divf (Host.reduceAdd (region (V m c main_arg0) (V m c main_v3) (V m c main_v5)) _ _ _) _ = _
  rw [V_main_arg0 m c, V_v3 m c, V_v5 m c]
  rfl

/-- From any memory whose scores are real: every weakly fair execution ends with the result at the kernel's term of the
    arguments, and the arguments unchanged. -/
theorem run (hx : ∀ (c : Dev nD) i, ∃ q : ℝ, m ((c : Thread nD τ).loc main_arg0) i = (q : EReal)) :
    θ_run (defs (F := Ideal)) (onTc (τ := τ) (main (F := Ideal))) ⟨m, fun _ => 0, ρ⟩ fun r => ∀ c : Dev nD,
      r.2.mem ((c.tc : Thread nD τ).loc main_v8)
          = kout (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v8 (Pipeline.mem_restRefs_of main_v8 (by decide) (by decide))).trans (tail_eq m hx c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.NL.Ker

end
-- ==== Proof.KerValue.lean ====
/-
  The kernel's result term, read at the extended reals: minus the mean of the rows' contributions.

  A take at in-range words reads the named column. A row's entry is zero minus the loss term in the multiplying
  spelling, which for real scores is zero minus the row's contribution. The host sums the [4096, 1] column from zero —
  one entry per row — and divides by 4096; negating every row before the mean is negating the mean.
-/
import proofs.«412134_j71330816852650_3_alg».proof.Proof.KerTerm
import proofs.«412134_j71330816852650_3_alg».proof.Proof.Total
import Idealize.ShloMosaic.PureOps.Ideal.Laws
import Idealize.ShloMosaic.Lib.ValueIdx

noncomputable section

namespace Cert.NL.Ker

open Idealize.ShloMosaic Idealize.ShloMosaic.ValueIdx Cert.KernelIdeal Cert.KernelIdeal.Facts₀ Cert.NL

variable [Cert.KernelIdeal.Facts]

/-- The kernel program's one entry: the column summed from zero over its 4096 rows, divided by 4096. -/
private theorem kout_apply (x : FVec Ideal S4096x32000 .f32) (t n : IVec S4096 32) (j : S_.Idx) :
    kout x t n j
      = Ideal.div (0 + ∑ r : Fin 4096, region x (take x t) (take x (tneg t n)) (ix2 r (0 : Fin 1))) rows := by
  unfold kout
  show Ideal.div (Ideal.hostReduceAdd reducesTo_S4096x1_S_d0_1 (region x (take x t) (take x (tneg t n)))
      (Ideal.ofBits .f32 0x00000000#32) j) rows = _
  rw [Ideal.hostReduceAdd_total _ (fun b => b.elim0), Ideal.ofBits_zero_f32, sum_idx2]
  exact congrArg (fun s => Ideal.div (0 + s) rows) (Finset.sum_congr rfl fun r _ => Fin.sum_univ_one _)

/-- The region's entry of row r is the row's entry at the two picked scores of that row. -/
private theorem region_row (x : FVec Ideal S4096x32000 .f32) (op on : FVec Ideal S4096x1 .f32) (r : Fin 4096) :
    region x op on (ix2 r (0 : Fin 1)) = rowOut (rowOf x r) (op (ix2 r (0 : Fin 1))) (on (ix2 r (0 : Fin 1))) := rfl

/-- A take at words below 32000 reads, in row r, the score at the column the word names. -/
private theorem take_apply (x : FVec Ideal S4096x32000 .f32) (idx : IVec S4096 32)
    (hidx : ∀ r : Fin 4096, (idx (ix1 r)).toNat < 32000) (r : Fin 4096) :
    take x idx (ix2 r (0 : Fin 1)) = x (ix2 r (⟨(idx (ix1 r)).toNat, hidx r⟩ : Fin 32000)) := by
  unfold take
  exact takeV_apply x _ idx _ _ _ _ _ _ _ _ _ rfl rfl rfl rfl rfl rfl hidx r

/-- For real scores a row's entry at the scores of two columns is zero minus the row's contribution. -/
private theorem rowOut_eq (X : Fin 32000 → EReal) (hX : ∀ c, ∃ r : ℝ, X c = (r : EReal)) (ca cb : Fin 32000) :
    rowOut X (X ca) (X cb) = 0 - rowLoss X ca cb := by
  unfold rowOut entryK probK rowLoss
  rw [prob_mul X hX (X ca), prob_mul X hX (X cb), lossTerm_zero_sub]

/-- The region's entry of row r, from the row's two picked columns. -/
private theorem region_eq (x : FVec Ideal S4096x32000 .f32) (t n : IVec S4096 32)
    (hx : ∀ i, ∃ q : ℝ, x i = (q : EReal)) (ht : ∀ r : Fin 4096, (t (ix1 r)).toNat < 32000) (r : Fin 4096) :
    region x (take x t) (take x (tneg t n)) (ix2 r (0 : Fin 1))
      = 0 - rowLoss (rowOf x r) (colT t ht r) (colN t n bcast_S_S4096 r) := by
  rw [region_row, take_apply x t ht r, take_apply x (tneg t n) (fun r => remV_lt (addi t n) bcast_S_S4096 r) r]
  exact rowOut_eq (rowOf x r) (fun c => hx (ix2 r c)) (colT t ht r) (colN t n bcast_S_S4096 r)

/-- With every score real and every class word a natural number below 32000, the kernel program's result (its one entry)
    is minus the mean of the rows' contributions. -/
theorem kout_eq (x : FVec Ideal S4096x32000 .f32) (t n : IVec S4096 32)
    (hx : ∀ i, ∃ q : ℝ, x i = (q : EReal)) (ht : ∀ r : Fin 4096, (t (ix1 r)).toNat < 32000) :
    kout x t n = fun _ => total x t n bcast_S_S4096 ht := by
  funext j
  rw [kout_apply]
  have hrow : ∀ r : Fin 4096, region x (take x t) (take x (tneg t n)) (ix2 r (0 : Fin 1))
      = 0 - rowLoss (rowOf x r) (colT t ht r) (colN t n bcast_S_S4096 r) := region_eq x t n hx ht
  rw [Finset.sum_congr rfl fun r _ => hrow r]
  exact mean_neg (fun r => rowLoss (rowOf x r) (colT t ht r) (colN t n bcast_S_S4096 r))
    fun r => rowLoss_real (rowOf x r) (fun c => hx (ix2 r c)) (colT t ht r) (colN t n bcast_S_S4096 r)

end Cert.NL.Ker

end
-- ==== Proof.RefOps.lean ====
/- The reference program's 144 host operations in order, its calls unfolded at their sites over the calls' buffer records,
   and the reference each writes. A table; nothing is proved here. -/
import proofs.«412134_j71330816852650_3_alg».proof.Proof.Gen.ReferenceIdeal
import Idealize.ShloMosaic.Lib.StableHlo.Run

noncomputable section

namespace Cert.NL.Ref

open Cert.ReferenceIdeal Cert.ReferenceIdeal.Facts₀ Idealize.ShloMosaic Idealize.ShloMosaic.StableHlo

variable {F : FTy → Type} [FloatOps F]

/-- The operations, in order. -/
abbrev ops : List (HloOp τ sig (Elt F)) :=
  [ binary main_arg1 main_arg2 main_v0 (addi : (⟨S4096, .i32⟩ : BufTy).Contents (Elt F) → (⟨S4096, .i32⟩ : BufTy).Contents (Elt F) → (⟨S4096, .i32⟩ : BufTy).Contents (Elt F)),
    nullary main_c (constantI S_ 32 32000#32),
    TRef.unary (.of main_c : TRef sig ⟨S_, .i32⟩) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S4096 ![] bcast_S_S4096),
    TRef.binary (.of main_v0 : TRef sig ⟨S4096, .i32⟩) main_call0.v3 main_call0.v4 Host.remsi,
    TRef.nullary main_call0.c_1 (constantI S_ 32 0#32),
    TRef.unary main_call0.c_1 main_call0.v5 (broadcastInDim S4096 ![] bcast_S_S4096),
    TRef.binary main_call0.v4 main_call0.v5 main_call0.v6 (cmpi .ne),
    TRef.nullary main_call0.c_2 (constantI S_ 32 0#32),
    TRef.unary main_call0.c_2 main_call0.v7 (broadcastInDim S4096 ![] bcast_S_S4096),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S4096 ![] bcast_S_S4096),
    TRef.binary main_call0.v8 main_call0.v10 main_call0.v11 (cmpi .ne),
    TRef.binary main_call0.v11 main_call0.v6 main_call0.v12 andi,
    TRef.unary main_call0.call0.v0 main_call0.v13 (broadcastInDim S4096 ![] bcast_S_S4096),
    TRef.binary main_call0.v4 main_call0.v13 main_call0.v14 addi,
    TRef.ternary main_call0.v12 main_call0.v14 main_call0.v4 main_call0.v15 select,
    nullary main_cst (constant S_ .f32 0xFF800000#32),
    binary main_arg0 main_cst main_v2 ((fun x v => Host.reduce FloatOps.maximumf x v reducesTo_S4096x32000_S4096_d1 h_S_) : (⟨S4096x32000, .f32⟩ : BufTy).Contents (Elt F) → (⟨S_, .f32⟩ : BufTy).Contents (Elt F) → (⟨S4096, .f32⟩ : BufTy).Contents (Elt F)),
    nullary main_cst_0 (constant S_ .f32 0xFF800000#32),
    unary main_cst_0 main_v3 (broadcastInDim S4096 ![] bcast_S_S4096 : (⟨S_, .f32⟩ : BufTy).Contents (Elt F) → (⟨S4096, .f32⟩ : BufTy).Contents (Elt F)),
    binary main_v3 main_v2 main_v4 (maximumf : (⟨S4096, .f32⟩ : BufTy).Contents (Elt F) → (⟨S4096, .f32⟩ : BufTy).Contents (Elt F) → (⟨S4096, .f32⟩ : BufTy).Contents (Elt F)),
    unary main_v4 main_v5 (broadcastInDim S4096x1 ![0] bcast_S4096_S4096x1_0 : (⟨S4096, .f32⟩ : BufTy).Contents (Elt F) → (⟨S4096x1, .f32⟩ : BufTy).Contents (Elt F)),
    unary main_v5 main_v6 (broadcastInDim S4096x32000 ![0, 1] bcast_S4096x1_S4096x32000_0_1 : (⟨S4096x1, .f32⟩ : BufTy).Contents (Elt F) → (⟨S4096x32000, .f32⟩ : BufTy).Contents (Elt F)),
    binary main_arg0 main_v6 main_v7 (subf : (⟨S4096x32000, .f32⟩ : BufTy).Contents (Elt F) → (⟨S4096x32000, .f32⟩ : BufTy).Contents (Elt F) → (⟨S4096x32000, .f32⟩ : BufTy).Contents (Elt F)),
    unary main_v7 main_v8 (Host.exp : (⟨S4096x32000, .f32⟩ : BufTy).Contents (Elt F) → (⟨S4096x32000, .f32⟩ : BufTy).Contents (Elt F)),
    nullary main_cst_1 (constant S_ .f32 0x00000000#32),
    binary main_v8 main_cst_1 main_v9 ((fun x v => Host.reduceAdd x v reducesTo_S4096x32000_S4096_d1 h_S_) : (⟨S4096x32000, .f32⟩ : BufTy).Contents (Elt F) → (⟨S_, .f32⟩ : BufTy).Contents (Elt F) → (⟨S4096, .f32⟩ : BufTy).Contents (Elt F)),
    unary main_v9 main_v10 (broadcastInDim S4096x1 ![0] bcast_S4096_S4096x1_0 : (⟨S4096, .f32⟩ : BufTy).Contents (Elt F) → (⟨S4096x1, .f32⟩ : BufTy).Contents (Elt F)),
    unary main_v10 main_v11 (broadcastInDim S4096x32000 ![0, 1] bcast_S4096x1_S4096x32000_0_1 : (⟨S4096x1, .f32⟩ : BufTy).Contents (Elt F) → (⟨S4096x32000, .f32⟩ : BufTy).Contents (Elt F)),
    binary main_v8 main_v11 main_v12 (Host.divf : (⟨S4096x32000, .f32⟩ : BufTy).Contents (Elt F) → (⟨S4096x32000, .f32⟩ : BufTy).Contents (Elt F) → (⟨S4096x32000, .f32⟩ : BufTy).Contents (Elt F)),
    nullary main_cst_2 (constant S_ .f32 0x33D6BF95#32),
    nullary main_cst_3 (constant S_ .f32 0x3F800000#32),
    TRef.unary (.of main_cst_2 : TRef sig ⟨S_, .f32⟩) main_call1.v0 id,
    TRef.unary main_call1.v0 main_call1.v1 (broadcastInDim S4096x32000 ![] bcast_S_S4096x32000),
    TRef.binary main_call1.v1 (.of main_v12 : TRef sig ⟨S4096x32000, .f32⟩) main_call1.v2 maximumf,
    TRef.unary (.of main_cst_3 : TRef sig ⟨S_, .f32⟩) main_call1.v3 id,
    TRef.unary main_call1.v3 main_call1.v4 (broadcastInDim S4096x32000 ![] bcast_S_S4096x32000),
    TRef.binary main_call1.v4 main_call1.v2 main_call1.v5 minimumf,
    nullary main_v14 (iotaInDim S4096 32 0),
    nullary main_c_4 (constantI S_ 32 0#32),
    unary main_c_4 main_v15 (broadcastInDim S4096 ![] bcast_S_S4096 : (⟨S_, .i32⟩ : BufTy).Contents (Elt F) → (⟨S4096, .i32⟩ : BufTy).Contents (Elt F)),
    binary main_v14 main_v15 main_v16 (cmpi .slt : (⟨S4096, .i32⟩ : BufTy).Contents (Elt F) → (⟨S4096, .i32⟩ : BufTy).Contents (Elt F) → (⟨S4096, .i1⟩ : BufTy).Contents (Elt F)),
    nullary main_c_5 (constantI S_ 32 4096#32),
    unary main_c_5 main_v17 (broadcastInDim S4096 ![] bcast_S_S4096 : (⟨S_, .i32⟩ : BufTy).Contents (Elt F) → (⟨S4096, .i32⟩ : BufTy).Contents (Elt F)),
    binary main_v14 main_v17 main_v18 (addi : (⟨S4096, .i32⟩ : BufTy).Contents (Elt F) → (⟨S4096, .i32⟩ : BufTy).Contents (Elt F) → (⟨S4096, .i32⟩ : BufTy).Contents (Elt F)),
    ternary main_v16 main_v18 main_v14 main_v19 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_6 (constantI S_ 32 0#32),
    unary main_c_6 main_v20 (broadcastInDim S4096 ![] bcast_S_S4096 : (⟨S_, .i32⟩ : BufTy).Contents (Elt F) → (⟨S4096, .i32⟩ : BufTy).Contents (Elt F)),
    binary main_arg1 main_v20 main_v21 (cmpi .slt : (⟨S4096, .i32⟩ : BufTy).Contents (Elt F) → (⟨S4096, .i32⟩ : BufTy).Contents (Elt F) → (⟨S4096, .i1⟩ : BufTy).Contents (Elt F)),
    nullary main_c_7 (constantI S_ 32 32000#32),
    unary main_c_7 main_v22 (broadcastInDim S4096 ![] bcast_S_S4096 : (⟨S_, .i32⟩ : BufTy).Contents (Elt F) → (⟨S4096, .i32⟩ : BufTy).Contents (Elt F)),
    binary main_arg1 main_v22 main_v23 (addi : (⟨S4096, .i32⟩ : BufTy).Contents (Elt F) → (⟨S4096, .i32⟩ : BufTy).Contents (Elt F) → (⟨S4096, .i32⟩ : BufTy).Contents (Elt F)),
    ternary main_v21 main_v23 main_arg1 main_v24 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v19 main_v25 (broadcastInDim S4096x1 ![0] bcast_S4096_S4096x1_0 : (⟨S4096, .i32⟩ : BufTy).Contents (Elt F) → (⟨S4096x1, .i32⟩ : BufTy).Contents (Elt F)),
    unary main_v24 main_v26 (broadcastInDim S4096x1 ![0] bcast_S4096_S4096x1_0 : (⟨S4096, .i32⟩ : BufTy).Contents (Elt F) → (⟨S4096x1, .i32⟩ : BufTy).Contents (Elt F)),
    binary main_v25 main_v26 main_v27 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_v13 main_v27 main_v28 ((fun x i => Host.gather gather_S4096x32000_S4096x2_S4096_n_01_n_n_01_1_11 x i) : (⟨S4096x32000, .f32⟩ : BufTy).Contents (Elt F) → (⟨S4096x2, .i32⟩ : BufTy).Contents (Elt F) → (⟨S4096, .f32⟩ : BufTy).Contents (Elt F)),
    nullary main_c_8 (constantI S_ 32 0#32),
    unary main_c_8 main_v29 (broadcastInDim S4096 ![] bcast_S_S4096 : (⟨S_, .i32⟩ : BufTy).Contents (Elt F) → (⟨S4096, .i32⟩ : BufTy).Contents (Elt F)),
    binary main_v14 main_v29 main_v30 (cmpi .slt : (⟨S4096, .i32⟩ : BufTy).Contents (Elt F) → (⟨S4096, .i32⟩ : BufTy).Contents (Elt F) → (⟨S4096, .i1⟩ : BufTy).Contents (Elt F)),
    nullary main_c_9 (constantI S_ 32 4096#32),
    unary main_c_9 main_v31 (broadcastInDim S4096 ![] bcast_S_S4096 : (⟨S_, .i32⟩ : BufTy).Contents (Elt F) → (⟨S4096, .i32⟩ : BufTy).Contents (Elt F)),
    binary main_v14 main_v31 main_v32 (addi : (⟨S4096, .i32⟩ : BufTy).Contents (Elt F) → (⟨S4096, .i32⟩ : BufTy).Contents (Elt F) → (⟨S4096, .i32⟩ : BufTy).Contents (Elt F)),
    ternary main_v30 main_v32 main_v14 main_v33 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_10 (constantI S_ 32 0#32),
    unary main_c_10 main_v34 (broadcastInDim S4096 ![] bcast_S_S4096 : (⟨S_, .i32⟩ : BufTy).Contents (Elt F) → (⟨S4096, .i32⟩ : BufTy).Contents (Elt F)),
    binary main_v1 main_v34 main_v35 (cmpi .slt : (⟨S4096, .i32⟩ : BufTy).Contents (Elt F) → (⟨S4096, .i32⟩ : BufTy).Contents (Elt F) → (⟨S4096, .i1⟩ : BufTy).Contents (Elt F)),
    nullary main_c_11 (constantI S_ 32 32000#32),
    unary main_c_11 main_v36 (broadcastInDim S4096 ![] bcast_S_S4096 : (⟨S_, .i32⟩ : BufTy).Contents (Elt F) → (⟨S4096, .i32⟩ : BufTy).Contents (Elt F)),
    binary main_v1 main_v36 main_v37 (addi : (⟨S4096, .i32⟩ : BufTy).Contents (Elt F) → (⟨S4096, .i32⟩ : BufTy).Contents (Elt F) → (⟨S4096, .i32⟩ : BufTy).Contents (Elt F)),
    ternary main_v35 main_v37 main_v1 main_v38 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v33 main_v39 (broadcastInDim S4096x1 ![0] bcast_S4096_S4096x1_0 : (⟨S4096, .i32⟩ : BufTy).Contents (Elt F) → (⟨S4096x1, .i32⟩ : BufTy).Contents (Elt F)),
    unary main_v38 main_v40 (broadcastInDim S4096x1 ![0] bcast_S4096_S4096x1_0 : (⟨S4096, .i32⟩ : BufTy).Contents (Elt F) → (⟨S4096x1, .i32⟩ : BufTy).Contents (Elt F)),
    binary main_v39 main_v40 main_v41 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_v13 main_v41 main_v42 ((fun x i => Host.gather gather_S4096x32000_S4096x2_S4096_n_01_n_n_01_1_11 x i) : (⟨S4096x32000, .f32⟩ : BufTy).Contents (Elt F) → (⟨S4096x2, .i32⟩ : BufTy).Contents (Elt F) → (⟨S4096, .f32⟩ : BufTy).Contents (Elt F)),
    binary main_v42 main_v28 main_v43 (subf : (⟨S4096, .f32⟩ : BufTy).Contents (Elt F) → (⟨S4096, .f32⟩ : BufTy).Contents (Elt F) → (⟨S4096, .f32⟩ : BufTy).Contents (Elt F)),
    nullary main_cst_12 (constant S_ .f32 0x3F800000#32),
    unary main_cst_12 main_v44 (broadcastInDim S4096 ![] bcast_S_S4096 : (⟨S_, .f32⟩ : BufTy).Contents (Elt F) → (⟨S4096, .f32⟩ : BufTy).Contents (Elt F)),
    binary main_v44 main_v43 main_v45 (subf : (⟨S4096, .f32⟩ : BufTy).Contents (Elt F) → (⟨S4096, .f32⟩ : BufTy).Contents (Elt F) → (⟨S4096, .f32⟩ : BufTy).Contents (Elt F)),
    binary main_v28 main_v42 main_v46 (addf : (⟨S4096, .f32⟩ : BufTy).Contents (Elt F) → (⟨S4096, .f32⟩ : BufTy).Contents (Elt F) → (⟨S4096, .f32⟩ : BufTy).Contents (Elt F)),
    binary main_v42 main_v46 main_v47 (mulf : (⟨S4096, .f32⟩ : BufTy).Contents (Elt F) → (⟨S4096, .f32⟩ : BufTy).Contents (Elt F) → (⟨S4096, .f32⟩ : BufTy).Contents (Elt F)),
    unary main_v47 main_v48 (Host.negf : (⟨S4096, .f32⟩ : BufTy).Contents (Elt F) → (⟨S4096, .f32⟩ : BufTy).Contents (Elt F)),
    binary main_v48 main_v45 main_v49 (mulf : (⟨S4096, .f32⟩ : BufTy).Contents (Elt F) → (⟨S4096, .f32⟩ : BufTy).Contents (Elt F) → (⟨S4096, .f32⟩ : BufTy).Contents (Elt F)),
    nullary main_cst_13 (constant S_ .f32 0x3F800000#32),
    unary main_cst_13 main_v50 (broadcastInDim S4096 ![] bcast_S_S4096 : (⟨S_, .f32⟩ : BufTy).Contents (Elt F) → (⟨S4096, .f32⟩ : BufTy).Contents (Elt F)),
    binary main_v50 main_v42 main_v51 (subf : (⟨S4096, .f32⟩ : BufTy).Contents (Elt F) → (⟨S4096, .f32⟩ : BufTy).Contents (Elt F) → (⟨S4096, .f32⟩ : BufTy).Contents (Elt F)),
    binary main_v42 main_v51 main_v52 (mulf : (⟨S4096, .f32⟩ : BufTy).Contents (Elt F) → (⟨S4096, .f32⟩ : BufTy).Contents (Elt F) → (⟨S4096, .f32⟩ : BufTy).Contents (Elt F)),
    binary main_v52 main_v45 main_v53 (mulf : (⟨S4096, .f32⟩ : BufTy).Contents (Elt F) → (⟨S4096, .f32⟩ : BufTy).Contents (Elt F) → (⟨S4096, .f32⟩ : BufTy).Contents (Elt F)),
    binary main_v49 main_v53 main_v54 (subf : (⟨S4096, .f32⟩ : BufTy).Contents (Elt F) → (⟨S4096, .f32⟩ : BufTy).Contents (Elt F) → (⟨S4096, .f32⟩ : BufTy).Contents (Elt F)),
    binary main_v42 main_v45 main_v55 (mulf : (⟨S4096, .f32⟩ : BufTy).Contents (Elt F) → (⟨S4096, .f32⟩ : BufTy).Contents (Elt F) → (⟨S4096, .f32⟩ : BufTy).Contents (Elt F)),
    binary main_v42 main_v28 main_v56 (mulf : (⟨S4096, .f32⟩ : BufTy).Contents (Elt F) → (⟨S4096, .f32⟩ : BufTy).Contents (Elt F) → (⟨S4096, .f32⟩ : BufTy).Contents (Elt F)),
    binary main_v56 main_v45 main_v57 (mulf : (⟨S4096, .f32⟩ : BufTy).Contents (Elt F) → (⟨S4096, .f32⟩ : BufTy).Contents (Elt F) → (⟨S4096, .f32⟩ : BufTy).Contents (Elt F)),
    binary main_v55 main_v57 main_v58 (addf : (⟨S4096, .f32⟩ : BufTy).Contents (Elt F) → (⟨S4096, .f32⟩ : BufTy).Contents (Elt F) → (⟨S4096, .f32⟩ : BufTy).Contents (Elt F)),
    nullary main_c_14 (constantI S_ 32 0#32),
    unary main_c_14 main_v59 (broadcastInDim S4096 ![] bcast_S_S4096 : (⟨S_, .i32⟩ : BufTy).Contents (Elt F) → (⟨S4096, .i32⟩ : BufTy).Contents (Elt F)),
    binary main_v14 main_v59 main_v60 (cmpi .slt : (⟨S4096, .i32⟩ : BufTy).Contents (Elt F) → (⟨S4096, .i32⟩ : BufTy).Contents (Elt F) → (⟨S4096, .i1⟩ : BufTy).Contents (Elt F)),
    nullary main_c_15 (constantI S_ 32 4096#32),
    unary main_c_15 main_v61 (broadcastInDim S4096 ![] bcast_S_S4096 : (⟨S_, .i32⟩ : BufTy).Contents (Elt F) → (⟨S4096, .i32⟩ : BufTy).Contents (Elt F)),
    binary main_v14 main_v61 main_v62 (addi : (⟨S4096, .i32⟩ : BufTy).Contents (Elt F) → (⟨S4096, .i32⟩ : BufTy).Contents (Elt F) → (⟨S4096, .i32⟩ : BufTy).Contents (Elt F)),
    ternary main_v60 main_v62 main_v14 main_v63 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_16 (constantI S_ 32 0#32),
    unary main_c_16 main_v64 (broadcastInDim S4096 ![] bcast_S_S4096 : (⟨S_, .i32⟩ : BufTy).Contents (Elt F) → (⟨S4096, .i32⟩ : BufTy).Contents (Elt F)),
    binary main_v1 main_v64 main_v65 (cmpi .slt : (⟨S4096, .i32⟩ : BufTy).Contents (Elt F) → (⟨S4096, .i32⟩ : BufTy).Contents (Elt F) → (⟨S4096, .i1⟩ : BufTy).Contents (Elt F)),
    nullary main_c_17 (constantI S_ 32 32000#32),
    unary main_c_17 main_v66 (broadcastInDim S4096 ![] bcast_S_S4096 : (⟨S_, .i32⟩ : BufTy).Contents (Elt F) → (⟨S4096, .i32⟩ : BufTy).Contents (Elt F)),
    binary main_v1 main_v66 main_v67 (addi : (⟨S4096, .i32⟩ : BufTy).Contents (Elt F) → (⟨S4096, .i32⟩ : BufTy).Contents (Elt F) → (⟨S4096, .i32⟩ : BufTy).Contents (Elt F)),
    ternary main_v65 main_v67 main_v1 main_v68 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v63 main_v69 (broadcastInDim S4096x1 ![0] bcast_S4096_S4096x1_0 : (⟨S4096, .i32⟩ : BufTy).Contents (Elt F) → (⟨S4096x1, .i32⟩ : BufTy).Contents (Elt F)),
    unary main_v68 main_v70 (broadcastInDim S4096x1 ![0] bcast_S4096_S4096x1_0 : (⟨S4096, .i32⟩ : BufTy).Contents (Elt F) → (⟨S4096x1, .i32⟩ : BufTy).Contents (Elt F)),
    binary main_v69 main_v70 main_v71 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_arg0 main_v71 main_v72 ((fun x i => Host.gather gather_S4096x32000_S4096x2_S4096_n_01_n_n_01_1_11 x i) : (⟨S4096x32000, .f32⟩ : BufTy).Contents (Elt F) → (⟨S4096x2, .i32⟩ : BufTy).Contents (Elt F) → (⟨S4096, .f32⟩ : BufTy).Contents (Elt F)),
    nullary main_c_18 (constantI S_ 32 0#32),
    unary main_c_18 main_v73 (broadcastInDim S4096 ![] bcast_S_S4096 : (⟨S_, .i32⟩ : BufTy).Contents (Elt F) → (⟨S4096, .i32⟩ : BufTy).Contents (Elt F)),
    binary main_v14 main_v73 main_v74 (cmpi .slt : (⟨S4096, .i32⟩ : BufTy).Contents (Elt F) → (⟨S4096, .i32⟩ : BufTy).Contents (Elt F) → (⟨S4096, .i1⟩ : BufTy).Contents (Elt F)),
    nullary main_c_19 (constantI S_ 32 4096#32),
    unary main_c_19 main_v75 (broadcastInDim S4096 ![] bcast_S_S4096 : (⟨S_, .i32⟩ : BufTy).Contents (Elt F) → (⟨S4096, .i32⟩ : BufTy).Contents (Elt F)),
    binary main_v14 main_v75 main_v76 (addi : (⟨S4096, .i32⟩ : BufTy).Contents (Elt F) → (⟨S4096, .i32⟩ : BufTy).Contents (Elt F) → (⟨S4096, .i32⟩ : BufTy).Contents (Elt F)),
    ternary main_v74 main_v76 main_v14 main_v77 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_20 (constantI S_ 32 0#32),
    unary main_c_20 main_v78 (broadcastInDim S4096 ![] bcast_S_S4096 : (⟨S_, .i32⟩ : BufTy).Contents (Elt F) → (⟨S4096, .i32⟩ : BufTy).Contents (Elt F)),
    binary main_arg1 main_v78 main_v79 (cmpi .slt : (⟨S4096, .i32⟩ : BufTy).Contents (Elt F) → (⟨S4096, .i32⟩ : BufTy).Contents (Elt F) → (⟨S4096, .i1⟩ : BufTy).Contents (Elt F)),
    nullary main_c_21 (constantI S_ 32 32000#32),
    unary main_c_21 main_v80 (broadcastInDim S4096 ![] bcast_S_S4096 : (⟨S_, .i32⟩ : BufTy).Contents (Elt F) → (⟨S4096, .i32⟩ : BufTy).Contents (Elt F)),
    binary main_arg1 main_v80 main_v81 (addi : (⟨S4096, .i32⟩ : BufTy).Contents (Elt F) → (⟨S4096, .i32⟩ : BufTy).Contents (Elt F) → (⟨S4096, .i32⟩ : BufTy).Contents (Elt F)),
    ternary main_v79 main_v81 main_arg1 main_v82 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v77 main_v83 (broadcastInDim S4096x1 ![0] bcast_S4096_S4096x1_0 : (⟨S4096, .i32⟩ : BufTy).Contents (Elt F) → (⟨S4096x1, .i32⟩ : BufTy).Contents (Elt F)),
    unary main_v82 main_v84 (broadcastInDim S4096x1 ![0] bcast_S4096_S4096x1_0 : (⟨S4096, .i32⟩ : BufTy).Contents (Elt F) → (⟨S4096x1, .i32⟩ : BufTy).Contents (Elt F)),
    binary main_v83 main_v84 main_v85 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_arg0 main_v85 main_v86 ((fun x i => Host.gather gather_S4096x32000_S4096x2_S4096_n_01_n_n_01_1_11 x i) : (⟨S4096x32000, .f32⟩ : BufTy).Contents (Elt F) → (⟨S4096x2, .i32⟩ : BufTy).Contents (Elt F) → (⟨S4096, .f32⟩ : BufTy).Contents (Elt F)),
    binary main_v54 main_v72 main_v87 (mulf : (⟨S4096, .f32⟩ : BufTy).Contents (Elt F) → (⟨S4096, .f32⟩ : BufTy).Contents (Elt F) → (⟨S4096, .f32⟩ : BufTy).Contents (Elt F)),
    binary main_v58 main_v86 main_v88 (mulf : (⟨S4096, .f32⟩ : BufTy).Contents (Elt F) → (⟨S4096, .f32⟩ : BufTy).Contents (Elt F) → (⟨S4096, .f32⟩ : BufTy).Contents (Elt F)),
    binary main_v87 main_v88 main_v89 (addf : (⟨S4096, .f32⟩ : BufTy).Contents (Elt F) → (⟨S4096, .f32⟩ : BufTy).Contents (Elt F) → (⟨S4096, .f32⟩ : BufTy).Contents (Elt F)),
    nullary main_cst_22 (constant S_ .f32 0x00000000#32),
    binary main_v89 main_cst_22 main_v90 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_23 (constant S_ .f32 0x45800000#32),
    binary main_v90 main_cst_23 main_v91 (Host.divf : (⟨S_, .f32⟩ : BufTy).Contents (Elt F) → (⟨S_, .f32⟩ : BufTy).Contents (Elt F) → (⟨S_, .f32⟩ : BufTy).Contents (Elt F)),
    unary main_v91 main_v92 (Host.negf : (⟨S_, .f32⟩ : BufTy).Contents (Elt F) → (⟨S_, .f32⟩ : BufTy).Contents (Elt F)) ]

/-- The reference each operation writes, in order. -/
abbrev ys : List (Ref sig .tc) :=
  [ main_v0, main_c, main_call0_v0, main_call0_c, main_call0_v1, main_call0_c_0, main_call0_v2, main_call0_v3,
    main_call0_v4, main_call0_c_1, main_call0_v5, main_call0_v6, main_call0_c_2, main_call0_v7, main_call0_v8, main_call0_c_3,
    main_call0_v9, main_call0_v10, main_call0_v11, main_call0_v12, main_call0_v13, main_call0_v14, main_v1, main_cst,
    main_v2, main_cst_0, main_v3, main_v4, main_v5, main_v6, main_v7, main_v8,
    main_cst_1, main_v9, main_v10, main_v11, main_v12, main_cst_2, main_cst_3, main_call1_v0,
    main_call1_v1, main_call1_v2, main_call1_v3, main_call1_v4, main_v13, main_v14, main_c_4, main_v15,
    main_v16, main_c_5, main_v17, main_v18, main_v19, main_c_6, main_v20, main_v21,
    main_c_7, main_v22, main_v23, main_v24, main_v25, main_v26, main_v27, main_v28,
    main_c_8, main_v29, main_v30, main_c_9, main_v31, main_v32, main_v33, main_c_10,
    main_v34, main_v35, main_c_11, main_v36, main_v37, main_v38, main_v39, main_v40,
    main_v41, main_v42, main_v43, main_cst_12, main_v44, main_v45, main_v46, main_v47,
    main_v48, main_v49, main_cst_13, main_v50, main_v51, main_v52, main_v53, main_v54,
    main_v55, main_v56, main_v57, main_v58, main_c_14, main_v59, main_v60, main_c_15,
    main_v61, main_v62, main_v63, main_c_16, main_v64, main_v65, main_c_17, main_v66,
    main_v67, main_v68, main_v69, main_v70, main_v71, main_v72, main_c_18, main_v73,
    main_v74, main_c_19, main_v75, main_v76, main_v77, main_c_20, main_v78, main_v79,
    main_c_21, main_v80, main_v81, main_v82, main_v83, main_v84, main_v85, main_v86,
    main_v87, main_v88, main_v89, main_cst_22, main_v90, main_cst_23, main_v91, main_v92 ]

end Cert.NL.Ref

end
-- ==== Proof.RefTerm.lean ====
/-
  The reference's result as one pure term of its three argument arrays.

  The scores x, the class words t and the offset words n give: the second class tn = (t + n) mod 32000; the clipped
  softmax p of x along the columns (the row maximum subtracted, exponentials, their row sum divided out, clipped to
  [1e-7, 1]); in every row the probabilities p_y, p_k that p has at the columns t, tn and the scores o_pos, o_neg
  that x has there; the row's contribution g_neg · o_neg + g_pos · o_pos; and minus the mean of the contributions.
-/
import proofs.«412134_j71330816852650_3_alg».proof.ReferenceIdeal
import proofs.«412134_j71330816852650_3_alg».proof.Proof.Picks

noncomputable section

namespace Cert.NL.Ref

open Idealize.ShloMosaic Cert.ReferenceIdeal Cert.ReferenceIdeal.Facts₀ Cert.NL

variable {F : FTy → Type} [FloatOps F] [Cert.ReferenceIdeal.Facts]

/-- The second class: (t + n) mod 32000. -/
def tneg (t n : IVec S4096 32) : IVec S4096 32 := remV (addi t n) bcast_S_S4096

/-- The clipped softmax along the columns. -/
def pred (x : FVec F S4096x32000 .f32) : FVec F S4096x32000 .f32 :=
  let v2 : FVec F S4096 .f32 := Host.reduce FloatOps.maximumf x (constant S_ .f32 0xFF800000#32) reducesTo_S4096x32000_S4096_d1 h_S_
  let v4 : FVec F S4096 .f32 := maximumf (broadcastInDim S4096 ![] bcast_S_S4096 (constant S_ .f32 0xFF800000#32)) v2
  let v6 : FVec F S4096x32000 .f32 := broadcastInDim S4096x32000 ![0, 1] bcast_S4096x1_S4096x32000_0_1 (broadcastInDim S4096x1 ![0] bcast_S4096_S4096x1_0 v4)
  let v8 : FVec F S4096x32000 .f32 := Host.exp (subf x v6)
  let v9 : FVec F S4096 .f32 := Host.reduceAdd v8 (constant S_ .f32 0x00000000#32) reducesTo_S4096x32000_S4096_d1 h_S_
  let v11 : FVec F S4096x32000 .f32 := broadcastInDim S4096x32000 ![0, 1] bcast_S4096x1_S4096x32000_0_1 (broadcastInDim S4096x1 ![0] bcast_S4096_S4096x1_0 v9)
  let v12 : FVec F S4096x32000 .f32 := Host.divf v8 v11
  let c2 : FVec F S4096x32000 .f32 := maximumf (broadcastInDim S4096x32000 ![] bcast_S_S4096x32000 (constant S_ .f32 0x33D6BF95#32)) v12
  minimumf (broadcastInDim S4096x32000 ![] bcast_S_S4096x32000 (constant S_ .f32 0x3F800000#32)) c2

/-- The entries of a [4096, 32000] array at the columns the words name, row by row. -/
def pick {α : Type} (a : S4096x32000.Idx → α) (idx : IVec S4096 32) : S4096.Idx → α :=
  pickV a idx bcast_S_S4096 bcast_S4096_S4096x1_0 concatenates_S4096x1_S4096x1_S4096x2_d1
    gather_S4096x32000_S4096x2_S4096_n_01_n_n_01_1_11

/-- The rows' contributions. -/
def contrib (x : FVec F S4096x32000 .f32) (t n : IVec S4096 32) : FVec F S4096 .f32 :=
  let py : FVec F S4096 .f32 := pick (pred x) t
  let pk : FVec F S4096 .f32 := pick (pred x) (tneg t n)
  let one : FVec F S4096 .f32 := broadcastInDim S4096 ![] bcast_S_S4096 (constant S_ .f32 0x3F800000#32)
  let t45 : FVec F S4096 .f32 := subf one (subf pk py)
  let gneg : FVec F S4096 .f32 := subf (mulf (Host.negf (mulf pk (addf py pk))) t45) (mulf (mulf pk (subf one pk)) t45)
  let gpos : FVec F S4096 .f32 := addf (mulf pk t45) (mulf (mulf pk py) t45)
  addf (mulf gneg (pick x (tneg t n))) (mulf gpos (pick x t))

/-- The result: minus the mean of the contributions. -/
def out (x : FVec F S4096x32000 .f32) (t n : IVec S4096 32) : FVec F S_ .f32 :=
  Host.negf (Host.divf (Host.reduceAdd (contrib x t n) (constant S_ .f32 0x00000000#32) reducesTo_S4096_S_d0 h_S_)
    (constant S_ .f32 0x45800000#32))

end Cert.NL.Ref

end
-- ==== Proof.LibAfter.lean ====
/-
  The contents of a buffer after a line of host operations, read one operation at a time.

  Every buffer of a printed program is written by one operation. So what the line leaves in the buffer operation k
  writes is what operation k left there, and that is its function applied to what the WHOLE line leaves in the buffers
  it reads, since no operation from k on writes those. The bookkeeping is a list ys of the references the operations
  write, in order: "x is not written from position k on" is "x is not among ys from position k on", a decidable
  question about a list of references.
-/
import Idealize.ShloMosaic.Lib.StableHlo.Run

noncomputable section

namespace Cert.LibAfter

open Idealize.ShloMosaic Idealize.ShloMosaic.StableHlo

variable {τ : Topo} {sig : RefSig} {Val : EltTy → Type}

/-- The contents after two lines run one after the other. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A buffer no operation from position k on writes holds what the first k operations left. -/
theorem after_take (ops : List (HloOp τ sig Val)) (k : Nat) (V : Valuation τ sig Val) (b : DevRef τ sig)
    (h : ∀ o ∈ ops.drop k, b ∉ o.writes) : after ops V b = after (ops.take k) V b := by
  conv_lhs => rw [← List.take_append_drop k ops]
  rw [after_append, after_of_forall_not_mem _ _ h]

/-- A buffer no operation after position k writes holds what operation k left, run on what the first k operations left. -/
theorem after_at (ops : List (HloOp τ sig Val)) (k : Nat) (hk : k < ops.length) (V : Valuation τ sig Val)
    (b : DevRef τ sig) (h : ∀ o ∈ ops.drop (k + 1), b ∉ o.writes) :
    after ops V b = (ops[k]).result (after (ops.take k) V) b := by
  conv_lhs => rw [← List.take_append_drop k ops, List.drop_eq_getElem_cons hk]
  rw [after_append, after_cons, after_of_forall_not_mem _ _ h]

/-- The line writes, operation by operation, exactly the references ys, one each. -/
def Writes (ops : List (HloOp τ sig Val)) (ys : List (Ref sig .tc)) : Prop :=
  ops.map (fun o => o.writes) = ys.map fun y => ({Proc.devRef .tc y} : Finset (DevRef τ sig))

/-- A reference that is not among ys from position k on is written by no operation from position k on. -/
theorem Writes.not_written {ops : List (HloOp τ sig Val)} {ys : List (Ref sig .tc)} (hW : Writes ops ys) (k : Nat)
    (x : Ref sig .tc) (hx : x ∉ ys.drop k) : ∀ o ∈ ops.drop k, (Proc.devRef .tc x : DevRef τ sig) ∉ o.writes := by
  intro o ho hmem
  have h1 : o.writes ∈ (ops.drop k).map (fun o => o.writes) := List.mem_map_of_mem ho
  rw [List.map_drop, hW, ← List.map_drop] at h1
  obtain ⟨y', hy', he⟩ := List.mem_map.mp h1
  rw [← he, Finset.mem_singleton] at hmem
  have hxy : x = y' := Proc.devRef_injective _ hmem
  exact hx (hxy ▸ hy')

variable {ops : List (HloOp τ sig Val)} {ys : List (Ref sig .tc)}

/-- What the line leaves in the buffer operation k writes: operation k's result on what the first k operations left. -/
theorem Writes.at (hW : Writes ops ys) (V : Valuation τ sig Val) (k : Nat) {op : HloOp τ sig Val} {y : Ref sig .tc}
    (hop : ops[k]? = some op) (hy : y ∉ ys.drop (k + 1)) :
    after ops V (Proc.devRef .tc y) = op.result (after (ops.take k) V) (Proc.devRef .tc y) := by
  obtain ⟨hk, he⟩ := List.getElem?_eq_some_iff.mp hop
  rw [after_at ops k hk V _ (hW.not_written (k + 1) y hy), he]

/-- A buffer not written from position k on: what the first k operations left there is what the whole line leaves. -/
theorem Writes.back (hW : Writes ops ys) (V : Valuation τ sig Val) (k : Nat) (x : Ref sig .tc) (hx : x ∉ ys.drop k) :
    after (ops.take k) V (Proc.devRef .tc x) = after ops V (Proc.devRef .tc x) :=
  (after_take ops k V _ (hW.not_written k x hx)).symm

/-- A buffer the line never writes keeps its contents. -/
theorem Writes.kept (hW : Writes ops ys) (V : Valuation τ sig Val) (x : Ref sig .tc) (hx : x ∉ ys) :
    after ops V (Proc.devRef .tc x) = V (Proc.devRef .tc x) :=
  after_of_forall_not_mem ops V (hW.not_written 0 x hx)

/-! ## One operation: its result buffer from its operands' buffers, all after the whole line -/

theorem Writes.nullary (hW : Writes ops ys) (V : Valuation τ sig Val) (k : Nat) {y : Ref sig .tc} {v : y.ty.Contents Val} {hy}
    (hop : ops[k]? = some (nullary y v hy)) (hy' : y ∉ ys.drop (k + 1)) :
    after ops V (Proc.devRef .tc y) = v := by
  rw [hW.at V k hop hy', nullary_result]

theorem Writes.unary (hW : Writes ops ys) (V : Valuation τ sig Val) (k : Nat) {x y : Ref sig .tc}
    {f : x.ty.Contents Val → y.ty.Contents Val} {hx hy}
    (hop : ops[k]? = some (unary x y f hx hy)) (hy' : y ∉ ys.drop (k + 1)) (hx' : x ∉ ys.drop k) :
    after ops V (Proc.devRef .tc y) = f (after ops V (Proc.devRef .tc x)) := by
  rw [hW.at V k hop hy', unary_result]
  exact congrArg f (hW.back V k x hx')

theorem Writes.binary (hW : Writes ops ys) (V : Valuation τ sig Val) (k : Nat) {a b y : Ref sig .tc}
    {f : a.ty.Contents Val → b.ty.Contents Val → y.ty.Contents Val} {ha hb hy}
    (hop : ops[k]? = some (binary a b y f ha hb hy)) (hy' : y ∉ ys.drop (k + 1)) (ha' : a ∉ ys.drop k)
    (hb' : b ∉ ys.drop k) :
    after ops V (Proc.devRef .tc y) = f (after ops V (Proc.devRef .tc a)) (after ops V (Proc.devRef .tc b)) := by
  rw [hW.at V k hop hy', binary_result]
  exact congrArg₂ f (hW.back V k a ha') (hW.back V k b hb')

theorem Writes.ternary (hW : Writes ops ys) (V : Valuation τ sig Val) (k : Nat) {c a b y : Ref sig .tc}
    {f : c.ty.Contents Val → a.ty.Contents Val → b.ty.Contents Val → y.ty.Contents Val} {hc ha hb hy}
    (hop : ops[k]? = some (ternary c a b y f hc ha hb hy)) (hy' : y ∉ ys.drop (k + 1)) (hc' : c ∉ ys.drop k)
    (ha' : a ∉ ys.drop k) (hb' : b ∉ ys.drop k) :
    after ops V (Proc.devRef .tc y)
      = f (after ops V (Proc.devRef .tc c)) (after ops V (Proc.devRef .tc a)) (after ops V (Proc.devRef .tc b)) := by
  rw [hW.at V k hop hy', ternary_result, hW.back V k c hc', hW.back V k a ha', hW.back V k b hb']

theorem Writes.reshape (hW : Writes ops ys) (V : Valuation τ sig Val) (k : Nat) {x y : Ref sig .tc}
    {he : x.ty.elt = y.ty.elt} {hn : x.ty.shape.ShapeCasts y.ty.shape} {hx hy}
    (hop : ops[k]? = some (reshape x y he hn hx hy)) (hy' : y ∉ ys.drop (k + 1)) (hx' : x ∉ ys.drop k) :
    after ops V (Proc.devRef .tc y) = fun i => he ▸ shapeCast y.ty.shape (after ops V (Proc.devRef .tc x)) hn i := by
  rw [hW.at V k hop hy', reshape_result, hW.back V k x hx']

/-! ## The same for an operation of a called function

  A called function's operation names its buffers through typed references and carries contents across the equation
  "the buffer's type is the value's type". When that equation is the reflexive one the transport is the identity, and
  the operation's function applies to the buffers' contents as they are. -/

theorem Writes.tunary (hW : Writes ops ys) (V : Valuation τ sig Val) (k : Nat) {x y : Ref sig .tc} {ox ux oy uy}
    {g : x.ty.Contents Val → y.ty.Contents Val}
    (hop : ops[k]? = some (TRef.unary (⟨x, rfl, ox, ux⟩ : TRef sig x.ty) (⟨y, rfl, oy, uy⟩ : TRef sig y.ty) g))
    (hy' : y ∉ ys.drop (k + 1)) (hx' : x ∉ ys.drop k) :
    after ops V (Proc.devRef .tc y) = g (after ops V (Proc.devRef .tc x)) := by
  have h := hW.unary V k hop hy' hx'
  simpa only [TRef.toBuf, TRef.ofBuf, cast_eq] using h

theorem Writes.tbinary (hW : Writes ops ys) (V : Valuation τ sig Val) (k : Nat) {a b y : Ref sig .tc} {oa ua ob ub oy uy}
    {g : a.ty.Contents Val → b.ty.Contents Val → y.ty.Contents Val}
    (hop : ops[k]? = some (TRef.binary (⟨a, rfl, oa, ua⟩ : TRef sig a.ty) (⟨b, rfl, ob, ub⟩ : TRef sig b.ty)
      (⟨y, rfl, oy, uy⟩ : TRef sig y.ty) g))
    (hy' : y ∉ ys.drop (k + 1)) (ha' : a ∉ ys.drop k) (hb' : b ∉ ys.drop k) :
    after ops V (Proc.devRef .tc y) = g (after ops V (Proc.devRef .tc a)) (after ops V (Proc.devRef .tc b)) := by
  have h := hW.binary V k hop hy' ha' hb'
  simpa only [TRef.toBuf, TRef.ofBuf, cast_eq] using h

theorem Writes.tternary (hW : Writes ops ys) (V : Valuation τ sig Val) (k : Nat) {c a b y : Ref sig .tc}
    {oc uc oa ua ob ub oy uy} {g : c.ty.Contents Val → a.ty.Contents Val → b.ty.Contents Val → y.ty.Contents Val}
    (hop : ops[k]? = some (TRef.ternary (⟨c, rfl, oc, uc⟩ : TRef sig c.ty) (⟨a, rfl, oa, ua⟩ : TRef sig a.ty)
      (⟨b, rfl, ob, ub⟩ : TRef sig b.ty) (⟨y, rfl, oy, uy⟩ : TRef sig y.ty) g))
    (hy' : y ∉ ys.drop (k + 1)) (hc' : c ∉ ys.drop k) (ha' : a ∉ ys.drop k) (hb' : b ∉ ys.drop k) :
    after ops V (Proc.devRef .tc y)
      = g (after ops V (Proc.devRef .tc c)) (after ops V (Proc.devRef .tc a)) (after ops V (Proc.devRef .tc b)) := by
  have h := hW.ternary V k hop hy' hc' ha' hb'
  simpa only [TRef.toBuf, TRef.ofBuf, cast_eq] using h

end Cert.LibAfter

end
-- ==== Proof.RefRun.lean ====
/-
  The reference program's run, read back as one term of its three arguments.

  The program is a straight line of 144 host operations once its three calls (the remainder by 32000, which itself
  calls a select, and the clip to [1e-7, 1]) are unfolded at their sites over the calls' buffer records. Such a line
  terminates with every buffer at the fold of the operations' results over the launch contents. Every buffer is
  written by one operation, so what the line leaves in an operation's result buffer is the operation's function of what
  the line leaves in its operand buffers: one equation per operation. The equations are chained stage by stage, each
  stage one of the result term's named parts — the second class, the clipped softmax, the four picked columns, the
  rows' contributions, minus their mean — and inside a stage the chain is closed by unfolding the part's definition.
-/
import proofs.«412134_j71330816852650_3_alg».proof.Proof.RefOps
import proofs.«412134_j71330816852650_3_alg».proof.Proof.RefTerm
import proofs.«412134_j71330816852650_3_alg».proof.Proof.LibAfter

noncomputable section

namespace Cert.NL.Ref

open Cert.ReferenceIdeal Cert.ReferenceIdeal.Facts₀ Idealize.ShloMosaic Idealize.ShloMosaic.StableHlo Idealize.SL.Sem Cert.LibAfter

variable {F : FTy → Type} [FloatOps F]

/-! ## The program is the line -/

-- about 150 binds re-associated: the rewriting under the chain recurses once per statement
set_option maxRecDepth 4096 in
set_option maxHeartbeats 4000000 in
/-- @main is the line of its operations: its two windows and the three functions' bodies unfolded, the records'
    fields read, both sides are one chain of steps once sequencing is re-associated. -/
theorem main_eq (c : Dev nD) : main (F := F) c = seq ops := by
  simp only [main, main_part0, main_part1, fn_remainder.body, fn_where.body, fn_clip.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig := by
  simp only [List.Forall, nullary_bufs_sub, unary_bufs_sub, binary_bufs_sub, ternary_bufs_sub, and_self]

/-- Operation k writes the k-th reference of the list, and nothing else. -/
theorem hW : Writes (ops : List (HloOp τ sig (Elt F))) ys := rfl

/-! ## One equation per operation

  S⟨V, b⟩ is what the line leaves in buffer b from contents V. The equation of the operation at position k says
  S⟨V, y⟩ = f S⟨V, a⟩ S⟨V, b⟩ for its result y, its function f and its operands a, b: that position k holds this
  operation is a computation on the list, and that y is not written after position k, nor an operand from position k on,
  a decided question about the list of written references. One term per arity, and per arity one for an operation of
  a called function, whose references are typed. -/

local notation "S⟨" V ", " b "⟩" => after ops V (Proc.devRef Proc.tc b)

local macro "at0 " V:term:max k:num : term => `(Writes.nullary hW $V $k rfl (by decide))
local macro "at1 " V:term:max k:num : term => `(Writes.unary hW $V $k rfl (by decide) (by decide))
local macro "at2 " V:term:max k:num : term => `(Writes.binary hW $V $k rfl (by decide) (by decide) (by decide))
local macro "at3 " V:term:max k:num : term => `(Writes.ternary hW $V $k rfl (by decide) (by decide) (by decide) (by decide))
local macro "tat1 " V:term:max k:num : term => `(Writes.tunary hW $V $k rfl (by decide) (by decide))
local macro "tat2 " V:term:max k:num : term => `(Writes.tbinary hW $V $k rfl (by decide) (by decide) (by decide))
local macro "tat3 " V:term:max k:num : term => `(Writes.tternary hW $V $k rfl (by decide) (by decide) (by decide) (by decide))

variable (V : Valuation τ sig (Elt F))

/-! ## The stages

  In each stage the result buffer's equation is rewritten first, then its operands', and so on down to the stage's
  inputs, latest operation first, so that every buffer is rewritten once, at all its occurrences; what is left is the
  stage's definition unfolded. -/

/-- Positions 0 … 22: the sum of the two words, then the called remainder by 32000 (positions 2 … 22, the called
    select at 6), is the second class. -/
theorem tneg_eq : S⟨V, main_v1⟩ = tneg S⟨V, main_arg1⟩ S⟨V, main_arg2⟩ := by
  rw [tat3 V 22, tat2 V 21, tat1 V 20, tat2 V 19, tat2 V 18, tat1 V 17, tat2 V 16, at0 V 15, tat2 V 14, tat1 V 13, at0 V 12,
    tat2 V 11, tat1 V 10, at0 V 9, tat2 V 8, tat1 V 7, tat3 V 6, at0 V 5, tat2 V 4, at0 V 3, tat1 V 2, at0 V 1, at2 V 0]
  rfl

/-- Positions 23 … 44: the softmax along the columns, then the called clip (positions 39 … 44). -/
theorem pred_eq : S⟨V, main_v13⟩ = pred S⟨V, main_arg0⟩ := by
  rw [tat2 V 44, tat1 V 43, tat1 V 42, tat2 V 41, tat1 V 40, tat1 V 39, at0 V 38, at0 V 37, at2 V 36, at1 V 35, at1 V 34,
    at2 V 33, at0 V 32, at1 V 31, at2 V 30, at1 V 29, at1 V 28, at2 V 27, at1 V 26, at0 V 25, at2 V 24, at0 V 23]
  rfl

/-- Positions 45 … 63: the clipped softmax at the columns the class words name. -/
theorem py_eq : S⟨V, main_v28⟩ = pick S⟨V, main_v13⟩ S⟨V, main_arg1⟩ := by
  rw [at2 V 63, at2 V 62, at1 V 61, at1 V 60, at3 V 59, at2 V 58, at1 V 57, at0 V 56, at2 V 55, at1 V 54, at0 V 53,
    at3 V 52, at2 V 51, at1 V 50, at0 V 49, at2 V 48, at1 V 47, at0 V 46, at0 V 45]
  rfl

/-- Positions 64 … 81 (the row numbers from position 45): the clipped softmax at the second class's columns. -/
theorem pk_eq : S⟨V, main_v42⟩ = pick S⟨V, main_v13⟩ S⟨V, main_v1⟩ := by
  rw [at2 V 81, at2 V 80, at1 V 79, at1 V 78, at3 V 77, at2 V 76, at1 V 75, at0 V 74, at2 V 73, at1 V 72, at0 V 71,
    at3 V 70, at2 V 69, at1 V 68, at0 V 67, at2 V 66, at1 V 65, at0 V 64, at0 V 45]
  rfl

/-- Positions 100 … 117 (the row numbers from position 45): the scores at the second class's columns. -/
theorem oneg_eq : S⟨V, main_v72⟩ = pick S⟨V, main_arg0⟩ S⟨V, main_v1⟩ := by
  rw [at2 V 117, at2 V 116, at1 V 115, at1 V 114, at3 V 113, at2 V 112, at1 V 111, at0 V 110, at2 V 109, at1 V 108, at0 V 107,
    at3 V 106, at2 V 105, at1 V 104, at0 V 103, at2 V 102, at1 V 101, at0 V 100, at0 V 45]
  rfl

/-- Positions 118 … 135 (the row numbers from position 45): the scores at the columns the class words name. -/
theorem opos_eq : S⟨V, main_v86⟩ = pick S⟨V, main_arg0⟩ S⟨V, main_arg1⟩ := by
  rw [at2 V 135, at2 V 134, at1 V 133, at1 V 132, at3 V 131, at2 V 130, at1 V 129, at0 V 128, at2 V 127, at1 V 126, at0 V 125,
    at3 V 124, at2 V 123, at1 V 122, at0 V 121, at2 V 120, at1 V 119, at0 V 118, at0 V 45]
  rfl

/-- Positions 82 … 99 and 136 … 138: the rows' contributions, from the four picked columns. -/
theorem contrib_eq : S⟨V, main_v89⟩ = contrib S⟨V, main_arg0⟩ S⟨V, main_arg1⟩ S⟨V, main_arg2⟩ := by
  rw [at2 V 138, at2 V 137, at2 V 136, at2 V 99, at2 V 98, at2 V 97, at2 V 96, at2 V 95, at2 V 94, at2 V 93, at2 V 92,
    at1 V 91, at0 V 90, at2 V 89, at1 V 88, at2 V 87, at2 V 86, at2 V 85, at1 V 84, at0 V 83, at2 V 82,
    opos_eq, oneg_eq, pk_eq, py_eq, pred_eq, tneg_eq]
  rfl

/-- Positions 139 … 143: minus the mean of the contributions. -/
theorem out_stage : S⟨V, main_v92⟩ = out S⟨V, main_arg0⟩ S⟨V, main_arg1⟩ S⟨V, main_arg2⟩ := by
  rw [at1 V 143, at2 V 142, at0 V 141, at2 V 140, at0 V 139, contrib_eq]
  rfl

/-- No operation writes an argument. -/
theorem arg0_kept : S⟨V, main_arg0⟩ = V (Proc.devRef .tc main_arg0) := hW.kept V main_arg0 (by decide)
theorem arg1_kept : S⟨V, main_arg1⟩ = V (Proc.devRef .tc main_arg1) := hW.kept V main_arg1 (by decide)
theorem arg2_kept : S⟨V, main_arg2⟩ = V (Proc.devRef .tc main_arg2) := hW.kept V main_arg2 (by decide)

/-- The result buffer after the line, from the arguments' contents before it. -/
theorem result_stage : S⟨V, main_v92⟩
    = out (V (Proc.devRef .tc main_arg0)) (V (Proc.devRef .tc main_arg1)) (V (Proc.devRef .tc main_arg2)) := by
  rw [out_stage, arg0_kept, arg1_kept, arg2_kept]

/-! ## The run -/

/-- On every device, for any float values, from any memory with zero counters: every weakly fair execution of @main
    terminates with the result buffer at the result term of the arguments' launch contents and the arguments
    unchanged. -/
theorem run (m : (ℓ : Loc nD τ sig) → Buf (Elt F) ℓ) (ρ : Dev nD → PrngReg) :
    θ_run (Cert.ReferenceIdeal.defs (F := F)) (onTc (τ := τ) (main (F := F))) ⟨m, fun _ => 0, ρ⟩ fun r => ∀ c : Dev nD,
      r.2.mem ((c.tc : Thread nD τ).loc main_v92)
          = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v92).trans (result_stage _), (h c main_arg0).trans (arg0_kept _),
      (h c main_arg1).trans (arg1_kept _), (h c main_arg2).trans (arg2_kept _)⟩)
    (run_seq scopedRefs_eq scopedSems_eq defs main (fun _ => ops) main_eq (fun _ => ops_sub) m ρ)

end Cert.NL.Ref

end
-- ==== Proof.RefValue.lean ====
/-
  The reference's result term, read at the extended reals: minus the mean of the rows' contributions.

  Row by row: the row maximum and the row sum of exponentials are the reductions over the columns; the clipped softmax at
  a column is the probability of the score there; picking at in-range words reads the named column; the contribution is
  the loss term of the two probabilities and the two scores; the sum from zero over the rows, divided by 4096, negated.
-/
import proofs.«412134_j71330816852650_3_alg».proof.Proof.RefTerm
import proofs.«412134_j71330816852650_3_alg».proof.Proof.Total
import proofs.«412134_j71330816852650_3_alg».proof.Proof.LibRowRead
import Idealize.ShloMosaic.PureOps.Ideal.Laws
import Idealize.ShloMosaic.Lib.ValueIdx
import Idealize.ShloMosaic.Lib.ValueIdxRank1
import Idealize.ShloMosaic.Lib.Pipeline.Value

noncomputable section

namespace Cert.NL.Ref

open Idealize.ShloMosaic Idealize.ShloMosaic.ValueIdx Cert.ReferenceIdeal Cert.ReferenceIdeal.Facts₀ Cert.NL

/-! ## Host reductions read at an index -/

/-- The host's sum over the columns, at row p: the initial value plus the sum of the row's entries. -/
theorem hostRowSum_apply (v : FVec Ideal RC .f32) (init : R0.Idx → Ideal .f32)
    (h' : RC.ReducesTo [1] R1) (hu : 0 < R0.numel) (p : Fin 4096) :
    Host.reduceAdd (F := Ideal) v init h' hu (ix1 p) = init (Shape.Idx.first hu) + ∑ k : Fin 32000, v (ix2 p k) := by
  have h : RC.Reduces [1] R1 := by decide
  show Ideal.hostReduceAdd h' v (init (Shape.Idx.first hu)) (ix1 p) = _
  rw [Ideal.hostReduceAdd_single h' h]
  exact congrArg (init (Shape.Idx.first hu) + ·)
    (Finset.sum_congr rfl fun k _ => congrArg v (Cert.RowRead.lift_row h p k))

/-- The host's sum over the rows of a vector, at the one index of the result: the initial value plus the sum of
    the entries. -/
theorem hostTotalSum_apply (v : FVec Ideal R1 .f32) (init : R0.Idx → Ideal .f32)
    (h' : R1.ReducesTo [0] R0) (hu : 0 < R0.numel) (j : R0.Idx) :
    Host.reduceAdd (F := Ideal) v init h' hu j = init (Shape.Idx.first hu) + ∑ r : Fin 4096, v (ix1 r) := by
  show Ideal.hostReduceAdd h' v (init (Shape.Idx.first hu)) j = _
  rw [Ideal.hostReduceAdd_total h' (fun b => b.elim0)]
  exact congrArg (init (Shape.Idx.first hu) + ·) (Equiv.sum_comp (idxEquiv1 (n := 4096)).symm v).symm

/-! ## A row statistic put back on every column -/

/-- A vector over the rows as a column, broadcast over the columns, reads at (r, c) the vector at r. -/
theorem keep_apply {α : Type} (v : R1.Idx → α) (h1 : R1.BroadcastsInDim R11 (![0] : Fin 1 → Fin R11.rank))
    (h2 : R11.BroadcastsInDim RC (![0, 1] : Fin 2 → Fin RC.rank)) (r : Fin 4096) (c : Fin 32000) :
    broadcastInDim RC ![0, 1] h2 (broadcastInDim R11 ![0] h1 v) (ix2 r c) = v (ix1 r) := by
  rw [broadcastInDim_apply ![0, 1] h2 _ (ix2 r c) (ix2 r (0 : Fin 1)) (fun a => by fin_cases a <;> rfl)]
  exact broadcastInDim_apply ![0] h1 v (ix2 r (0 : Fin 1)) (ix1 r) (fun a => by fin_cases a; rfl)

/-- A scalar broadcast to any shape reads the scalar. -/
theorem scalar_apply {α : Type} {T : Shape} (h : R0.BroadcastsInDim T (![] : Fin 0 → Fin T.rank)) (v : R0.Idx → α)
    (j : T.Idx) (k : R0.Idx) : broadcastInDim T ![] h v j = v k := by
  unfold broadcastInDim; exact congrArg v (funext fun a => a.elim0)

/-! ## Host operations at an entry -/

/-- The host's quotient, entry by entry. -/
theorem hostDivf_at {s : Shape} (a b : FVec Ideal s .f32) (i : s.Idx) : Host.divf (F := Ideal) a b i = Ideal.div (a i) (b i) := rfl

/-- The host's exponential, entry by entry. -/
theorem hostExp_at {s : Shape} (a : FVec Ideal s .f32) (i : s.Idx) : Host.exp (F := Ideal) a i = Ideal.exp (a i) := rfl

/-- The host's negation, entry by entry. -/
theorem hostNegf_at {s : Shape} (a : FVec Ideal s .f32) (i : s.Idx) : Host.negf (F := Ideal) a i = -(a i) := rfl

/-! ## The clipped softmax, entry by entry -/

/-- The maximum with the word of 1e-7 first, then the minimum with the word of 1, at an entry: the clip. -/
theorem clip_apply (w : FVec Ideal RC .f32) (hb : R0.BroadcastsInDim RC (![] : Fin 0 → Fin RC.rank)) (j : RC.Idx) :
    minimumf (broadcastInDim RC ![] hb (constant (F := Ideal) R0 .f32 0x3F800000#32))
      (maximumf (broadcastInDim RC ![] hb (constant (F := Ideal) R0 .f32 0x33D6BF95#32)) w) j = clip (w j) := by
  rw [minimumf_apply, maximumf_apply, scalar_apply hb _ j ix0, scalar_apply hb _ j ix0, constant_apply, constant_apply,
    Cert.RowRead.word_one]
  rfl

/-- The maximum over the columns from −∞, then once more against −∞: the row's maximum. -/
theorem rowMaxTerm_apply (x : FVec Ideal RC .f32) (hb : R0.BroadcastsInDim R1 (![] : Fin 0 → Fin R1.rank))
    (h' : RC.ReducesTo [1] R1) (hu : 0 < R0.numel) (r : Fin 4096) :
    maximumf (broadcastInDim R1 ![] hb (constant (F := Ideal) R0 .f32 0xFF800000#32))
      (Host.reduce FloatOps.maximumf x (constant (F := Ideal) R0 .f32 0xFF800000#32) h' hu) (ix1 r)
      = rowMax (rowOf x r) := by
  have h : RC.Reduces [1] R1 := by decide
  rw [maximumf_apply, scalar_apply hb _ (ix1 r) ix0, Cert.RowRead.hostRowMax_apply x _ h' h hu r, constant_apply,
    constant_apply, Cert.RowRead.word_neg_inf, max_bot_left]
  rfl

/-- Exponentials of the scores less a row statistic m, divided by their row sums from zero: at (r, c), the
    exponential there over the sum of the row's exponentials. -/
theorem softmax_apply (x : FVec Ideal RC .f32) (m : FVec Ideal R1 .f32)
    (h1 : R1.BroadcastsInDim R11 (![0] : Fin 1 → Fin R11.rank))
    (h2 : R11.BroadcastsInDim RC (![0, 1] : Fin 2 → Fin RC.rank))
    (h' : RC.ReducesTo [1] R1) (hu : 0 < R0.numel) (r : Fin 4096) (c : Fin 32000) :
    Host.divf (F := Ideal) (Host.exp (F := Ideal) (subf x (broadcastInDim RC ![0, 1] h2 (broadcastInDim R11 ![0] h1 m))))
      (broadcastInDim RC ![0, 1] h2 (broadcastInDim R11 ![0] h1
        (Host.reduceAdd (F := Ideal)
          (Host.exp (F := Ideal) (subf x (broadcastInDim RC ![0, 1] h2 (broadcastInDim R11 ![0] h1 m))))
          (constant (F := Ideal) R0 .f32 0x00000000#32) h' hu))) (ix2 r c)
      = Ideal.div (Ideal.exp (x (ix2 r c) - m (ix1 r))) (∑ k : Fin 32000, Ideal.exp (x (ix2 r k) - m (ix1 r))) := by
  have he : ∀ k : Fin 32000,
      Host.exp (F := Ideal) (subf x (broadcastInDim RC ![0, 1] h2 (broadcastInDim R11 ![0] h1 m))) (ix2 r k)
        = Ideal.exp (x (ix2 r k) - m (ix1 r)) := fun k => by
    rw [hostExp_at, subf_apply, keep_apply]
  rw [hostDivf_at, keep_apply, hostRowSum_apply, he c, constant_apply, Cert.RowRead.word_zero, zero_add]
  exact congrArg (Ideal.div _) (Finset.sum_congr rfl fun k _ => he k)

section
variable [Cert.ReferenceIdeal.Facts]

/-- The clipped softmax at (r, c): the probability of the score there in its row. -/
theorem pred_apply (x : FVec Ideal S4096x32000 .f32) (r : Fin 4096) (c : Fin 32000) :
    pred (F := Ideal) x (ix2 r c) = prob (rowOf x r) (x (ix2 r c)) := by
  dsimp only [pred]
  rw [clip_apply, softmax_apply, rowMaxTerm_apply]
  rfl

/-! ## The picked columns -/

/-- Picking at words that are natural numbers below 32000 reads, in row r, the column the word names. -/
theorem pick_apply {α : Type} (a : S4096x32000.Idx → α) (idx : IVec S4096 32)
    (hidx : ∀ r : Fin 4096, (idx (ix1 r)).toNat < 32000) (r : Fin 4096) :
    pick a idx (ix1 r) = a (ix2 r (⟨(idx (ix1 r)).toNat, hidx r⟩ : Fin 32000)) :=
  pickV_apply a idx _ _ _ _ rfl rfl rfl rfl rfl rfl hidx r

/-- At the class words: the column of the row's class. -/
theorem pick_t {α : Type} (a : S4096x32000.Idx → α) (t : IVec S4096 32)
    (ht : ∀ r : Fin 4096, (t (ix1 r)).toNat < 32000) (r : Fin 4096) :
    pick a t (ix1 r) = a (ix2 r (colT t ht r)) := pick_apply a t ht r

/-- At the second class: the column of the remainder of class plus offset. -/
theorem pick_tneg {α : Type} (a : S4096x32000.Idx → α) (t n : IVec S4096 32) (r : Fin 4096) :
    pick a (tneg t n) (ix1 r) = a (ix2 r (colN t n bcast_S_S4096 r)) :=
  pick_apply a (tneg t n) (fun r => remV_lt (addi t n) bcast_S_S4096 r) r

end

/-! ## A row's contribution -/

/-- The contribution's arithmetic on four vectors over the rows, at row r: the loss term of their entries. -/
theorem loss_apply (py pk opos oneg : FVec Ideal R1 .f32) (hb : R0.BroadcastsInDim R1 (![] : Fin 0 → Fin R1.rank))
    (r : Fin 4096) :
    addf
      (mulf
        (subf
          (mulf (Host.negf (F := Ideal) (mulf pk (addf py pk)))
            (subf (broadcastInDim R1 ![] hb (constant (F := Ideal) R0 .f32 0x3F800000#32)) (subf pk py)))
          (mulf (mulf pk (subf (broadcastInDim R1 ![] hb (constant (F := Ideal) R0 .f32 0x3F800000#32)) pk))
            (subf (broadcastInDim R1 ![] hb (constant (F := Ideal) R0 .f32 0x3F800000#32)) (subf pk py))))
        oneg)
      (mulf
        (addf (mulf pk (subf (broadcastInDim R1 ![] hb (constant (F := Ideal) R0 .f32 0x3F800000#32)) (subf pk py)))
          (mulf (mulf pk py)
            (subf (broadcastInDim R1 ![] hb (constant (F := Ideal) R0 .f32 0x3F800000#32)) (subf pk py))))
        opos) (ix1 r)
      = lossTerm (py (ix1 r)) (pk (ix1 r)) (opos (ix1 r)) (oneg (ix1 r)) := by
  have h1 : broadcastInDim R1 ![] hb (constant (F := Ideal) R0 .f32 0x3F800000#32) (ix1 r) = 1 := by
    rw [scalar_apply hb _ (ix1 r) ix0, constant_apply, Cert.RowRead.word_one]
  simp only [addf_apply, subf_apply, mulf_apply, hostNegf_at, h1, lossTerm]

section
variable [Cert.ReferenceIdeal.Facts]

/-- Row r's contribution is the row's loss at its two picked columns. -/
theorem contrib_apply (x : FVec Ideal S4096x32000 .f32) (t n : IVec S4096 32)
    (ht : ∀ r : Fin 4096, (t (ix1 r)).toNat < 32000) (r : Fin 4096) :
    contrib (F := Ideal) x t n (ix1 r) = rowLoss (rowOf x r) (colT t ht r) (colN t n bcast_S_S4096 r) := by
  dsimp only [contrib]
  rw [loss_apply, pick_t _ t ht, pick_t _ t ht, pick_tneg, pick_tneg, pred_apply, pred_apply]
  rfl

/-- With every score real and every class word a natural number below 32000, the reference's result (its one entry)
    is minus the mean of the rows' contributions. -/
theorem out_eq (x : FVec Ideal S4096x32000 .f32) (t n : IVec S4096 32)
    (hx : ∀ i, ∃ q : ℝ, x i = (q : EReal)) (ht : ∀ r : Fin 4096, (t (ix1 r)).toNat < 32000) :
    out (F := Ideal) x t n = fun _ => total x t n bcast_S_S4096 ht := by
  funext j
  unfold out
  rw [hostNegf_at, hostDivf_at, hostTotalSum_apply, constant_apply, constant_apply, Cert.RowRead.word_zero, total]
  exact congrArg (fun s => -(Ideal.div (0 + s) rows)) (Finset.sum_congr rfl fun r _ => contrib_apply x t n ht r)

end

end Cert.NL.Ref

end
-- ==== Proof.PreFacts.lean ====
/-
  What the precondition says, decoded: every score is a real number, and every class word is a natural number below 32000.

  The precondition is the conjunction of three tests reduced by "and" over all entries: |x| < +∞ at every score,
  0 ≤ t and t < 32000 (as signed words) at every class word. An extended real whose absolute value is below +∞ is a
  real number; a word that is non-negative and below 32000 as a signed integer is a natural number below 32000.
-/
import proofs.«412134_j71330816852650_3_alg».proof.Pre_finite_inputs
import Idealize.ShloMosaic.PureOps.Ideal
import Idealize.ShloMosaic.Lib.ReduceAll
import Idealize.ShloMosaic.Lib.ValueIdx
import Idealize.ShloMosaic.Lib.StableHlo.Predicate

noncomputable section

namespace Cert.NL

open Idealize.ShloMosaic Idealize.ShloMosaic.ValueIdx

namespace PreFacts

/-- The scalar shape has one index. -/
theorem subsingleton_scalar_idx : Subsingleton Cert.Pre_finite_inputs.S_.Idx :=
  ⟨fun _ _ => funext fun d => d.elim0⟩

/-- An extended real whose absolute value max v (−v) is below +∞ is a real number: |−∞| = |+∞| = +∞. -/
theorem real_of_abs_lt_top (v : EReal) (h : max v (-v) < ⊤) : ∃ q : ℝ, v = (q : EReal) := by
  induction v using EReal.rec with
  | bot => simp at h
  | coe r => exact ⟨r, rfl⟩
  | top => simp at h

/-- The float test at one score: |v| compared "less than" with the word of +∞ being 1 makes v real. -/
theorem real_of_test (v : Ideal .f32)
    (h : FloatOps.cmpf .olt (FloatOps.hostAbsf v) (FloatOps.ofBits (F := Ideal) .f32 0x7F800000#32) = 1#1) :
    ∃ q : ℝ, v = (q : EReal) := by
  have e : FloatOps.ofBits (F := Ideal) .f32 0x7F800000#32 = (⊤ : EReal) := by
    simp [Ideal.ofBits, Ideal.ieee]
  rw [e] at h
  apply real_of_abs_lt_top
  by_contra hn
  have : FloatOps.cmpf (F := Ideal) .olt (FloatOps.hostAbsf v) (⊤ : EReal) = 0#1 := by
    show Ideal.cmp .olt (max v (-v)) ⊤ = 0#1
    simp [Ideal.cmp, hn]
  rw [this] at h
  exact absurd h (by decide)

/-- A word that tests non-negative and below 32000 as a signed integer is a natural number below 32000. -/
theorem toNat_lt_of_tests (w : BitVec 32) (h0 : IntOp.cmpi .sge w 0#32 = 1#1)
    (h1 : IntOp.cmpi .slt w 32000#32 = 1#1) : w.toNat < 32000 := by
  rw [IntOp.cmpi_sge] at h0
  rw [IntOp.cmpi_slt] at h1
  have e0 : (0#32 : BitVec 32).toInt = 0 := by decide
  have e1 : (32000#32 : BitVec 32).toInt = 32000 := by decide
  rw [e0] at h0
  rw [e1] at h1
  have hc := BitVec.toInt_eq_toNat_cond w
  split at hc <;> omega

end PreFacts

/-- The precondition all ones means: every score real, every class word a natural number below 32000. -/
theorem pre_facts [Cert.Pre_finite_inputs.Facts] (x : FVec Ideal Cert.Pre_finite_inputs.S4096x32000 .f32)
    (t n : IVec Cert.Pre_finite_inputs.S4096 32)
    (h : Cert.Pre_finite_inputs.fn (F := Ideal) x t n = fun _ => 1#1) :
    (∀ i, ∃ q : ℝ, x i = (q : EReal)) ∧ (∀ r : Fin 4096, (t (ix1 r)).toNat < 32000) := by
  haveI := PreFacts.subsingleton_scalar_idx
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  have a1 := Host.reduce_andi_all _ _ _ _ _ h1
  have a2 := Host.reduce_andi_all _ _ _ _ _ h2
  have a3 := Host.reduce_andi_all _ _ _ _ _ h3
  exact ⟨fun i => PreFacts.real_of_test (x i) (a1 i), fun r => PreFacts.toNat_lt_of_tests _ (a2 (ix1 r)) (a3 (ix1 r))⟩

end Cert.NL

end
-- ==== Proof.lean ====
/-
  The certificate of a row-wise loss over a [4096, 32000] array of scores: per row, the softmax probabilities of two
  picked classes, clipped to [1e-7, 1], enter a fixed polynomial with the two picked scores; the result is minus the mean
  of the rows' values.

  The kernel program finds each row's maximum and normaliser in one pass over the columns, 1280 at a time, rescaling the
  running normaliser whenever the running maximum grows; it multiplies by the reciprocal of the normaliser, negates by
  subtracting from zero, and negates each row before the mean. The reference program takes the row maximum, the row sum of
  exponentials and the quotient directly, and negates the mean. Over the extended reals, with every score a real number,
  both are the same number: the one-pass maximum and normaliser are the row's (the rescaling is exp (u − m) · exp (m − m')
  = exp (u − m')), multiplying by 1 / L is dividing by L for a real L ≥ 1, and negation commutes with a mean of reals.
  The two picked classes are the class word of the row and (class + offset) mod 32000. The second is in range whatever
  the words; the first is assumed in range, as an index into the 32000 columns — outside it the two programs differ (one
  fills a not-a-number, the other clamps the index).

  The two programs' frames are the generated ones; the reference's frame is its run with the result dropped.
-/
import proofs.«412134_j71330816852650_3_alg».proof.Defs
import proofs.«412134_j71330816852650_3_alg».proof.Proof.Gen.Kernel
import proofs.«412134_j71330816852650_3_alg».proof.Proof.Gen.Kernel.Frame
import proofs.«412134_j71330816852650_3_alg».proof.Proof.Gen.KernelIdeal
import proofs.«412134_j71330816852650_3_alg».proof.Proof.Gen.KernelIdeal.Frame
import proofs.«412134_j71330816852650_3_alg».proof.Proof.Gen.ReferenceIdeal
import proofs.«412134_j71330816852650_3_alg».proof.Proof.Gen.Pre_finite_inputs
import proofs.«412134_j71330816852650_3_alg».proof.Proof.KerRun
import proofs.«412134_j71330816852650_3_alg».proof.Proof.KerValue
import proofs.«412134_j71330816852650_3_alg».proof.Proof.RefRun
import proofs.«412134_j71330816852650_3_alg».proof.Proof.RefValue
import proofs.«412134_j71330816852650_3_alg».proof.Proof.PreFacts
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.NL.Ref.run (F := Ideal) m ρ)

theorem preserves : Cert.preserves_Kernel_KernelIdeal := trivial

/-- Both programs end at minus the mean of the rows' contributions of arguments that agree. -/
theorem algebraic : Cert.algebraic_KernelIdeal_ReferenceIdeal := by
  intro m ρ m' ρ' hpre hagree
  have hf := fun c => Cert.NL.pre_facts _ _ _ (hpre c)
  refine ⟨fun c => Cert.NL.Ker.kout
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.NL.Ker.run m ρ (fun c => (hf c).1), ?_⟩
  refine (θ_run Cert.ReferenceIdeal.defs _ _).mono (fun _ h c => ⟨(h c).1.trans ?_, (h c).2⟩)
    (Cert.NL.Ref.run (F := Ideal) m' ρ')
  rw [(hagree c).1, (hagree c).2.1, (hagree c).2.2]
  show Cert.NL.Ref.out _ _ _ = Cert.NL.Ker.kout _ _ _
  rw [Cert.NL.Ker.kout_eq _ _ _ (hf c).1 (hf c).2]
  exact Cert.NL.Ref.out_eq _ _ _ (hf c).1 (hf c).2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
